-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512 : Shape := ⟨2, ![128, 512]⟩
abbrev S128 : Shape := ⟨1, ![128]⟩
abbrev S300000x512 : Shape := ⟨2, ![300000, 512]⟩
abbrev S_ : Shape := ⟨0, ![]⟩
abbrev S300000 : Shape := ⟨1, ![300000]⟩

class Facts : Prop where
  bcast_S_S128x512 : S_.BroadcastsInDim S128x512 (![] : Fin 0 → Fin S128x512.rank)
  reducesTo_S128x512_S_d0_1 : S128x512.ReducesTo [0, 1] S_
  h_S_ : 0 < S_.numel
  bcast_S_S300000x512 : S_.BroadcastsInDim S300000x512 (![] : Fin 0 → Fin S300000x512.rank)
  reducesTo_S300000x512_S_d0_1 : S300000x512.ReducesTo [0, 1] S_
  bcast_S_S128 : S_.BroadcastsInDim S128 (![] : Fin 0 → Fin S128.rank)
  reducesTo_S128_S_d0 : S128.ReducesTo [0] S_
  reducesTo_S300000x512_S300000_d1 : S300000x512.ReducesTo [1] S300000
  bcast_S_S300000 : S_.BroadcastsInDim S300000 (![] : Fin 0 → Fin S300000.rank)
  reducesTo_S300000_S_d0 : S300000.ReducesTo [0] S_

variable [Facts]

def fn_part1 {F : FTy → Type} [FloatOps F] (main_arg2 : FVec F S300000x512 .f32) (main_v12 : IVec S_ 1) (main_v15 : IVec S_ 1) : IVec S_ 1 :=
  let main_v16 : IVec S_ 1 := andi main_v12 main_v15
  let main_v17 : FVec F S300000x512 .f32 := mulf main_arg2 main_arg2
  let main_cst_6 : FVec F S_ .f32 := constant S_ .f32 0x00000000#32
  let main_v18 : FVec F S300000 .f32 := (fun x v => Host.reduceAdd x v reducesTo_S300000x512_S300000_d1 h_S_) main_v17 main_cst_6
  let main_cst_7 : FVec F S_ .f32 := constant S_ .f32 0x00000000#32
  let main_v19 : FVec F S300000 .f32 := broadcastInDim S300000 ![] bcast_S_S300000 main_cst_7
  let main_v20 : IVec S300000 1 := cmpf .ogt main_v18 main_v19
  let main_c_8 : IVec S_ 1 := constantI S_ 1 1#1
  let main_v21 : IVec S_ 1 := (fun x v => Host.reduce IntOp.andi x v reducesTo_S300000_S_d0 h_S_) main_v20 main_c_8
  let main_v22 : IVec S_ 1 := andi main_v16 main_v21
  main_v22

def fn {F : FTy → Type} [FloatOps F] (main_arg0 : FVec F S128x512 .f32) (main_arg1 : IVec S128 32) (main_arg2 : FVec F S300000x512 .f32) : IVec S_ 1 :=
  let main_v0 : FVec F S128x512 .f32 := Host.absf main_arg0
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  let main_c : IVec S_ 1 := constantI S_ 1 1#1
  let main_v3 : IVec S_ 1 := (fun x v => Host.reduce IntOp.andi x v reducesTo_S128x512_S_d0_1 h_S_) main_v2 main_c
  let main_v4 : FVec F S300000x512 .f32 := Host.absf main_arg2
  let main_cst_0 : FVec F S_ .f32 := constant S_ .f32 0x7F800000#32
  let main_v5 : FVec F S300000x512 .f32 := broadcastInDim S300000x512 ![] bcast_S_S300000x512 main_cst_0
  let main_v6 : IVec S300000x512 1 := cmpf .olt main_v4 main_v5
  let main_c_1 : IVec S_ 1 := constantI S_ 1 1#1
  let main_v7 : IVec S_ 1 := (fun x v => Host.reduce IntOp.andi x v reducesTo_S300000x512_S_d0_1 h_S_) main_v6 main_c_1
  let main_v8 : IVec S_ 1 := andi main_v3 main_v7
  let main_c_2 : IVec S_ 32 := constantI S_ 32 0#32
  let main_v9 : IVec S128 32 := broadcastInDim S128 ![] bcast_S_S128 main_c_2
  let main_v10 : IVec S128 1 := cmpi .sge main_arg1 main_v9
  let main_c_3 : IVec S_ 1 := constantI S_ 1 1#1
  let main_v11 : IVec S_ 1 := (fun x v => Host.reduce IntOp.andi x v reducesTo_S128_S_d0 h_S_) main_v10 main_c_3
  let main_v12 : IVec S_ 1 := andi main_v8 main_v11
  let main_c_4 : IVec S_ 32 := constantI S_ 32 100000#32
  let main_v13 : IVec S128 32 := broadcastInDim S128 ![] bcast_S_S128 main_c_4
  let main_v14 : IVec S128 1 := cmpi .slt main_arg1 main_v13
  let main_c_5 : IVec S_ 1 := constantI S_ 1 1#1
  let main_v15 : IVec S_ 1 := (fun x v => Host.reduce IntOp.andi x v reducesTo_S128_S_d0 h_S_) main_v14 main_c_5
  fn_part1 (F := F) main_arg2 main_v12 main_v15
-- ==== Kernel.lean ====
abbrev S128x512 : Shape := ⟨2, ![128, 512]⟩
abbrev S128 : Shape := ⟨1, ![128]⟩
abbrev S300000x512 : Shape := ⟨2, ![300000, 512]⟩
abbrev S128x1 : Shape := ⟨2, ![128, 1]⟩
abbrev S_ : Shape := ⟨0, ![]⟩
abbrev S100000x3x512 : Shape := ⟨3, ![100000, 3, 512]⟩
abbrev S2x128x1 : Shape := ⟨3, ![2, 128, 1]⟩
abbrev S1000x3x512 : Shape := ⟨3, ![1000, 3, 512]⟩
abbrev S1x128x1 : Shape := ⟨3, ![1, 128, 1]⟩
abbrev S1000x1x512 : Shape := ⟨3, ![1000, 1, 512]⟩
abbrev S1000x512 : Shape := ⟨2, ![1000, 512]⟩
abbrev S1000 : Shape := ⟨1, ![1000]⟩
abbrev S1000x1 : Shape := ⟨2, ![1000, 1]⟩
abbrev S128x1000 : Shape := ⟨2, ![128, 1000]⟩

abbrev nBuf : Space → Nat
  | .hbm => 43
  | .vmem => 13
  | .smem => 0
  | _ => 0

abbrev bufTy : (tb : Table) → Fin (tcTables nBuf tb) → BufTy
  | .hbm, ⟨0, _⟩ => ⟨S128x512, .f32⟩
  | .hbm, ⟨1, _⟩ => ⟨S128, .i32⟩
  | .hbm, ⟨2, _⟩ => ⟨S300000x512, .f32⟩
  | .hbm, ⟨3, _⟩ => ⟨S128x1, .i32⟩
  | .hbm, ⟨4, _⟩ => ⟨S128x512, .f32⟩
  | .hbm, ⟨5, _⟩ => ⟨S_, .f32⟩
  | .hbm, ⟨6, _⟩ => ⟨S128, .f32⟩
  | .hbm, ⟨7, _⟩ => ⟨S128x1, .f32⟩
  | .hbm, ⟨8, _⟩ => ⟨S128x1, .f32⟩
  | .hbm, ⟨9, _⟩ => ⟨S128x512, .f32⟩
  | .hbm, ⟨10, _⟩ => ⟨S128x512, .f32⟩
  | .hbm, ⟨11, _⟩ => ⟨S100000x3x512, .f32⟩
  | .hbm, ⟨12, _⟩ => ⟨S2x128x1, .f32⟩
  | .hbm, ⟨13, _⟩ => ⟨S2x128x1, .f32⟩
  | .hbm, ⟨14, _⟩ => ⟨S2x128x1, .f32⟩
  | .hbm, ⟨15, _⟩ => ⟨S1x128x1, .f32⟩
  | .hbm, ⟨16, _⟩ => ⟨S128x1, .f32⟩
  | .hbm, ⟨17, _⟩ => ⟨S1x128x1, .f32⟩
  | .hbm, ⟨18, _⟩ => ⟨S128x1, .f32⟩
  | .hbm, ⟨19, _⟩ => ⟨S1x128x1, .f32⟩
  | .hbm, ⟨20, _⟩ => ⟨S128x1, .f32⟩
  | .hbm, ⟨21, _⟩ => ⟨S1x128x1, .f32⟩
  | .hbm, ⟨22, _⟩ => ⟨S128x1, .f32⟩
  | .hbm, ⟨23, _⟩ => ⟨S1x128x1, .f32⟩
  | .hbm, ⟨24, _⟩ => ⟨S128x1, .f32⟩
  | .hbm, ⟨25, _⟩ => ⟨S1x128x1, .f32⟩
  | .hbm, ⟨26, _⟩ => ⟨S128x1, .f32⟩
  | .hbm, ⟨27, _⟩ => ⟨S128x1, .f32⟩
  | .hbm, ⟨28, _⟩ => ⟨S128x1, .f32⟩
  | .hbm, ⟨29, _⟩ => ⟨S128x1, .f32⟩
  | .hbm, ⟨30, _⟩ => ⟨S128x1, .f32⟩
  | .hbm, ⟨31, _⟩ => ⟨S128x1, .f32⟩
  | .hbm, ⟨32, _⟩ => ⟨S128x1, .f32⟩
  | .hbm, ⟨33, _⟩ => ⟨S128x1, .f32⟩
  | .hbm, ⟨34, _⟩ => ⟨S128x1, .f32⟩
  | .hbm, ⟨35, _⟩ => ⟨S128x1, .f32⟩
  | .hbm, ⟨36, _⟩ => ⟨S128x1, .f32⟩
  | .hbm, ⟨37, _⟩ => ⟨S128x1, .f32⟩
  | .hbm, ⟨38, _⟩ => ⟨S128x1, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S128x1, .i32⟩
  | .local _ .vmem, ⟨1, _⟩ => ⟨S128x512, .f32⟩
  | .local _ .vmem, ⟨2, _⟩ => ⟨S1000x3x512, .f32⟩
  | .local _ .vmem, ⟨3, _⟩ => ⟨S1000x3x512, .f32⟩
  | .local _ .vmem, ⟨4, _⟩ => ⟨S1x128x1, .f32⟩
  | .local _ .vmem, ⟨5, _⟩ => ⟨S1x128x1, .f32⟩
  | .local _ .vmem, ⟨6, _⟩ => ⟨S1x128x1, .f32⟩
  | .local _ .vmem, ⟨7, _⟩ => ⟨S1x128x1, .f32⟩
  | .local _ .vmem, ⟨8, _⟩ => ⟨S1x128x1, .f32⟩
  | .local _ .vmem, ⟨9, _⟩ => ⟨S1x128x1, .f32⟩
  | .local _ .vmem, ⟨10, _⟩ => ⟨S128x1, .f32⟩
  | .local _ .vmem, ⟨11, _⟩ => ⟨S128x1, .f32⟩
  | .local _ .vmem, ⟨12, _⟩ => ⟨S128x1, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_0 : Ref sig .tc := ⟨.hbm, 39, rfl⟩
abbrev main_v33 : Ref sig .tc := ⟨.hbm, 40, rfl⟩
abbrev main_cst_1 : Ref sig .tc := ⟨.hbm, 41, rfl⟩
abbrev main_v34 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v104 : BitVec 1 := Scalar.cmpi .eq arg1 c49_i32
  let v105 : BitVec 32 := Scalar.extui v104
  let c0_i32_45 : BitVec 32 := 0#32
  let v106 : BitVec 1 := Scalar.cmpi .ne v105 c0_i32_45
  v106

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1000x3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S128_S128x1 : S128.ShapeCasts S128x1
  reducesTo_S128x512_S128_d1 : S128x512.ReducesTo [1] S128
  h_S_ : 0 < S_.numel
  bcast_S128_S128x1_0 : S128.BroadcastsInDim S128x1 (![0] : Fin 1 → Fin S128x1.rank)
  bcast_S128x1_S128x512_0_1 : S128x1.BroadcastsInDim S128x512 (![0, 1] : Fin 2 → Fin S128x512.rank)
  shapeCasts_S300000x512_S100000x3x512 : S300000x512.ShapeCasts S100000x3x512
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1000x3x512_S1000x1x512_0_0_0 : ∀ a, (![0, 0, 0] : Fin 3 → Nat) a + S1000x1x512.size a ≤ S1000x3x512.size a
  h_S1000x1x512 : 0 < S1000x1x512.numel
  shapeCasts_S1000x1x512_S1000x512 : S1000x1x512.ShapeCasts S1000x512
  reduces_S1000x512_S1000 : S1000x512.Reduces [1] S1000
  shapeCasts_S1000_S1000x1 : S1000.ShapeCasts S1000x1
  broadcasts_S1000x1_S1000x512 : S1000x1.Broadcasts S1000x512
  inb_S1000x3x512_S1000x1x512_0_1_0 : ∀ a, (![0, 1, 0] : Fin 3 → Nat) a + S1000x1x512.size a ≤ S1000x3x512.size a
  inb_S1000x3x512_S1000x1x512_0_2_0 : ∀ a, (![0, 2, 0] : Fin 3 → Nat) a + S1000x1x512.size a ≤ S1000x3x512.size a
  iota_S128x1000_d1_w32 : S128x1000.Iotas .tc 32 [1]
  broadcasts_S128x1_S128x1000 : S128x1.Broadcasts S128x1000
  reduces_S128x1000_S128 : S128x1000.Reduces [1] S128
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  slices_S2x128x1_S1x128x1_0_0_0 : S2x128x1.Slices ![0, 0, 0] S1x128x1
  slices_S2x128x1_S1x128x1_1_0_0 : S2x128x1.Slices ![1, 0, 0] S1x128x1
  reducesTo_S128x1_S_d0_1 : S128x1.ReducesTo [0, 1] S_
  dot_S128x512_S1000x512_S128x1000_1_1_0_0_n_n_wf : DotDims.WF S128x512 S1000x512 S128x1000 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x1.size a ≤ S128x1.size a
  hwx0_0 : ∀ i : grid0.Coords, EltTy.bits .i32 = 32 ∨ (Rect.block (s := S128x1) S128x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x3x512.size a ≤ S100000x3x512.size a
  hwx0_2 : ∀ i : grid0.Coords, EltTy.bits .f32 = 32 ∨ (Rect.block (s := S100000x3x512) S1000x3x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1.size a ≤ S2x128x1.size a
  hwx0_3 : ∀ i : grid0.Coords, EltTy.bits .f32 = 32 ∨ (Rect.block (s := S2x128x1) S1x128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1.size a ≤ S2x128x1.size a
  hwx0_4 : ∀ i : grid0.Coords, EltTy.bits .f32 = 32 ∨ (Rect.block (s := S2x128x1) S1x128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x1.size a ≤ S2x128x1.size a
  hwx0_5 : ∀ i : grid0.Coords, EltTy.bits .f32 = 32 ∨ (Rect.block (s := S2x128x1) S1x128x1.size (cc0_transform_5 i) (hinb0_5 i)).WholeWords (EltTy.packing .f32)

variable [Facts₀]

def dot_S128x512_S1000x512_S128x1000_1_1_0_0_n_n : DotDims S128x512 S1000x512 S128x1000 where
  lhsContracting := [1]
  rhsContracting := [1]
  lhsNonContracting := [0]
  rhsNonContracting := [0]
  lhsBatch := []
  rhsBatch := []
  wf := dot_S128x512_S1000x512_S128x1000_1_1_0_0_n_n_wf

abbrev win0_0 : Pipeline.Window sig grid0 :=
  Pipeline.Window.ofSpec (Memref.whole main_v0) S128x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1000x3x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S1x128x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S1x128x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_2) S1x128x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S128x512 : Shape := ⟨2, ![128, 512]⟩
abbrev S128 : Shape := ⟨1, ![128]⟩
abbrev S300000x512 : Shape := ⟨2, ![300000, 512]⟩
abbrev S_ : Shape := ⟨0, ![]⟩
abbrev S128x1 : Shape := ⟨2, ![128, 1]⟩
abbrev S300000 : Shape := ⟨1, ![300000]⟩
abbrev S300000x1 : Shape := ⟨2, ![300000, 1]⟩
abbrev S512x300000 : Shape := ⟨2, ![512, 300000]⟩
abbrev S128x300000 : Shape := ⟨2, ![128, 300000]⟩
abbrev S128x100000x3 : Shape := ⟨3, ![128, 100000, 3]⟩
abbrev S128x100000 : Shape := ⟨2, ![128, 100000]⟩
abbrev S128x2 : Shape := ⟨2, ![128, 2]⟩

abbrev nBuf : Space → Nat
  | .hbm => 130
  | .vmem => 0
  | .smem => 0
  | _ => 0

abbrev hbmTy0_0 (i : Nat) : BufTy := match i % 128 with
  | 0 => ⟨S128x512, .f32⟩
  | 1 => ⟨S128, .i32⟩
  | 2 => ⟨S300000x512, .f32⟩
  | 3 => ⟨S128x512, .f32⟩
  | 4 => ⟨S_, .f32⟩
  | 5 => ⟨S128, .f32⟩
  | 6 => ⟨S128x1, .f32⟩
  | 7 => ⟨S128x1, .f32⟩
  | 8 => ⟨S128x512, .f32⟩
  | 9 => ⟨S128x512, .f32⟩
  | 10 => ⟨S300000x512, .f32⟩
  | 11 => ⟨S_, .f32⟩
  | 12 => ⟨S300000, .f32⟩
  | 13 => ⟨S300000x1, .f32⟩
  | 14 => ⟨S300000x1, .f32⟩
  | 15 => ⟨S300000x512, .f32⟩
  | 16 => ⟨S300000x512, .f32⟩
  | 17 => ⟨S512x300000, .f32⟩
  | 18 => ⟨S128x300000, .f32⟩
  | 19 => ⟨S_, .f32⟩
  | 20 => ⟨S_, .f32⟩
  | 21 => ⟨S_, .f32⟩
  | 22 => ⟨S128x300000, .f32⟩
  | 23 => ⟨S128x300000, .f32⟩
  | 24 => ⟨S_, .f32⟩
  | 25 => ⟨S128x300000, .f32⟩
  | 26 => ⟨S128x300000, .f32⟩
  | 27 => ⟨S128x100000x3, .f32⟩
  | 28 => ⟨S_, .f32⟩
  | 29 => ⟨S128x100000, .f32⟩
  | 30 => ⟨S128, .i32⟩
  | 31 => ⟨S_, .i32⟩
  | 32 => ⟨S128, .i32⟩
  | 33 => ⟨S128, .i1⟩
  | 34 => ⟨S_, .i32⟩
  | 35 => ⟨S128, .i32⟩
  | 36 => ⟨S128, .i32⟩
  | 37 => ⟨S128, .i32⟩
  | 38 => ⟨S_, .i32⟩
  | 39 => ⟨S128, .i32⟩
  | 40 => ⟨S128, .i1⟩
  | 41 => ⟨S_, .i32⟩
  | 42 => ⟨S128, .i32⟩
  | 43 => ⟨S128, .i32⟩
  | 44 => ⟨S128, .i32⟩
  | 45 => ⟨S128x1, .i32⟩
  | 46 => ⟨S128x1, .i32⟩
  | 47 => ⟨S128x2, .i32⟩
  | 48 => ⟨S128, .f32⟩
  | 49 => ⟨S128, .f32⟩
  | 50 => ⟨S_, .f32⟩
  | 51 => ⟨S128, .f32⟩
  | 52 => ⟨S128, .f32⟩
  | 53 => ⟨S_, .f32⟩
  | 54 => ⟨S128, .f32⟩
  | 55 => ⟨S128, .f32⟩
  | 56 => ⟨S128, .f32⟩
  | 57 => ⟨S_, .f32⟩
  | 58 => ⟨S128, .f32⟩
  | 59 => ⟨S128, .f32⟩
  | 60 => ⟨S_, .f32⟩
  | 61 => ⟨S128, .f32⟩
  | 62 => ⟨S128, .f32⟩
  | 63 => ⟨S128, .f32⟩
  | 64 => ⟨S_, .f32⟩
  | 65 => ⟨S128, .f32⟩
  | 66 => ⟨S128, .i1⟩
  | 67 => ⟨S_, .f32⟩
  | 68 => ⟨S128, .f32⟩
  | 69 => ⟨S128, .f32⟩
  | 70 => ⟨S128, .f32⟩
  | 71 => ⟨S_, .i32⟩
  | 72 => ⟨S128, .i32⟩
  | 73 => ⟨S128, .i1⟩
  | 74 => ⟨S_, .i32⟩
  | 75 => ⟨S128, .i32⟩
  | 76 => ⟨S128, .i32⟩
  | 77 => ⟨S128, .i32⟩
  | 78 => ⟨S_, .i32⟩
  | 79 => ⟨S128, .i32⟩
  | 80 => ⟨S128, .i1⟩
  | 81 => ⟨S_, .i32⟩
  | 82 => ⟨S128, .i32⟩
  | 83 => ⟨S128, .i32⟩
  | 84 => ⟨S128, .i32⟩
  | 85 => ⟨S128x1, .i32⟩
  | 86 => ⟨S128x1, .i32⟩
  | 87 => ⟨S128x2, .i32⟩
  | 88 => ⟨S128x100000, .f32⟩
  | 89 => ⟨S_, .f32⟩
  | 90 => ⟨S128x100000, .f32⟩
  | 91 => ⟨S128x100000, .f32⟩
  | 92 => ⟨S_, .f32⟩
  | 93 => ⟨S128, .f32⟩
  | 94 => ⟨S_, .f32⟩
  | 95 => ⟨S128, .f32⟩
  | 96 => ⟨S128, .f32⟩
  | 97 => ⟨S128x1, .f32⟩
  | 98 => ⟨S128x100000, .f32⟩
  | 99 => ⟨S128x100000, .f32⟩
  | 100 => ⟨S128x100000, .f32⟩
  | 101 => ⟨S_, .f32⟩
  | 102 => ⟨S128, .f32⟩
  | 103 => ⟨S128x1, .f32⟩
  | 104 => ⟨S128x1, .f32⟩
  | 105 => ⟨S128x100000, .f32⟩
  | 106 => ⟨S128x100000, .f32⟩
  | 107 => ⟨S_, .i32⟩
  | 108 => ⟨S128, .i32⟩
  | 109 => ⟨S128, .i1⟩
  | 110 => ⟨S_, .i32⟩
  | 111 => ⟨S128, .i32⟩
  | 112 => ⟨S128, .i32⟩
  | 113 => ⟨S128, .i32⟩
  | 114 => ⟨S_, .i32⟩
  | 115 => ⟨S128, .i32⟩
  | 116 => ⟨S128, .i1⟩
  | 117 => ⟨S_, .i32⟩
  | 118 => ⟨S128, .i32⟩
  | 119 => ⟨S128, .i32⟩
  | 120 => ⟨S128, .i32⟩
  | 121 => ⟨S128x1, .i32⟩
  | 122 => ⟨S128x1, .i32⟩
  | 123 => ⟨S128x2, .i32⟩
  | 124 => ⟨S128, .f32⟩
  | 125 => ⟨S_, .f32⟩
  | 126 => ⟨S_, .f32⟩
  | 127 => ⟨S_, .f32⟩
  | _ => ⟨S128x512, .f32⟩

abbrev hbmTy0_1 (i : Nat) : BufTy := match i % 128 with
  | 0 => ⟨S_, .f32⟩
  | 1 => ⟨S_, .f32⟩
  | _ => ⟨S128x512, .f32⟩

abbrev hbmTy (i : Nat) : BufTy := match i / 128 with
  | 0 => hbmTy0_0 i
  | 1 => hbmTy0_1 i
  | _ => ⟨S128x512, .f32⟩

abbrev bufTy : (tb : Table) → Fin (tcTables nBuf tb) → BufTy
  | .hbm, ⟨i, _⟩ => hbmTy i
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_cst_0 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_cst_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_7 : Ref sig .tc := ⟨.hbm, 57, rfl⟩
abbrev main_v32 : Ref sig .tc := ⟨.hbm, 58, rfl⟩
abbrev main_v33 : Ref sig .tc := ⟨.hbm, 59, rfl⟩
abbrev main_cst_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_9 : Ref sig .tc := ⟨.hbm, 64, rfl⟩
abbrev main_v37 : Ref sig .tc := ⟨.hbm, 65, rfl⟩
abbrev main_v38 : Ref sig .tc := ⟨.hbm, 66, rfl⟩
abbrev main_cst_10 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_11 : Ref sig .tc := ⟨.hbm, 71, rfl⟩
abbrev main_v42 : Ref sig .tc := ⟨.hbm, 72, rfl⟩
abbrev main_v43 : Ref sig .tc := ⟨.hbm, 73, rfl⟩
abbrev main_c_12 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_13 : Ref sig .tc := ⟨.hbm, 78, rfl⟩
abbrev main_v47 : Ref sig .tc := ⟨.hbm, 79, rfl⟩
abbrev main_v48 : Ref sig .tc := ⟨.hbm, 80, rfl⟩
abbrev main_c_14 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_15 : Ref sig .tc := ⟨.hbm, 89, rfl⟩
abbrev main_v56 : Ref sig .tc := ⟨.hbm, 90, rfl⟩
abbrev main_v57 : Ref sig .tc := ⟨.hbm, 91, rfl⟩
abbrev main_call4_cst : Ref sig .tc := ⟨.hbm, 92, rfl⟩
abbrev main_call4_v0 : Ref sig .tc := ⟨.hbm, 93, rfl⟩
abbrev main_call4_cst_0 : Ref sig .tc := ⟨.hbm, 94, rfl⟩
abbrev main_call4_v1 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_call4_v5 : Ref sig .tc := ⟨.hbm, 99, rfl⟩
abbrev main_call4_v6 : Ref sig .tc := ⟨.hbm, 100, rfl⟩
abbrev main_call4_cst_1 : Ref sig .tc := ⟨.hbm, 101, rfl⟩
abbrev main_call4_v7 : Ref sig .tc := ⟨.hbm, 102, rfl⟩
abbrev main_call4_v8 : Ref sig .tc := ⟨.hbm, 103, rfl⟩
abbrev main_call4_v9 : Ref sig .tc := ⟨.hbm, 104, rfl⟩
abbrev main_call4_v10 : Ref sig .tc := ⟨.hbm, 105, rfl⟩
abbrev main_v58 : Ref sig .tc := ⟨.hbm, 106, rfl⟩
abbrev main_c_16 : Ref sig .tc := ⟨.hbm, 107, rfl⟩
abbrev main_v59 : Ref sig .tc := ⟨.hbm, 108, rfl⟩
abbrev main_v60 : Ref sig .tc := ⟨.hbm, 109, rfl⟩
abbrev main_c_17 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_c_18 : Ref sig .tc := ⟨.hbm, 114, rfl⟩
abbrev main_v64 : Ref sig .tc := ⟨.hbm, 115, rfl⟩
abbrev main_v65 : Ref sig .tc := ⟨.hbm, 116, rfl⟩
abbrev main_c_19 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_cst_20 : Ref sig .tc := ⟨.hbm, 125, rfl⟩
abbrev main_v73 : Ref sig .tc := ⟨.hbm, 126, rfl⟩
abbrev main_cst_21 : Ref sig .tc := ⟨.hbm, 127, rfl⟩
abbrev main_v74 : Ref sig .tc := ⟨.hbm, 128, rfl⟩
abbrev main_v75 : Ref sig .tc := ⟨.hbm, 129, rfl⟩

abbrev nD : Nat := 1
abbrev τ : Topo := Topo.v7x

variable {F : FTy → Type} [FloatOps F]

class Facts₀ : Prop where
  reducesTo_S128x512_S128_d1 : S128x512.ReducesTo [1] S128
  h_S_ : 0 < S_.numel
  bcast_S128_S128x1_0 : S128.BroadcastsInDim S128x1 (![0] : Fin 1 → Fin S128x1.rank)
  bcast_S128x1_S128x512_0_1 : S128x1.BroadcastsInDim S128x512 (![0, 1] : Fin 2 → Fin S128x512.rank)
  reducesTo_S300000x512_S300000_d1 : S300000x512.ReducesTo [1] S300000
  bcast_S300000_S300000x1_0 : S300000.BroadcastsInDim S300000x1 (![0] : Fin 1 → Fin S300000x1.rank)
  bcast_S300000x1_S300000x512_0_1 : S300000x1.BroadcastsInDim S300000x512 (![0, 1] : Fin 2 → Fin S300000x512.rank)
  transposes_S300000x512_S512x300000_1_0 : S300000x512.Transposes [1, 0] S512x300000
  bcast_S_S128x300000 : S_.BroadcastsInDim S128x300000 (![] : Fin 0 → Fin S128x300000.rank)
  shapeCasts_S128x300000_S128x100000x3 : S128x300000.ShapeCasts S128x100000x3
  reducesTo_S128x100000x3_S128x100000_d2 : S128x100000x3.ReducesTo [2] S128x100000
  bcast_S_S128 : S_.BroadcastsInDim S128 (![] : Fin 0 → Fin S128.rank)
  concatenates_S128x1_S128x1_S128x2_d1 : Shape.Concatenates [S128x1, S128x1] S128x2 1
  bcast_S_S128x100000 : S_.BroadcastsInDim S128x100000 (![] : Fin 0 → Fin S128x100000.rank)
  reducesTo_S128x100000_S128_d1 : S128x100000.ReducesTo [1] S128
  bcast_S128x1_S128x100000_0_1 : S128x1.BroadcastsInDim S128x100000 (![0, 1] : Fin 2 → Fin S128x100000.rank)
  reducesTo_S128_S_d0 : S128.ReducesTo [0] S_
  dot_S128x512_S512x300000_S128x300000_1_0_0_1_n_n_wf : DotDims.WF S128x512 S512x300000 S128x300000 [1] [0] [0] [1] [] []
  gather_S128x100000_S128x2_S128_n_01_n_n_01_1_11_wf : GatherDims.WF S128x100000 S128x2 S128 [] [0, 1] [] [0, 1] [] 1 ![1, 1]
  scatter_S128x100000_S128x2_S128_n_01_01_1_wf : ScatterDims.WF S128x100000 S128x2 S128 [] [0, 1] [0, 1] 1

variable [Facts₀]

def dot_S128x512_S512x300000_S128x300000_1_0_0_1_n_n : DotDims S128x512 S512x300000 S128x300000 where
  lhsContracting := [1]
  rhsContracting := [0]
  lhsNonContracting := [0]
  rhsNonContracting := [1]
  lhsBatch := []
  rhsBatch := []
  wf := dot_S128x512_S512x300000_S128x300000_1_0_0_1_n_n_wf
def gather_S128x100000_S128x2_S128_n_01_n_n_01_1_11 : GatherDims S128x100000 S128x2 S128 where
  offsetDims := []
  collapsedSliceDims := [0, 1]
  operandBatchingDims := []
  startIndicesBatchingDims := []
  startIndexMap := [0, 1]
  indexVectorDim := 1
  sliceSizes := ![1, 1]
  wf := gather_S128x100000_S128x2_S128_n_01_n_n_01_1_11_wf
def scatter_S128x100000_S128x2_S128_n_01_01_1 : ScatterDims S128x100000 S128x2 S128 where
  updateWindowDims := []
  insertedWindowDims := [0, 1]
  scatterDimsToOperandDims := [0, 1]
  indexVectorDim := 1
  wf := scatter_S128x100000_S128x2_S128_n_01_01_1_wf

class Facts : Prop extends Facts₀ where

variable [Facts]
-- ==== Proof.Spec.lean ====
/-
  The sub-center margin loss as functions of its argument arrays, index by index, on the extended reals.

  Rows of the embeddings and of the weight are normalised; a class has three consecutive weight rows (its
  sub-centers) and its score is the largest of the three clipped cosines; on the labelled class the additive
  angular margin replaces the score `t` by `t·cos m − √(1 − t²)·sin m` (or `t − sin(π−m)·m` past the threshold);
  scores are scaled, and the loss is the mean over the batch of `log Σ_c exp x_c − x_label`.

  Two shapes of that last step are stated: the direct one (`refLoss`: shift by the row maximum, sum, log), and the
  streamed one (`kerLoss`: the classes split in two halves, each half swept in 50 tiles of 1000 classes carrying a
  running maximum `m`, a running sum `l` of `exp (x − m)` rescaled by `exp (m_old − m_new)` whenever the maximum
  moves, and the labelled score `t`; the halves are then joined by the same rescaling).
-/
import Idealize.ShloMosaic.PureOps.Ideal
import Idealize.ShloMosaic.Lib.ValueIdx

noncomputable section

namespace Cert.Spec

open Idealize.ShloMosaic

/-- The sum of the squares of row `r` of the weight. -/
def ssq (w : Fin 300000 → Fin 512 → EReal) (r : Fin 300000) : EReal := ∑ d, w r d * w r d

/-- The row-normalised embeddings, `e / √(Σ e²)`. -/
def neOf (e : Fin 128 → Fin 512 → EReal) (b : Fin 128) (d : Fin 512) : EReal :=
  Ideal.div (e b d) (Ideal.sqrt (∑ d', e b d' * e b d'))

/-- A weight row normalised by the reciprocal square root of its sum of squares. -/
def wnK (w : Fin 300000 → Fin 512 → EReal) (r : Fin 300000) (d : Fin 512) : EReal :=
  w r d * Ideal.rsqrt (ssq w r)

/-- A weight row divided by the square root of its sum of squares. -/
def wnR (w : Fin 300000 → Fin 512 → EReal) (r : Fin 300000) (d : Fin 512) : EReal :=
  Ideal.div (w r d) (Ideal.sqrt (ssq w r))

/-- The cosine of embedding row `b` and normalised weight row `r`, clipped to `[-1, 1]`. -/
def logit (ne : Fin 128 → Fin 512 → EReal) (wn : Fin 300000 → Fin 512 → EReal) (b : Fin 128) (r : Fin 300000) : EReal :=
  min (Ideal.ofBits .f32 0x3F800000#32) (max (Ideal.ofBits .f32 0xBF800000#32) (∑ d, ne b d * wn r d))

/-- Sub-center `k` of class `c` is weight row `3c + k`. -/
def sub3 (c : Fin 100000) (k : Fin 3) : Fin 300000 := ⟨3 * c.val + k.val, by omega⟩

/-- The score of class `c`: the largest of its three sub-center cosines. -/
def blk (ne : Fin 128 → Fin 512 → EReal) (wn : Fin 300000 → Fin 512 → EReal) (b : Fin 128) (c : Fin 100000) : EReal :=
  max (max (logit ne wn b (sub3 c 0)) (logit ne wn b (sub3 c 1))) (logit ne wn b (sub3 c 2))

/-- The additive angular margin on a cosine `t`. -/
def margin (t : EReal) : EReal :=
  if Ideal.ofBits .f32 0xBF60A940#32 < t then
    t * Ideal.ofBits .f32 0x3F60A940#32
      - Ideal.sqrt (max (Ideal.ofBits .f32 0x3F800000#32 - t * t) 0) * Ideal.ofBits .f32 0x3EF57744#32
  else t - Ideal.ofBits .f32 0x3E757744#32

/-- The scaled score: the margin on the labelled class `ℓ b`, the plain score elsewhere, times the scale. -/
def score (ne : Fin 128 → Fin 512 → EReal) (wn : Fin 300000 → Fin 512 → EReal) (ℓ : Fin 128 → Fin 100000)
    (b : Fin 128) (c : Fin 100000) : EReal :=
  (if c = ℓ b then margin (blk ne wn b c) else blk ne wn b c) * Ideal.ofBits .f32 0x42800000#32

/-! ## The direct shape -/

/-- The largest scaled score of a row. -/
def rowMax (sc : Fin 128 → Fin 100000 → EReal) (b : Fin 128) : EReal := Finset.univ.sup (sc b)

/-- Minus the mean of the labelled log-probabilities `(x_ℓ − M) − log Σ_c exp (x_c − M)`. -/
def refLoss (sc : Fin 128 → Fin 100000 → EReal) (ℓ : Fin 128 → Fin 100000) : EReal :=
  - Ideal.div (∑ b, ((sc b (ℓ b) - rowMax sc b) - Ideal.log (∑ c, Ideal.exp (sc b c - rowMax sc b))))
      (Ideal.ofBits .f32 0x43000000#32)

/-! ## The streamed shape -/

/-- Column `j` of tile `T` (tiles of 1000 classes; `T < 100` in every use). -/
def colOf (T : ℕ) (j : Fin 1000) : Fin 100000 := ⟨(T * 1000 + j.val) % 100000, Nat.mod_lt _ (by norm_num)⟩

/-- The carried state: running maximum, running sum of exponentials, labelled score, per batch row. -/
structure St where
  m : Fin 128 → EReal
  l : Fin 128 → EReal
  t : Fin 128 → EReal

/-- The state before a half's first tile. -/
def st0 : St := ⟨fun _ => ⊥, fun _ => 0, fun _ => 0⟩

/-- One tile: the maximum moves to `max m (max over the tile)`, the old sum is rescaled and the tile's
    exponentials added, and the labelled score is picked up if the label falls in the tile. -/
def step (sc : Fin 128 → Fin 100000 → EReal) (ℓ : Fin 128 → Fin 100000) (T : ℕ) (s : St) : St where
  m := fun b => max (s.m b) (Finset.univ.sup fun j => sc b (colOf T j))
  l := fun b => Ideal.exp (s.m b - max (s.m b) (Finset.univ.sup fun j => sc b (colOf T j))) * s.l b
        + ∑ j, Ideal.exp (sc b (colOf T j) - max (s.m b) (Finset.univ.sup fun j => sc b (colOf T j)))
  t := fun b => s.t b + ∑ j, (if colOf T j = ℓ b then sc b (colOf T j) else 0)

/-- Half `p` after its tiles `0 … c` (tile `c` of half `p` is tile `50 p + c` overall). -/
def kst (sc : Fin 128 → Fin 100000 → EReal) (ℓ : Fin 128 → Fin 100000) (p : ℕ) : ℕ → St
  | 0 => step sc ℓ (p * 50) st0
  | c + 1 => step sc ℓ (p * 50 + (c + 1)) (kst sc ℓ p c)

/-- The two halves joined, and the mean of `(M + log L) − t`. -/
def kerLoss (sc : Fin 128 → Fin 100000 → EReal) (ℓ : Fin 128 → Fin 100000) : EReal :=
  Ideal.div (∑ b,
      ((max ((kst sc ℓ 0 49).m b) ((kst sc ℓ 1 49).m b)
          + Ideal.log (Ideal.exp ((kst sc ℓ 0 49).m b - max ((kst sc ℓ 0 49).m b) ((kst sc ℓ 1 49).m b)) * (kst sc ℓ 0 49).l b
              + Ideal.exp ((kst sc ℓ 1 49).m b - max ((kst sc ℓ 0 49).m b) ((kst sc ℓ 1 49).m b)) * (kst sc ℓ 1 49).l b))
        - ((kst sc ℓ 0 49).t b + (kst sc ℓ 1 49).t b)))
    (Ideal.ofBits .f32 0x43000000#32)

end Cert.Spec

end
-- ==== Proof.KSpec.lean ====
/-
  One tile of the streamed program in its own coordinates: the tile's block of the weight by (class in the tile,
  sub-center, column), the clipped cosines and class scores computed from that block, the label test against the
  tile's global column number, and the step of the carried state over one tile's scores.
-/
import proofs.«420243_j57750130262074_2_alg».proof.Proof.Spec

noncomputable section

namespace Cert.KSpec

open Idealize.ShloMosaic Cert.Spec

/-- The clipped cosine of embedding row `b` and sub-center `k` of the tile's class `j`, the weight row normalised
    by the reciprocal square root of its sum of squares. -/
def tlogit (ne : Fin 128 → Fin 512 → EReal) (wb : Fin 1000 → Fin 3 → Fin 512 → EReal) (b : Fin 128) (j : Fin 1000) (k : Fin 3) : EReal :=
  min (Ideal.ofBits .f32 0x3F800000#32) (max (Ideal.ofBits .f32 0xBF800000#32)
    (∑ d, ne b d * (wb j k d * Ideal.rsqrt (∑ d', wb j k d' * wb j k d'))))

/-- The tile's class score. -/
def tblk (ne : Fin 128 → Fin 512 → EReal) (wb : Fin 1000 → Fin 3 → Fin 512 → EReal) (b : Fin 128) (j : Fin 1000) : EReal :=
  max (max (tlogit ne wb b j 0) (tlogit ne wb b j 1)) (tlogit ne wb b j 2)

/-- Whether column `j` of tile `T` is row `b`'s label: the column's global number, as a word, against the label word. -/
def thit (lab : Fin 128 → BitVec 32) (T : ℕ) (b : Fin 128) (j : Fin 1000) : Prop :=
  BitVec.ofNat 32 (T * 1000 + j.val) = lab b

instance (lab : Fin 128 → BitVec 32) (T : ℕ) (b : Fin 128) (j : Fin 1000) : Decidable (thit lab T b j) := by
  unfold thit; infer_instance

/-- The tile's scaled scores: the margin where the label is hit. -/
def tscore (ne : Fin 128 → Fin 512 → EReal) (wb : Fin 1000 → Fin 3 → Fin 512 → EReal) (lab : Fin 128 → BitVec 32) (T : ℕ)
    (b : Fin 128) (j : Fin 1000) : EReal :=
  (if thit lab T b j then margin (tblk ne wb b j) else tblk ne wb b j) * Ideal.ofBits .f32 0x42800000#32

/-- One tile's step of the carried state, over the tile's scores `x` and the label test `hit`. -/
def tstep (x : Fin 128 → Fin 1000 → EReal) (hit : Fin 128 → Fin 1000 → Prop) [∀ b j, Decidable (hit b j)] (s : St) : St where
  m := fun b => max (s.m b) (Finset.univ.sup fun j => x b j)
  l := fun b => Ideal.exp (s.m b - max (s.m b) (Finset.univ.sup fun j => x b j)) * s.l b
        + ∑ j, Ideal.exp (x b j - max (s.m b) (Finset.univ.sup fun j => x b j))
  t := fun b => s.t b + ∑ j, (if hit b j then x b j else 0)

/-- The specification's step is the tile step over the tile's columns. -/
theorem step_eq_tstep (sc : Fin 128 → Fin 100000 → EReal) (ℓ : Fin 128 → Fin 100000) (T : ℕ) (s : St) :
    step sc ℓ T s = tstep (fun b j => sc b (colOf T j)) (fun b j => colOf T j = ℓ b) s := rfl

end Cert.KSpec

end
-- ==== Proof.Consts.lean ====
/-
  The float literals of the two programs as extended reals: zero, the two infinities, and the finite ones as reals.
-/
import Idealize.ShloMosaic.PureOps.Ideal

noncomputable section

namespace Cert.Consts

open Idealize.ShloMosaic

/-- The pattern of `+0` is zero. -/
theorem ofBits_zero : Ideal.ofBits .f32 0x00000000#32 = 0 := by
  simp [Ideal.ofBits, Ideal.ieee]
/-- The pattern of `-inf` is the bottom of the extended reals. -/
theorem ofBits_neg_inf : Ideal.ofBits .f32 0xFF800000#32 = ⊥ := by
  simp [Ideal.ofBits, Ideal.ieee]
/-- The pattern of `+inf` is the top. -/
theorem ofBits_inf : Ideal.ofBits .f32 0x7F800000#32 = ⊤ := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_neg_one : Ideal.ofBits .f32 0xBF800000#32 = ((-1 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num
/-- A pattern whose exponent field is not all ones denotes a real number. -/
theorem ieee_real (e m : Nat) {w : Nat} (b : BitVec w) (h : (b.extractLsb' m e).toNat ≠ 2 ^ e - 1) :
    ∃ r : ℝ, Ideal.ieee e m b = (r : EReal) := by
  unfold Ideal.ieee
  simp only [if_neg h]
  split_ifs <;> exact ⟨_, rfl⟩

/-- The four margin literals are finite: each is a real number (which one is never needed). -/
theorem real_cosM : ∃ r : ℝ, Ideal.ofBits .f32 0x3F60A940#32 = (r : EReal) :=
  ieee_real 8 23 (0x3F60A940#32) (by decide)
theorem real_sinM : ∃ r : ℝ, Ideal.ofBits .f32 0x3EF57744#32 = (r : EReal) :=
  ieee_real 8 23 (0x3EF57744#32) (by decide)
theorem real_thr : ∃ r : ℝ, Ideal.ofBits .f32 0xBF60A940#32 = (r : EReal) :=
  ieee_real 8 23 (0xBF60A940#32) (by decide)
theorem real_sinMM : ∃ r : ℝ, Ideal.ofBits .f32 0x3E757744#32 = (r : EReal) :=
  ieee_real 8 23 (0x3E757744#32) (by decide)

end Cert.Consts

end
-- ==== Proof.KPay.lean ====
/-
  The values the streamed program's body stores, read at an index on the extended reals. The tile's scaled scores
  are the tile scores of the specification over the three sub-center slices of the weight block; the label test is the
  word equality of the column's global number and the label; the block maximum is the supremum of the scores; and the
  three carried values step by the maximum, the rescaled sum and the picked label score.
-/
import proofs.«420243_j57750130262074_2_alg».proof.Proof.Gen.KernelIdeal.Skeleton
import proofs.«420243_j57750130262074_2_alg».proof.Proof.KSpec
import proofs.«420243_j57750130262074_2_alg».proof.Proof.Consts
import Idealize.ShloMosaic.Lib.ValueIdx
import Idealize.ShloMosaic.Lib.ValueLayout
import Idealize.ShloMosaic.PureOps.Ideal.Laws

noncomputable section

namespace Cert.KernelIdeal.KPay

open Cert.KernelIdeal Cert.KernelIdeal.Gen Idealize.ShloMosaic Idealize.ShloMosaic.ValueIdx Cert.Spec Cert.KSpec

/-! ## Layout operations and reductions at coordinates -/

section Layout
variable {α : Type}

/-- A vector cast to a column reads, at `(i, 0)`, its entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1, c]` array cast to `[a, c]` reads, at `(i, k)`, the operand at `(i, 0, k)`. -/
theorem shapeCast_a1c_ac_apply {a c : ℕ} (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

/-- A column broadcast along the rows reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

section Reductions
variable {n m : ℕ}

/-- The index a reduction along the columns inserts is `(p, k)`. -/
theorem lift_ix (h : (⟨2, ![n, m]⟩ : Shape).Reduces [1] ⟨1, ![n]⟩) (p : Fin n) (k : Fin m) :
    h.lift (ix1 p) k = ix2 p k := by
  funext c
  match c with
  | ⟨0, _⟩ => exact Fin.ext rfl
  | ⟨1, _⟩ => exact Fin.ext rfl

/-- A sum along the columns of a matrix is, at row `p`, the sum of the row's entries. -/
theorem rowSum_apply (src : FVec Ideal ⟨2, ![n, m]⟩ .f32)
    (h : (⟨2, ![n, m]⟩ : Shape).Reduces [1] ⟨1, ![n]⟩) (hφ : FKind.Formats .f32)
    (hacc : (0x00000000#32 : BitVec 32) = 0x00000000#32) (p : Fin n) :
    multiReduction .add [1] ⟨1, ![n]⟩ src 0x00000000#32 h hφ hacc (ix1 p) = ∑ k : Fin m, src (ix2 p k) := by
  refine (Ideal.multiReduction_add_single src 0x00000000#32 h hφ hacc (ix1 p)).trans ?_
  exact Finset.sum_congr rfl fun k _ => congrArg src (lift_ix h p k)

/-- A fold of the maximum from the bottom is the supremum. -/
theorem fold_max_bot {ι : Type*} (s : Finset ι) (f : ι → EReal) : s.fold max ⊥ f = s.sup f := by
  classical
  induction s using Finset.induction_on with
  | empty => simp
  | insert a s ha ih => rw [Finset.fold_insert ha, Finset.sup_insert, ih]

/-- A maximum along the columns of a matrix, folded from the bottom, is at row `p` the supremum of the row's entries. -/
theorem rowMax_apply (src : FVec Ideal ⟨2, ![n, m]⟩ .f32)
    (h : (⟨2, ![n, m]⟩ : Shape).Reduces [1] ⟨1, ![n]⟩) (hφ : FKind.Formats .f32)
    (hacc : (0xFF800000#32 : BitVec 32) = 0xFF800000#32) (p : Fin n) :
    multiReduction .maximumf [1] ⟨1, ![n]⟩ src 0xFF800000#32 h hφ hacc (ix1 p)
      = Finset.univ.sup fun k : Fin m => src (ix2 p k) := by
  refine (Ideal.multiReduction_maximumf_single src 0xFF800000#32 h hφ hacc (ix1 p)).trans ?_
  have e : (src ∘ h.lift (ix1 p)) = fun k : Fin m => src (ix2 p k) := funext fun k => congrArg src (lift_ix h p k)
  rw [e]
  show Finset.fold max (Ideal.ofBits .f32 0xFF800000#32) _ _ = _
  rw [Cert.Consts.ofBits_neg_inf]
  exact fold_max_bot _ _

end Reductions

variable [Cert.KernelIdeal.Facts]

/-- The three sub-center slices of a weight block as one function of (class, sub-center, column). -/
def wOf (v5 v18 v32 : Vec Ideal S1000x1x512 .f32) : Fin 1000 → Fin 3 → Fin 512 → EReal :=
  fun j k d => match k with
    | 0 => v5 (ix3 j 0 d)
    | 1 => v18 (ix3 j 0 d)
    | 2 => v32 (ix3 j 0 d)

/-- The body's scaled scores of a tile, as the body computes them from its loads. -/
abbrev xsOf (a0 a1 : BitVec 32) (v3 : Vec Ideal S128x512 .f32) (v5 v18 v32 : Vec Ideal S1000x1x512 .f32) (v68 : Vec Ideal S128x1 .i32) :
    FVec Ideal S128x1000 .f32 :=
  k0_pay16 (F := Ideal) a0 a1 (k0_pay11 (F := Ideal) v3) (k0_pay12 (F := Ideal) v3 v5 v18) (k0_pay13 (F := Ideal) v32) (k0_pay14 (F := Ideal) v32) v68

/-! ## Words and selections -/

/-- The equality test of two words gives the bit `1` exactly when they are equal. -/
theorem cmpi_eq_one {w : ℕ} (x y : BitVec w) : IntOp.cmpi .eq x y = 1#1 ↔ x = y := by
  have hb : ∀ c : Bool, BitVec.ofBool c = 1#1 ↔ c = true := by intro c; cases c <;> decide
  show BitVec.ofBool (x == y) = 1#1 ↔ x = y
  rw [hb, beq_iff_eq]

/-- A selection on the comparison `x > y` of extended reals is the `if` on `y < x`. -/
theorem select_ogt {α : Type} (x y : EReal) (p q : α) :
    Scalar.select (Ideal.cmp .ogt x y) p q = if y < x then p else q := by
  unfold Scalar.select Ideal.cmp
  by_cases h : y < x <;> simp [h]

/-! ## The contraction of an embedding row with a weight row -/

theorem lhs_dot_0 (i : S128x1000.Idx) (q : dot_S128x512_S1000x512_S128x1000_1_1_0_0_n_n.contr.Idx) :
    (dot_S128x512_S1000x512_S128x1000_1_1_0_0_n_n.lhsIdx i q 0).val = (i 0).val := by
  unfold DotDims.lhsIdx
  rw [dif_neg (show ¬(0 : Fin S128x512.rank) ∈ dot_S128x512_S1000x512_S128x1000_1_1_0_0_n_n.lhsBatch by decide), dif_pos (show (0 : Fin S128x512.rank) ∈ dot_S128x512_S1000x512_S128x1000_1_1_0_0_n_n.lhsNonContracting by decide)]
  rfl
theorem lhs_dot_1 (i : S128x1000.Idx) (q : dot_S128x512_S1000x512_S128x1000_1_1_0_0_n_n.contr.Idx) :
    (dot_S128x512_S1000x512_S128x1000_1_1_0_0_n_n.lhsIdx i q 1).val = (q ⟨0, by decide⟩).val :=
  dot_S128x512_S1000x512_S128x1000_1_1_0_0_n_n.lhsIdx_val_of_single rfl i q
theorem rhs_dot_0 (i : S128x1000.Idx) (q : dot_S128x512_S1000x512_S128x1000_1_1_0_0_n_n.contr.Idx) :
    (dot_S128x512_S1000x512_S128x1000_1_1_0_0_n_n.rhsIdx i q 0).val = (i 1).val := by
  unfold DotDims.rhsIdx
  rw [dif_neg (show ¬(0 : Fin S1000x512.rank) ∈ dot_S128x512_S1000x512_S128x1000_1_1_0_0_n_n.rhsBatch by decide), dif_pos (show (0 : Fin S1000x512.rank) ∈ dot_S128x512_S1000x512_S128x1000_1_1_0_0_n_n.rhsNonContracting by decide)]
  rfl
theorem rhs_dot_1 (i : S128x1000.Idx) (q : dot_S128x512_S1000x512_S128x1000_1_1_0_0_n_n.contr.Idx) :
    (dot_S128x512_S1000x512_S128x1000_1_1_0_0_n_n.rhsIdx i q 1).val = (q ⟨0, by decide⟩).val :=
  dot_S128x512_S1000x512_S128x1000_1_1_0_0_n_n.rhsIdx_val_of_single rfl i q

/-- The product into the zero accumulator is, at `(b, j)`, the sum over the columns of row `b` of the left operand
    times row `j` of the right one. -/
theorem matmul_ix (lhs : FVec Ideal S128x512 .f32) (rhs : FVec Ideal S1000x512 .f32) (b : Fin 128) (j : Fin 1000) :
    matmul dot_S128x512_S1000x512_S128x1000_1_1_0_0_n_n (some .fp32) lhs rhs (constant (F := Ideal) S128x1000 .f32 0x00000000#32) (ix2 b j)
      = ∑ d : Fin 512, lhs (ix2 b d) * rhs (ix2 j d) := by
  simp only [matmul]
  rw [Ideal.matmul_constant_zero_apply, ← Equiv.sum_comp (contrEquiv1 dot_S128x512_S1000x512_S128x1000_1_1_0_0_n_n 512 rfl rfl).symm]
  refine Finset.sum_congr rfl fun k _ => ?_
  have hk := contrEquiv1_symm_val dot_S128x512_S1000x512_S128x1000_1_1_0_0_n_n 512 rfl rfl k
  have el : dot_S128x512_S1000x512_S128x1000_1_1_0_0_n_n.lhsIdx (ix2 b j) ((contrEquiv1 dot_S128x512_S1000x512_S128x1000_1_1_0_0_n_n 512 rfl rfl).symm k) = ix2 b k := funext fun a => Fin.ext (by
    match a with
    | ⟨0, _⟩ => exact lhs_dot_0 _ _
    | ⟨1, _⟩ => exact (lhs_dot_1 _ _).trans hk)
  have er : dot_S128x512_S1000x512_S128x1000_1_1_0_0_n_n.rhsIdx (ix2 b j) ((contrEquiv1 dot_S128x512_S1000x512_S128x1000_1_1_0_0_n_n 512 rfl rfl).symm k) = ix2 j k := funext fun a => Fin.ext (by
    match a with
    | ⟨0, _⟩ => exact rhs_dot_0 _ _
    | ⟨1, _⟩ => exact (rhs_dot_1 _ _).trans hk)
  rw [el, er]

/-! ## The clipped cosines of a tile -/

/-- The rows of a weight slice, each times the reciprocal square root of its sum of squares, as the body computes them. -/
def wnOf (w : FVec Ideal S1000x512 .f32) : FVec Ideal S1000x512 .f32 :=
  mulf w (broadcastTo S1000x512 (rsqrt (shapeCast S1000x1
    (multiReduction .add [1] S1000 (mulf w w) 0x00000000#32 reduces_S1000x512_S1000 (.inl rfl) rfl) shapeCasts_S1000_S1000x1))
    broadcasts_S1000x1_S1000x512)

theorem wnOf_apply (w : FVec Ideal S1000x512 .f32) (j : Fin 1000) (d : Fin 512) :
    wnOf w (ix2 j d) = w (ix2 j d) * Ideal.rsqrt (∑ d' : Fin 512, w (ix2 j d') * w (ix2 j d')) := by
  unfold wnOf
  show w (ix2 j d) * broadcastTo S1000x512 _ broadcasts_S1000x1_S1000x512 (ix2 j d) = _
  rw [broadcastTo_a1_ab_apply]
  show w (ix2 j d) * Ideal.rsqrt (shapeCast S1000x1 _ shapeCasts_S1000_S1000x1 (ix2 j 0)) = _
  rw [shapeCast_a_a1_apply, rowSum_apply]
  rfl

/-- The cosines of the embedding rows with normalised weight rows, clipped to `[-1, 1]`, as the body computes them. -/
def clipOf (e : FVec Ideal S128x512 .f32) (wn : FVec Ideal S1000x512 .f32) : FVec Ideal S128x1000 .f32 :=
  minimumf (broadcast S128x1000 (Scalar.ofBits .f32 0x3F800000#32))
    (maximumf (broadcast S128x1000 (Scalar.ofBits .f32 0xBF800000#32))
      (matmul dot_S128x512_S1000x512_S128x1000_1_1_0_0_n_n (some .fp32) e wn (constant (F := Ideal) S128x1000 .f32 0x00000000#32)))

theorem clipOf_apply (e : FVec Ideal S128x512 .f32) (wn : FVec Ideal S1000x512 .f32) (b : Fin 128) (j : Fin 1000) :
    clipOf e wn (ix2 b j)
      = min (Ideal.ofBits .f32 0x3F800000#32) (max (Ideal.ofBits .f32 0xBF800000#32) (∑ d : Fin 512, e (ix2 b d) * wn (ix2 j d))) := by
  unfold clipOf
  show min (Ideal.ofBits .f32 0x3F800000#32) (max (Ideal.ofBits .f32 0xBF800000#32)
    (matmul dot_S128x512_S1000x512_S128x1000_1_1_0_0_n_n (some .fp32) e wn (constant (F := Ideal) S128x1000 .f32 0x00000000#32) (ix2 b j))) = _
  rw [matmul_ix]

theorem pay11_apply (v3 : Vec Ideal S128x512 .f32) (b : Fin 128) (d : Fin 512) : k0_pay11 (F := Ideal) v3 (ix2 b d) = v3 (ix2 b d) := by
  unfold k0_pay11
  rw [shapeCast_self]

/-- The clipped cosine against one sub-center slice of the weight block is the tile's clipped cosine at that sub-center. -/
theorem clip_slice (v3 : Vec Ideal S128x512 .f32) (v : Vec Ideal S1000x1x512 .f32) (wb : Fin 1000 → Fin 3 → Fin 512 → EReal) (k : Fin 3)
    (hk : ∀ j d, wb j k d = v (ix3 j 0 d)) (b : Fin 128) (j : Fin 1000) :
    clipOf (k0_pay11 (F := Ideal) v3) (wnOf (shapeCast S1000x512 v shapeCasts_S1000x1x512_S1000x512)) (ix2 b j)
      = tlogit (fun b d => v3 (ix2 b d)) wb b j k := by
  rw [clipOf_apply]
  unfold tlogit
  refine congrArg _ (congrArg _ (Finset.sum_congr rfl fun d _ => ?_))
  rw [wnOf_apply]
  simp only [shapeCast_a1c_ac_apply, hk, pay11_apply]

/-- The class scores of a tile as the body computes them: the largest of the three clipped cosines. -/
def blkOf (v3 : Vec Ideal S128x512 .f32) (v5 v18 v32 : Vec Ideal S1000x1x512 .f32) : FVec Ideal S128x1000 .f32 :=
  maximumf (k0_pay12 (F := Ideal) v3 v5 v18) (clipOf (k0_pay11 (F := Ideal) v3) (wnOf (k0_pay13 (F := Ideal) v32)))

theorem blkOf_apply (v3 : Vec Ideal S128x512 .f32) (v5 v18 v32 : Vec Ideal S1000x1x512 .f32) (b : Fin 128) (j : Fin 1000) :
    blkOf v3 v5 v18 v32 (ix2 b j) = tblk (fun b d => v3 (ix2 b d)) (wOf v5 v18 v32) b j := by
  show max (max (clipOf (k0_pay11 (F := Ideal) v3) (wnOf (shapeCast S1000x512 v5 shapeCasts_S1000x1x512_S1000x512)) (ix2 b j))
        (clipOf (k0_pay11 (F := Ideal) v3) (wnOf (shapeCast S1000x512 v18 shapeCasts_S1000x1x512_S1000x512)) (ix2 b j)))
      (clipOf (k0_pay11 (F := Ideal) v3) (wnOf (shapeCast S1000x512 v32 shapeCasts_S1000x1x512_S1000x512)) (ix2 b j)) = _
  rw [clip_slice v3 v5 (wOf v5 v18 v32) 0 (fun _ _ => rfl), clip_slice v3 v18 (wOf v5 v18 v32) 1 (fun _ _ => rfl),
    clip_slice v3 v32 (wOf v5 v18 v32) 2 (fun _ _ => rfl)]
  rfl

/-- The body's label test is the specification's: the column's global number as a word against the label word,
    when the tile's first column number is the word the body computes from the grid coordinates. -/
theorem pay15_apply (a0 a1 : BitVec 32) (v68 : Vec Ideal S128x1 .i32) (T : ℕ)
    (hT : Scalar.muli (Scalar.addi (Scalar.muli a0 50#32) a1) 1000#32 = BitVec.ofNat 32 (T * 1000)) (b : Fin 128) (j : Fin 1000) :
    k0_pay15 (F := Ideal) a0 a1 v68 (ix2 b j) = 1#1 ↔ thit (fun b => v68 (ix2 b 0)) T b j := by
  unfold k0_pay15 thit
  show IntOp.cmpi .eq (IntOp.addi (Scalar.muli (Scalar.addi (Scalar.muli a0 50#32) a1) 1000#32)
      (iota .tc S128x1000 32 [1] iota_S128x1000_d1_w32 (ix2 b j)))
    (broadcastTo S128x1000 (shapeCast S128x1 v68 shapeCasts_S128x1_S128x1) broadcasts_S128x1_S128x1000 (ix2 b j)) = 1#1 ↔ _
  rw [hT, iota_single_apply, broadcastTo_a1_ab_apply, shapeCast_self, cmpi_eq_one]
  show BitVec.ofNat 32 (T * 1000) + BitVec.ofNat 32 j.val = v68 (ix2 b 0) ↔ _
  rw [← BitVec.ofNat_add]

/-- The body's scaled scores are the tile scores. -/
theorem pay16_apply (a0 a1 : BitVec 32) (v3 : Vec Ideal S128x512 .f32) (v5 v18 v32 : Vec Ideal S1000x1x512 .f32) (v68 : Vec Ideal S128x1 .i32) (T : ℕ)
    (hT : Scalar.muli (Scalar.addi (Scalar.muli a0 50#32) a1) 1000#32 = BitVec.ofNat 32 (T * 1000)) (b : Fin 128) (j : Fin 1000) :
    xsOf a0 a1 v3 v5 v18 v32 v68 (ix2 b j)
      = tscore (fun b d => v3 (ix2 b d)) (wOf v5 v18 v32) (fun b => v68 (ix2 b 0)) T b j := by
  show Scalar.select (k0_pay15 (F := Ideal) a0 a1 v68 (ix2 b j))
      (Scalar.select (Ideal.cmp .ogt (blkOf v3 v5 v18 v32 (ix2 b j)) (Ideal.ofBits .f32 0xBF60A940#32))
        (blkOf v3 v5 v18 v32 (ix2 b j) * Ideal.ofBits .f32 0x3F60A940#32
          - Ideal.sqrt (max (Ideal.ofBits .f32 0x3F800000#32 - blkOf v3 v5 v18 v32 (ix2 b j) * blkOf v3 v5 v18 v32 (ix2 b j))
              (Ideal.ofBits .f32 0x00000000#32)) * Ideal.ofBits .f32 0x3EF57744#32)
        (blkOf v3 v5 v18 v32 (ix2 b j) - Ideal.ofBits .f32 0x3E757744#32))
      (blkOf v3 v5 v18 v32 (ix2 b j)) * Ideal.ofBits .f32 0x42800000#32 = _
  rw [blkOf_apply, select_ogt, Cert.Consts.ofBits_zero]
  unfold tscore Scalar.select
  exact congrArg (· * Ideal.ofBits .f32 0x42800000#32) (if_congr (pay15_apply a0 a1 v68 T hT b j) rfl rfl)

/-- The block maximum is the supremum of the row's scores (the fold starts at `-inf`, the bottom). -/
theorem pay17_apply (a0 a1 : BitVec 32) (v3 : Vec Ideal S128x512 .f32) (v5 v18 v32 : Vec Ideal S1000x1x512 .f32) (v68 : Vec Ideal S128x1 .i32) (b : Fin 128) :
    k0_pay17 (F := Ideal) a0 a1 (k0_pay11 (F := Ideal) v3) (k0_pay12 (F := Ideal) v3 v5 v18) (k0_pay13 (F := Ideal) v32) (k0_pay14 (F := Ideal) v32) v68 (ix2 b 0)
      = Finset.univ.sup fun j : Fin 1000 => xsOf a0 a1 v3 v5 v18 v32 v68 (ix2 b j) := by
  unfold k0_pay17
  rw [shapeCast_a_a1_apply, rowMax_apply]

/-- The new running maximum. -/
theorem pay1_apply (v76 : FVec Ideal S128x1 .f32) (v77 : Vec Ideal S128x1 .f32) (b : Fin 128) :
    k0_pay1 (F := Ideal) v76 v77 (ix2 b 0) = max (v77 (ix2 b 0)) (v76 (ix2 b 0)) := rfl

/-- The new running sum: the old one rescaled, plus the tile's exponentials. -/
theorem pay2_apply (v74 : FVec Ideal S128x1000 .f32) (v76 : FVec Ideal S128x1 .f32) (v77 v84 : Vec Ideal S128x1 .f32) (b : Fin 128) :
    k0_pay2 (F := Ideal) v74 v76 v77 v84 (ix2 b 0)
      = Ideal.exp (v77 (ix2 b 0) - max (v77 (ix2 b 0)) (v76 (ix2 b 0))) * v84 (ix2 b 0)
        + ∑ j : Fin 1000, Ideal.exp (v74 (ix2 b j) - max (v77 (ix2 b 0)) (v76 (ix2 b 0))) := by
  unfold k0_pay2
  rw [shapeCast_self]
  show Ideal.exp (v77 (ix2 b 0) - k0_pay1 (F := Ideal) v76 v77 (ix2 b 0)) * v84 (ix2 b 0) + shapeCast S128x1 _ shapeCasts_S128_S128x1 (ix2 b 0) = _
  rw [shapeCast_a_a1_apply, rowSum_apply]
  refine congrArg _ (Finset.sum_congr rfl fun j _ => ?_)
  show Ideal.exp (v74 (ix2 b j) - broadcastTo S128x1000 (k0_pay1 (F := Ideal) v76 v77) broadcasts_S128x1_S128x1000 (ix2 b j)) = _
  rw [broadcastTo_a1_ab_apply]
  rfl

/-- The stored maximum is the new running maximum. -/
theorem pay3_apply (v76 : FVec Ideal S128x1 .f32) (v77 : Vec Ideal S128x1 .f32) (b : Fin 128) :
    k0_pay3 (F := Ideal) v76 v77 (ix2 b 0) = max (v77 (ix2 b 0)) (v76 (ix2 b 0)) := by
  unfold k0_pay3
  rw [shapeCast_self]
  rfl

/-- The new labelled score: the old one plus the tile's scores where the label test holds. -/
theorem pay4_apply (v71 : IVec S128x1000 1) (v74 : FVec Ideal S128x1000 .f32) (v95 : Vec Ideal S128x1 .f32) (b : Fin 128) :
    k0_pay4 (F := Ideal) v71 v74 v95 (ix2 b 0)
      = v95 (ix2 b 0) + ∑ j : Fin 1000, (if v71 (ix2 b j) = 1#1 then v74 (ix2 b j) else 0) := by
  unfold k0_pay4
  rw [shapeCast_self]
  show v95 (ix2 b 0) + shapeCast S128x1 _ shapeCasts_S128_S128x1 (ix2 b 0) = _
  rw [shapeCast_a_a1_apply, rowSum_apply]
  refine congrArg _ (Finset.sum_congr rfl fun j _ => ?_)
  show (if v71 (ix2 b j) = 1#1 then v74 (ix2 b j) else Ideal.ofBits .f32 0x00000000#32) = _
  rw [Cert.Consts.ofBits_zero]

/-- The outputs are the scratch columns regrouped `[128,1] → [1,128,1]`. -/
theorem pay5_apply (v : Vec Ideal S128x1 .f32) (b : Fin 128) : k0_pay5 (F := Ideal) v (ix3 0 b 0) = v (ix2 b 0) :=
  shapeCast_ab_1ab_apply v shapeCasts_S128x1_S1x128x1 0 b 0
theorem pay6_apply (v : Vec Ideal S128x1 .f32) (b : Fin 128) : k0_pay6 (F := Ideal) v (ix3 0 b 0) = v (ix2 b 0) :=
  shapeCast_ab_1ab_apply v shapeCasts_S128x1_S1x128x1 0 b 0
theorem pay7_apply (v : Vec Ideal S128x1 .f32) (b : Fin 128) : k0_pay7 (F := Ideal) v (ix3 0 b 0) = v (ix2 b 0) :=
  shapeCast_ab_1ab_apply v shapeCasts_S128x1_S1x128x1 0 b 0

/-- The reset values: the bottom for the maximum, zero for the sum and the labelled score. -/
theorem pay8_apply (b : Fin 128) : k0_pay8 (F := Ideal) (ix2 b 0) = ⊥ := by
  unfold k0_pay8
  rw [shapeCast_self]
  exact Cert.Consts.ofBits_neg_inf
theorem pay9_apply (b : Fin 128) : k0_pay9 (F := Ideal) (ix2 b 0) = 0 := by
  unfold k0_pay9
  rw [shapeCast_self]
  exact Cert.Consts.ofBits_zero
theorem pay10_apply (b : Fin 128) : k0_pay10 (F := Ideal) (ix2 b 0) = 0 := by
  unfold k0_pay10
  rw [shapeCast_self]
  exact Cert.Consts.ofBits_zero

end Cert.KernelIdeal.KPay

end
-- ==== Proof.KBody.lean ====
/-
  What one grid point leaves in the carried scratch, index by index at the extended reals: a half's first point
  steps the empty state over its tile, every other point steps what the point before left, and a half's last point
  copies the scratch to the outputs. The tile's scores are computed from the point's blocks alone.
-/
import proofs.«420243_j57750130262074_2_alg».proof.Proof.Gen.KernelIdeal.Frame
import proofs.«420243_j57750130262074_2_alg».proof.Proof.KSpec
import proofs.«420243_j57750130262074_2_alg».proof.Proof.KPay
import Idealize.ShloMosaic.Lib.ValueIdx
import Idealize.ShloMosaic.Lib.Tactic
import Idealize.ShloMosaic.Lib.Pipeline.Value

noncomputable section

namespace Cert.KernelIdeal.KBody

open Cert.KernelIdeal Cert.KernelIdeal.Gen Idealize.ShloMosaic Idealize.ShloMosaic.ValueIdx Cert.Spec Cert.KSpec
open Idealize.ShloMosaic.TcCoe Idealize.SL.Sem

variable (m : (ℓ : Loc nD τ sig) → Buf (Elt Ideal) ℓ)

/-- The point's blocks at their literal types: labels, normalised embeddings, the tile of the weight. -/
abbrev labB (c : Dev nD) (t : Fin cfg0.N) : Vec Ideal S128x1 .i32 := iblk m c 0 t
abbrev neB (c : Dev nD) (t : Fin cfg0.N) : Vec Ideal S128x512 .f32 := iblk m c 1 t
abbrev wB (c : Dev nD) (t : Fin cfg0.N) : Vec Ideal S1000x3x512 .f32 := iblk m c 2 t

/-- The same by coordinates. -/
def labT (c : Dev nD) (t : Fin cfg0.N) : Fin 128 → BitVec 32 := fun b => labB m c t (ix2 b 0)
def neT (c : Dev nD) (t : Fin cfg0.N) : Fin 128 → Fin 512 → EReal := fun b d => neB m c t (ix2 b d)
def wT (c : Dev nD) (t : Fin cfg0.N) : Fin 1000 → Fin 3 → Fin 512 → EReal := fun j k d => wB m c t (ix3 j k d)

/-- What position `n` leaves: the three carried scratch buffers and the three output blocks. -/
abbrev scrM (c : Dev nD) (n : ℕ) (hn : n < cfg0.N) : Vec Ideal S128x1 .f32 := (outsAt0 m c n hn).2.2.2.1
abbrev scrL (c : Dev nD) (n : ℕ) (hn : n < cfg0.N) : Vec Ideal S128x1 .f32 := (outsAt0 m c n hn).2.2.2.2.1
abbrev scrT (c : Dev nD) (n : ℕ) (hn : n < cfg0.N) : Vec Ideal S128x1 .f32 := (outsAt0 m c n hn).2.2.2.2.2
abbrev outM (c : Dev nD) (n : ℕ) (hn : n < cfg0.N) : Vec Ideal S1x128x1 .f32 := (outsAt0 m c n hn).1
abbrev outL (c : Dev nD) (n : ℕ) (hn : n < cfg0.N) : Vec Ideal S1x128x1 .f32 := (outsAt0 m c n hn).2.1
abbrev outT (c : Dev nD) (n : ℕ) (hn : n < cfg0.N) : Vec Ideal S1x128x1 .f32 := (outsAt0 m c n hn).2.2.1

/-- Three column vectors hold a carried state. -/
def Rep (vm vl vt : Vec Ideal S128x1 .f32) (s : St) : Prop :=
  ∀ b : Fin 128, vm (ix2 b 0) = s.m b ∧ vl (ix2 b 0) = s.l b ∧ vt (ix2 b 0) = s.t b

/-- The tile step at point `t` (tile number `t`), from the point's blocks. -/
def ptStep (c : Dev nD) (t : Fin cfg0.N) (s : St) : St :=
  tstep (tscore (neT m c t) (wT m c t) (labT m c t) t.val) (thit (labT m c t) t.val) s

/-! ## What each case leaves, as the stored values over the point's blocks (any float family) -/
section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Sub-center slice `k` of a weight block: the block read through the rectangle `[0,k,0]` of sizes `[1000,1,512]`. -/
abbrev wsl0 (x2 : Vec F S1000x3x512 .f32) : Vec F S1000x1x512 .f32 :=
  View.ld x2 (Rect.unit (s := S1000x3x512) ![0, 0, 0] S1000x1x512.size inb_S1000x3x512_S1000x1x512_0_0_0)
abbrev wsl1 (x2 : Vec F S1000x3x512 .f32) : Vec F S1000x1x512 .f32 :=
  View.ld x2 (Rect.unit (s := S1000x3x512) ![0, 1, 0] S1000x1x512.size inb_S1000x3x512_S1000x1x512_0_1_0)
abbrev wsl2 (x2 : Vec F S1000x3x512 .f32) : Vec F S1000x1x512 .f32 :=
  View.ld x2 (Rect.unit (s := S1000x3x512) ![0, 2, 0] S1000x1x512.size inb_S1000x3x512_S1000x1x512_0_2_0)

/-- The tile's scaled scores, their row maxima and the label test, as the body computes them from the point's blocks. -/
abbrev scB (i : grid0.Coords) (x0 : Vec F S128x1 .i32) (x1 : Vec F S128x512 .f32) (x2 : Vec F S1000x3x512 .f32) : FVec F S128x1000 .f32 :=
  k0_pay16 (BitVec.ofNat 32 (i 0).val) (BitVec.ofNat 32 (i 1).val) (k0_pay11 x1) (k0_pay12 x1 (wsl0 x2) (wsl1 x2)) (k0_pay13 (wsl2 x2)) (k0_pay14 (wsl2 x2)) x0
abbrev mxB (i : grid0.Coords) (x0 : Vec F S128x1 .i32) (x1 : Vec F S128x512 .f32) (x2 : Vec F S1000x3x512 .f32) : FVec F S128x1 .f32 :=
  k0_pay17 (BitVec.ofNat 32 (i 0).val) (BitVec.ofNat 32 (i 1).val) (k0_pay11 x1) (k0_pay12 x1 (wsl0 x2) (wsl1 x2)) (k0_pay13 (wsl2 x2)) (k0_pay14 (wsl2 x2)) x0
abbrev htB (i : grid0.Coords) (x0 : Vec F S128x1 .i32) : IVec S128x1000 1 :=
  k0_pay15 (F := F) (BitVec.ofNat 32 (i 0).val) (BitVec.ofNat 32 (i 1).val) x0

/-- At a point that is neither first nor last of its half, over what the point before left, the running maximum ends at the larger of what the point found and the tile's row maximum. -/
theorem sB0 (c : Dev nD) (i : grid0.Coords) (arg2 : Memref sig .tc .vmem S128x1 .i32) (harg2 : arg2.IsWhole) (arg3 : Memref sig .tc .vmem S128x512 .f32) (harg3 : arg3.IsWhole) (arg4 : Memref sig .tc .vmem S1000x3x512 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x1 .f32) (harg10 : arg10.IsWhole) (hc0 : ¬cond0_0 i) (hc1 : ¬cond0_1 i)
    (x0 : Vec F S128x1 .i32) (x1 : Vec F S128x512 .f32) (x2 : Vec F S1000x3x512 .f32) (xs0 : Vec F S128x1 .f32) (xs1 : Vec F S128x1 .f32) (xs2 : Vec F S128x1 .f32) :
    sout0_B_0 c i arg2 harg2 arg3 harg3 arg4 harg4 arg5 harg5 arg6 harg6 arg7 harg7 arg8 harg8 arg9 harg9 arg10 harg10 hc0 hc1 x0 x1 x2 xs0 xs1 xs2 = k0_pay3 (mxB i x0 x1 x2) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz2]
  simp only [View.readAt_eq_ld, harg2.read_unread, harg3.read_unread, harg4.read_unread, harg8.read_unread, harg9.read_unread, harg10.read_unread, View.ld_unit_zero (S := S128x1) hz2, View.ld_unit_zero (S := S128x512) hz2]

/-- At a point that is neither first nor last of its half, over what the point before left, the running sum ends at the found sum rescaled to the new maximum plus the tile's exponentials. -/
theorem sB1 (c : Dev nD) (i : grid0.Coords) (arg2 : Memref sig .tc .vmem S128x1 .i32) (harg2 : arg2.IsWhole) (arg3 : Memref sig .tc .vmem S128x512 .f32) (harg3 : arg3.IsWhole) (arg4 : Memref sig .tc .vmem S1000x3x512 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x1 .f32) (harg10 : arg10.IsWhole) (hc0 : ¬cond0_0 i) (hc1 : ¬cond0_1 i)
    (x0 : Vec F S128x1 .i32) (x1 : Vec F S128x512 .f32) (x2 : Vec F S1000x3x512 .f32) (xs0 : Vec F S128x1 .f32) (xs1 : Vec F S128x1 .f32) (xs2 : Vec F S128x1 .f32) :
    sout0_B_1 c i arg2 harg2 arg3 harg3 arg4 harg4 arg5 harg5 arg6 harg6 arg7 harg7 arg8 harg8 arg9 harg9 arg10 harg10 hc0 hc1 x0 x1 x2 xs0 xs1 xs2 = k0_pay2 (scB i x0 x1 x2) (mxB i x0 x1 x2) xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz2]
  simp only [View.readAt_eq_ld, harg2.read_unread, harg3.read_unread, harg4.read_unread, harg8.read_unread, harg9.read_unread, harg10.read_unread, View.ld_unit_zero (S := S128x1) hz2, View.ld_unit_zero (S := S128x512) hz2]

/-- At a point that is neither first nor last of its half, over what the point before left, the labelled score ends at the found one plus the tile's scores where the label test holds. -/
theorem sB2 (c : Dev nD) (i : grid0.Coords) (arg2 : Memref sig .tc .vmem S128x1 .i32) (harg2 : arg2.IsWhole) (arg3 : Memref sig .tc .vmem S128x512 .f32) (harg3 : arg3.IsWhole) (arg4 : Memref sig .tc .vmem S1000x3x512 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x1 .f32) (harg10 : arg10.IsWhole) (hc0 : ¬cond0_0 i) (hc1 : ¬cond0_1 i)
    (x0 : Vec F S128x1 .i32) (x1 : Vec F S128x512 .f32) (x2 : Vec F S1000x3x512 .f32) (xs0 : Vec F S128x1 .f32) (xs1 : Vec F S128x1 .f32) (xs2 : Vec F S128x1 .f32) :
    sout0_B_2 c i arg2 harg2 arg3 harg3 arg4 harg4 arg5 harg5 arg6 harg6 arg7 harg7 arg8 harg8 arg9 harg9 arg10 harg10 hc0 hc1 x0 x1 x2 xs0 xs1 xs2 = k0_pay4 (htB i x0) (scB i x0 x1 x2) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz2]
  simp only [View.readAt_eq_ld, harg2.read_unread, harg3.read_unread, harg4.read_unread, harg8.read_unread, harg9.read_unread, harg10.read_unread, View.ld_unit_zero (S := S128x1) hz2, View.ld_unit_zero (S := S128x512) hz2]

/-- At a half's last point, over what the point before left, the running maximum ends at the larger of what the point found and the tile's row maximum. -/
theorem sC0 (c : Dev nD) (i : grid0.Coords) (arg2 : Memref sig .tc .vmem S128x1 .i32) (harg2 : arg2.IsWhole) (arg3 : Memref sig .tc .vmem S128x512 .f32) (harg3 : arg3.IsWhole) (arg4 : Memref sig .tc .vmem S1000x3x512 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x1 .f32) (harg10 : arg10.IsWhole) (hc0 : ¬cond0_0 i) (hc1 : cond0_1 i)
    (x0 : Vec F S128x1 .i32) (x1 : Vec F S128x512 .f32) (x2 : Vec F S1000x3x512 .f32) (xs0 : Vec F S128x1 .f32) (xs1 : Vec F S128x1 .f32) (xs2 : Vec F S128x1 .f32) :
    sout0_C_0 c i arg2 harg2 arg3 harg3 arg4 harg4 arg5 harg5 arg6 harg6 arg7 harg7 arg8 harg8 arg9 harg9 arg10 harg10 hc0 hc1 x0 x1 x2 xs0 xs1 xs2 = k0_pay3 (mxB i x0 x1 x2) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz2]
  simp only [View.readAt_eq_ld, harg2.read_unread, harg3.read_unread, harg4.read_unread, harg8.read_unread, harg9.read_unread, harg10.read_unread, View.ld_unit_zero (S := S128x1) hz2, View.ld_unit_zero (S := S128x512) hz2]

/-- At a half's last point, over what the point before left, the running sum ends at the found sum rescaled to the new maximum plus the tile's exponentials. -/
theorem sC1 (c : Dev nD) (i : grid0.Coords) (arg2 : Memref sig .tc .vmem S128x1 .i32) (harg2 : arg2.IsWhole) (arg3 : Memref sig .tc .vmem S128x512 .f32) (harg3 : arg3.IsWhole) (arg4 : Memref sig .tc .vmem S1000x3x512 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x1 .f32) (harg10 : arg10.IsWhole) (hc0 : ¬cond0_0 i) (hc1 : cond0_1 i)
    (x0 : Vec F S128x1 .i32) (x1 : Vec F S128x512 .f32) (x2 : Vec F S1000x3x512 .f32) (xs0 : Vec F S128x1 .f32) (xs1 : Vec F S128x1 .f32) (xs2 : Vec F S128x1 .f32) :
    sout0_C_1 c i arg2 harg2 arg3 harg3 arg4 harg4 arg5 harg5 arg6 harg6 arg7 harg7 arg8 harg8 arg9 harg9 arg10 harg10 hc0 hc1 x0 x1 x2 xs0 xs1 xs2 = k0_pay2 (scB i x0 x1 x2) (mxB i x0 x1 x2) xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz2]
  simp only [View.readAt_eq_ld, harg2.read_unread, harg3.read_unread, harg4.read_unread, harg8.read_unread, harg9.read_unread, harg10.read_unread, View.ld_unit_zero (S := S128x1) hz2, View.ld_unit_zero (S := S128x512) hz2]

/-- At a half's last point, over what the point before left, the labelled score ends at the found one plus the tile's scores where the label test holds. -/
theorem sC2 (c : Dev nD) (i : grid0.Coords) (arg2 : Memref sig .tc .vmem S128x1 .i32) (harg2 : arg2.IsWhole) (arg3 : Memref sig .tc .vmem S128x512 .f32) (harg3 : arg3.IsWhole) (arg4 : Memref sig .tc .vmem S1000x3x512 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x1 .f32) (harg10 : arg10.IsWhole) (hc0 : ¬cond0_0 i) (hc1 : cond0_1 i)
    (x0 : Vec F S128x1 .i32) (x1 : Vec F S128x512 .f32) (x2 : Vec F S1000x3x512 .f32) (xs0 : Vec F S128x1 .f32) (xs1 : Vec F S128x1 .f32) (xs2 : Vec F S128x1 .f32) :
    sout0_C_2 c i arg2 harg2 arg3 harg3 arg4 harg4 arg5 harg5 arg6 harg6 arg7 harg7 arg8 harg8 arg9 harg9 arg10 harg10 hc0 hc1 x0 x1 x2 xs0 xs1 xs2 = k0_pay4 (htB i x0) (scB i x0 x1 x2) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz2]
  simp only [View.readAt_eq_ld, harg2.read_unread, harg3.read_unread, harg4.read_unread, harg8.read_unread, harg9.read_unread, harg10.read_unread, View.ld_unit_zero (S := S128x1) hz2, View.ld_unit_zero (S := S128x512) hz2]

/-- At a half's last point the output block of the maximum is the column just stored, regrouped `[128,1] → [1,128,1]`. -/
theorem oC3 (c : Dev nD) (i : grid0.Coords) (arg2 : Memref sig .tc .vmem S128x1 .i32) (harg2 : arg2.IsWhole) (arg3 : Memref sig .tc .vmem S128x512 .f32) (harg3 : arg3.IsWhole) (arg4 : Memref sig .tc .vmem S1000x3x512 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x1 .f32) (harg10 : arg10.IsWhole) (hc0 : ¬cond0_0 i) (hc1 : cond0_1 i)
    (x0 : Vec F S128x1 .i32) (x1 : Vec F S128x512 .f32) (x2 : Vec F S1000x3x512 .f32) (xs0 : Vec F S128x1 .f32) (xs1 : Vec F S128x1 .f32) (xs2 : Vec F S128x1 .f32) :
    out0_C_3 c i arg2 harg2 arg3 harg3 arg4 harg4 arg5 harg5 arg6 harg6 arg7 harg7 arg8 harg8 arg9 harg9 arg10 harg10 hc0 hc1 x0 x1 x2 xs0 xs1 xs2 = k0_pay5 (k0_pay3 (mxB i x0 x1 x2) xs0) := by
  unfold out0_C_3
  rw [View.read_writes_eq_canon _ _ _ (cover0_C_3 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz3]
  simp only [View.readAt_eq_ld, harg2.read_unread, harg3.read_unread, harg4.read_unread, harg8.read_unread, harg9.read_unread, harg10.read_unread, View.ld_unit_zero (S := S128x1) hz2, View.ld_unit_zero (S := S128x512) hz2, View.readCov_unit_zero (S := S128x1) _ hz2]

/-- At a half's last point the output block of the sum is the column just stored, regrouped `[128,1] → [1,128,1]`. -/
theorem oC4 (c : Dev nD) (i : grid0.Coords) (arg2 : Memref sig .tc .vmem S128x1 .i32) (harg2 : arg2.IsWhole) (arg3 : Memref sig .tc .vmem S128x512 .f32) (harg3 : arg3.IsWhole) (arg4 : Memref sig .tc .vmem S1000x3x512 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x1 .f32) (harg10 : arg10.IsWhole) (hc0 : ¬cond0_0 i) (hc1 : cond0_1 i)
    (x0 : Vec F S128x1 .i32) (x1 : Vec F S128x512 .f32) (x2 : Vec F S1000x3x512 .f32) (xs0 : Vec F S128x1 .f32) (xs1 : Vec F S128x1 .f32) (xs2 : Vec F S128x1 .f32) :
    out0_C_4 c i arg2 harg2 arg3 harg3 arg4 harg4 arg5 harg5 arg6 harg6 arg7 harg7 arg8 harg8 arg9 harg9 arg10 harg10 hc0 hc1 x0 x1 x2 xs0 xs1 xs2 = k0_pay6 (k0_pay2 (scB i x0 x1 x2) (mxB i x0 x1 x2) xs0 xs1) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz3]
  simp only [View.readAt_eq_ld, harg2.read_unread, harg3.read_unread, harg4.read_unread, harg8.read_unread, harg9.read_unread, harg10.read_unread, View.ld_unit_zero (S := S128x1) hz2, View.ld_unit_zero (S := S128x512) hz2, View.readCov_unit_zero (S := S128x1) _ hz2]

/-- At a half's last point the output block of the labelled score is the column just stored, regrouped `[128,1] → [1,128,1]`. -/
theorem oC5 (c : Dev nD) (i : grid0.Coords) (arg2 : Memref sig .tc .vmem S128x1 .i32) (harg2 : arg2.IsWhole) (arg3 : Memref sig .tc .vmem S128x512 .f32) (harg3 : arg3.IsWhole) (arg4 : Memref sig .tc .vmem S1000x3x512 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x1 .f32) (harg10 : arg10.IsWhole) (hc0 : ¬cond0_0 i) (hc1 : cond0_1 i)
    (x0 : Vec F S128x1 .i32) (x1 : Vec F S128x512 .f32) (x2 : Vec F S1000x3x512 .f32) (xs0 : Vec F S128x1 .f32) (xs1 : Vec F S128x1 .f32) (xs2 : Vec F S128x1 .f32) :
    out0_C_5 c i arg2 harg2 arg3 harg3 arg4 harg4 arg5 harg5 arg6 harg6 arg7 harg7 arg8 harg8 arg9 harg9 arg10 harg10 hc0 hc1 x0 x1 x2 xs0 xs1 xs2 = k0_pay7 (k0_pay4 (htB i x0) (scB i x0 x1 x2) xs2) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz3]
  simp only [View.readAt_eq_ld, harg2.read_unread, harg3.read_unread, harg4.read_unread, harg8.read_unread, harg9.read_unread, harg10.read_unread, View.ld_unit_zero (S := S128x1) hz2, View.ld_unit_zero (S := S128x512) hz2, View.readCov_unit_zero (S := S128x1) _ hz2]

/-- At a half's first point, where the point finds the reset values (bottom, zero, zero), the running maximum ends at the larger of what the point found and the tile's row maximum. -/
theorem sA0 (c : Dev nD) (i : grid0.Coords) (arg2 : Memref sig .tc .vmem S128x1 .i32) (harg2 : arg2.IsWhole) (arg3 : Memref sig .tc .vmem S128x512 .f32) (harg3 : arg3.IsWhole) (arg4 : Memref sig .tc .vmem S1000x3x512 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x1 .f32) (harg10 : arg10.IsWhole) (hc0 : cond0_0 i) (hc1 : ¬cond0_1 i)
    (x0 : Vec F S128x1 .i32) (x1 : Vec F S128x512 .f32) (x2 : Vec F S1000x3x512 .f32) :
    sout0_A_0 c i arg2 harg2 arg3 harg3 arg4 harg4 arg5 harg5 arg6 harg6 arg7 harg7 arg8 harg8 arg9 harg9 arg10 harg10 hc0 hc1 x0 x1 x2 = k0_pay3 (mxB i x0 x1 x2) (k0_pay8 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S128x1) hz2]
  simp only [View.readAt_eq_ld, harg2.read_unread, harg3.read_unread, harg4.read_unread, harg8.read_unread, harg9.read_unread, harg10.read_unread, View.ld_unit_zero (S := S128x1) hz2, View.ld_unit_zero (S := S128x512) hz2, View.readCov_unit_zero (S := S128x1) _ hz2]

/-- At a half's first point, where the point finds the reset values (bottom, zero, zero), the running sum ends at the found sum rescaled to the new maximum plus the tile's exponentials. -/
theorem sA1 (c : Dev nD) (i : grid0.Coords) (arg2 : Memref sig .tc .vmem S128x1 .i32) (harg2 : arg2.IsWhole) (arg3 : Memref sig .tc .vmem S128x512 .f32) (harg3 : arg3.IsWhole) (arg4 : Memref sig .tc .vmem S1000x3x512 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x1 .f32) (harg10 : arg10.IsWhole) (hc0 : cond0_0 i) (hc1 : ¬cond0_1 i)
    (x0 : Vec F S128x1 .i32) (x1 : Vec F S128x512 .f32) (x2 : Vec F S1000x3x512 .f32) :
    sout0_A_1 c i arg2 harg2 arg3 harg3 arg4 harg4 arg5 harg5 arg6 harg6 arg7 harg7 arg8 harg8 arg9 harg9 arg10 harg10 hc0 hc1 x0 x1 x2 = k0_pay2 (scB i x0 x1 x2) (mxB i x0 x1 x2) (k0_pay8 (F := F)) (k0_pay9 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S128x1) hz2]
  simp only [View.readAt_eq_ld, harg2.read_unread, harg3.read_unread, harg4.read_unread, harg8.read_unread, harg9.read_unread, harg10.read_unread, View.ld_unit_zero (S := S128x1) hz2, View.ld_unit_zero (S := S128x512) hz2, View.readCov_unit_zero (S := S128x1) _ hz2]

/-- At a half's first point, where the point finds the reset values (bottom, zero, zero), the labelled score ends at the found one plus the tile's scores where the label test holds. -/
theorem sA2 (c : Dev nD) (i : grid0.Coords) (arg2 : Memref sig .tc .vmem S128x1 .i32) (harg2 : arg2.IsWhole) (arg3 : Memref sig .tc .vmem S128x512 .f32) (harg3 : arg3.IsWhole) (arg4 : Memref sig .tc .vmem S1000x3x512 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x1 .f32) (harg10 : arg10.IsWhole) (hc0 : cond0_0 i) (hc1 : ¬cond0_1 i)
    (x0 : Vec F S128x1 .i32) (x1 : Vec F S128x512 .f32) (x2 : Vec F S1000x3x512 .f32) :
    sout0_A_2 c i arg2 harg2 arg3 harg3 arg4 harg4 arg5 harg5 arg6 harg6 arg7 harg7 arg8 harg8 arg9 harg9 arg10 harg10 hc0 hc1 x0 x1 x2 = k0_pay4 (htB i x0) (scB i x0 x1 x2) (k0_pay10 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S128x1) hz2]
  simp only [View.readAt_eq_ld, harg2.read_unread, harg3.read_unread, harg4.read_unread, harg8.read_unread, harg9.read_unread, harg10.read_unread, View.ld_unit_zero (S := S128x1) hz2, View.ld_unit_zero (S := S128x512) hz2, View.readCov_unit_zero (S := S128x1) _ hz2]

end Pieces

/-! ## The payloads at an index, on the extended reals -/

open Cert.KernelIdeal.KPay

/-- Reading sub-center slice `k` at `(j, 0, d)` reads the block at `(j, k, d)`. -/
theorem wOf_slices (x2 : Vec Ideal S1000x3x512 .f32) :
    wOf (wsl0 x2) (wsl1 x2) (wsl2 x2) = fun j k d => x2 (ix3 j k d) := by
  funext j k d
  match k with
  | 0 => exact congrArg x2 (funext fun a => by match a with | ⟨0, _⟩ => exact Fin.ext (by simp [LoadRect.idx]) | ⟨1, _⟩ => exact Fin.ext (by simp [LoadRect.idx]) | ⟨2, _⟩ => exact Fin.ext (by simp [LoadRect.idx]))
  | 1 => exact congrArg x2 (funext fun a => by match a with | ⟨0, _⟩ => exact Fin.ext (by simp [LoadRect.idx]) | ⟨1, _⟩ => exact Fin.ext (by simp [LoadRect.idx]) | ⟨2, _⟩ => exact Fin.ext (by simp [LoadRect.idx]))
  | 2 => exact congrArg x2 (funext fun a => by match a with | ⟨0, _⟩ => exact Fin.ext (by simp [LoadRect.idx]) | ⟨1, _⟩ => exact Fin.ext (by simp [LoadRect.idx]) | ⟨2, _⟩ => exact Fin.ext (by simp [LoadRect.idx]))

/-- The word the body computes from the grid coordinates `(p, c)` of point `t`, `((p·50 + c)·1000)`, is the word of `t·1000`:
    decided over the hundred points of the grid. -/
theorem hT_grid : ∀ t : Fin cfg0.N,
    Scalar.muli (Scalar.addi (Scalar.muli (BitVec.ofNat 32 (grid0.coords t 0).val) 50#32) (BitVec.ofNat 32 (grid0.coords t 1).val)) 1000#32
      = BitVec.ofNat 32 (t.val * 1000) :=
  (by decide +kernel : ∀ t : Fin grid0.N,
    Scalar.muli (Scalar.addi (Scalar.muli (BitVec.ofNat 32 (grid0.coords t 0).val) 50#32) (BitVec.ofNat 32 (grid0.coords t 1).val)) 1000#32
      = BitVec.ofNat 32 (t.val * 1000))

/-- The body's scaled scores at an index are the tile scores over the point's blocks. -/
theorem scB_apply (i : grid0.Coords) (x0 : Vec Ideal S128x1 .i32) (x1 : Vec Ideal S128x512 .f32) (x2 : Vec Ideal S1000x3x512 .f32) (T : ℕ)
    (hT : Scalar.muli (Scalar.addi (Scalar.muli (BitVec.ofNat 32 (i 0).val) 50#32) (BitVec.ofNat 32 (i 1).val)) 1000#32 = BitVec.ofNat 32 (T * 1000)) (b : Fin 128) (j : Fin 1000) :
    scB (F := Ideal) i x0 x1 x2 (ix2 b j) = tscore (fun b d => x1 (ix2 b d)) (fun j k d => x2 (ix3 j k d)) (fun b => x0 (ix2 b 0)) T b j :=
  (pay16_apply (BitVec.ofNat 32 (i 0).val) (BitVec.ofNat 32 (i 1).val) x1 (wsl0 x2) (wsl1 x2) (wsl2 x2) x0 T hT b j).trans
    (by rw [wOf_slices])

/-- One update of the carried values: if the three column vectors the update reads hold the state `s`, the three it stores
    hold the tile step of `s` over the tile's scores and label test. -/
theorem upd_rep (i : grid0.Coords) (x0 : Vec Ideal S128x1 .i32) (x1 : Vec Ideal S128x512 .f32) (x2 : Vec Ideal S1000x3x512 .f32) (T : ℕ)
    (hT : Scalar.muli (Scalar.addi (Scalar.muli (BitVec.ofNat 32 (i 0).val) 50#32) (BitVec.ofNat 32 (i 1).val)) 1000#32 = BitVec.ofNat 32 (T * 1000)) (vm vl vt : Vec Ideal S128x1 .f32) (s : St) (h : Rep vm vl vt s) :
    Rep (k0_pay3 (F := Ideal) (mxB i x0 x1 x2) vm) (k0_pay2 (F := Ideal) (scB i x0 x1 x2) (mxB i x0 x1 x2) vm vl)
      (k0_pay4 (F := Ideal) (htB i x0) (scB i x0 x1 x2) vt)
      (tstep (tscore (fun b d => x1 (ix2 b d)) (fun j k d => x2 (ix3 j k d)) (fun b => x0 (ix2 b 0)) T) (thit (fun b => x0 (ix2 b 0)) T) s) := by
  intro b
  obtain ⟨hm, hl, ht⟩ := h b
  have hsc : ∀ j : Fin 1000, scB (F := Ideal) i x0 x1 x2 (ix2 b j) = tscore (fun b d => x1 (ix2 b d)) (fun j k d => x2 (ix3 j k d)) (fun b => x0 (ix2 b 0)) T b j :=
    fun j => scB_apply i x0 x1 x2 T hT b j
  have hmx : mxB (F := Ideal) i x0 x1 x2 (ix2 b 0) = Finset.univ.sup fun j : Fin 1000 => tscore (fun b d => x1 (ix2 b d)) (fun j k d => x2 (ix3 j k d)) (fun b => x0 (ix2 b 0)) T b j :=
    (pay17_apply (BitVec.ofNat 32 (i 0).val) (BitVec.ofNat 32 (i 1).val) x1 (wsl0 x2) (wsl1 x2) (wsl2 x2) x0 b).trans
      (congrArg (Finset.sup Finset.univ) (funext hsc))
  refine ⟨?_, ?_, ?_⟩
  · refine (pay3_apply (mxB i x0 x1 x2) vm b).trans ?_
    rw [hm, hmx]; rfl
  · refine (pay2_apply (scB i x0 x1 x2) (mxB i x0 x1 x2) vm vl b).trans ?_
    rw [hm, hl, hmx]; simp only [hsc]; rfl
  · refine (pay4_apply (htB i x0) (scB i x0 x1 x2) vt b).trans ?_
    rw [ht]
    show _ = s.t b + ∑ j, (if thit (fun b => x0 (ix2 b 0)) T b j then tscore (fun b d => x1 (ix2 b d)) (fun j k d => x2 (ix3 j k d)) (fun b => x0 (ix2 b 0)) T b j else 0)
    exact congrArg (fun z => s.t b + z) <| Finset.sum_congr rfl fun j _ => if_congr (pay15_apply (BitVec.ofNat 32 (i 0).val) (BitVec.ofNat 32 (i 1).val) x0 T hT b j) (hsc j) rfl

/-- The reset values hold the empty state. -/
theorem rep_reset : Rep (k0_pay8 (F := Ideal)) (k0_pay9 (F := Ideal)) (k0_pay10 (F := Ideal)) st0 :=
  fun b => ⟨pay8_apply b, pay9_apply b, pay10_apply b⟩

/-- A half's first point (positions 0 and 50) resets the scratch and steps the empty state. -/
theorem point_first (c : Dev nD) (t : Fin cfg0.N) (h0 : t.val % 50 = 0) :
    Rep (scrM m c t.val t.isLt) (scrL m c t.val t.isLt) (scrT m c t.val t.isLt) (ptStep m c t st0) := by
  have h1 : ¬t.val % 50 = 49 := by omega
  show Rep (outsAt0 m c t.val t.isLt).2.2.2.1 (outsAt0 m c t.val t.isLt).2.2.2.2.1 (outsAt0 m c t.val t.isLt).2.2.2.2.2 _
  rw [outsAt0_A m c t h0 h1]; dsimp only
  rw [sA0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) ((hcond0_0 t).mpr h0) (fun h => h1 ((hcond0_1 t).mp h)) (iblk m c 0 t) (iblk m c 1 t) (iblk m c 2 t),
    sA1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) ((hcond0_0 t).mpr h0) (fun h => h1 ((hcond0_1 t).mp h)) (iblk m c 0 t) (iblk m c 1 t) (iblk m c 2 t),
    sA2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) ((hcond0_0 t).mpr h0) (fun h => h1 ((hcond0_1 t).mp h)) (iblk m c 0 t) (iblk m c 1 t) (iblk m c 2 t)]
  exact upd_rep (grid0.coords t) (labB m c t) (neB m c t) (wB m c t) t.val (hT_grid t) _ _ _ st0 rep_reset

/-- Any other point steps what the point before left. -/
theorem point_next (c : Dev nD) (t : Fin cfg0.N) (h0 : ¬t.val % 50 = 0) (s : St)
    (hprev : Rep (scrM m c (t.val - 1) (Nat.lt_of_le_of_lt (Nat.sub_le _ _) t.isLt))
      (scrL m c (t.val - 1) (Nat.lt_of_le_of_lt (Nat.sub_le _ _) t.isLt))
      (scrT m c (t.val - 1) (Nat.lt_of_le_of_lt (Nat.sub_le _ _) t.isLt)) s) :
    Rep (scrM m c t.val t.isLt) (scrL m c t.val t.isLt) (scrT m c t.val t.isLt) (ptStep m c t s) := by
  by_cases h1 : t.val % 50 = 49
  · show Rep (outsAt0 m c t.val t.isLt).2.2.2.1 (outsAt0 m c t.val t.isLt).2.2.2.2.1 (outsAt0 m c t.val t.isLt).2.2.2.2.2 _
    rw [outsAt0_C m c t h0 h1]; dsimp only
    rw [sC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
      sC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
      sC2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2]
    exact upd_rep (grid0.coords t) (labB m c t) (neB m c t) (wB m c t) t.val (hT_grid t) _ _ _ s hprev
  · show Rep (outsAt0 m c t.val t.isLt).2.2.2.1 (outsAt0 m c t.val t.isLt).2.2.2.2.1 (outsAt0 m c t.val t.isLt).2.2.2.2.2 _
    rw [outsAt0_B m c t h0 h1]; dsimp only
    rw [sB0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
      sB1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
      sB2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2]
    exact upd_rep (grid0.coords t) (labB m c t) (neB m c t) (wB m c t) t.val (hT_grid t) _ _ _ s hprev

/-- A half's last point (positions 49 and 99) stores the scratch it leaves into the three output blocks. -/
theorem point_out (c : Dev nD) (t : Fin cfg0.N) (h1 : t.val % 50 = 49) (b : Fin 128) :
    outM m c t.val t.isLt (ix3 0 b 0) = scrM m c t.val t.isLt (ix2 b 0)
    ∧ outL m c t.val t.isLt (ix3 0 b 0) = scrL m c t.val t.isLt (ix2 b 0)
    ∧ outT m c t.val t.isLt (ix3 0 b 0) = scrT m c t.val t.isLt (ix2 b 0) := by
  have h0 : ¬t.val % 50 = 0 := by omega
  show (outsAt0 m c t.val t.isLt).1 (ix3 0 b 0) = (outsAt0 m c t.val t.isLt).2.2.2.1 (ix2 b 0)
    ∧ (outsAt0 m c t.val t.isLt).2.1 (ix3 0 b 0) = (outsAt0 m c t.val t.isLt).2.2.2.2.1 (ix2 b 0)
    ∧ (outsAt0 m c t.val t.isLt).2.2.1 (ix3 0 b 0) = (outsAt0 m c t.val t.isLt).2.2.2.2.2 (ix2 b 0)
  rw [outsAt0_C m c t h0 h1]; dsimp only
  rw [oC3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    oC4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    oC5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    sC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    sC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    sC2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2]
  exact ⟨pay5_apply _ b, pay6_apply _ b, pay7_apply _ b⟩

end Cert.KernelIdeal.KBody

end
-- ==== Proof.Arrays.lean ====
/-
  The three argument arrays read by coordinates: the embeddings and the weight as functions of (row, column), and
  the labels — words known to be below 100000 as naturals — as class indices.
-/
import Idealize.ShloMosaic.PureOps.Ideal
import Idealize.ShloMosaic.Lib.ValueIdx

noncomputable section

namespace Cert.Arr

open Idealize.ShloMosaic Idealize.ShloMosaic.ValueIdx

/-- The embeddings by (row, column). -/
def E (x0 : (⟨2, ![128, 512]⟩ : Shape).Idx → EReal) : Fin 128 → Fin 512 → EReal := fun b d => x0 (ix2 b d)

/-- The weight by (row, column). -/
def W (x2 : (⟨2, ![300000, 512]⟩ : Shape).Idx → EReal) : Fin 300000 → Fin 512 → EReal := fun r d => x2 (ix2 r d)

/-- The labels as class indices, given that each is below 100000 as a natural. -/
def L (x1 : (⟨1, ![128]⟩ : Shape).Idx → BitVec 32) (h : ∀ b : Fin 128, (x1 (ix1 b)).toNat < 100000) : Fin 128 → Fin 100000 :=
  fun b => ⟨(x1 (ix1 b)).toNat, h b⟩

end Cert.Arr

end
-- ==== Proof.KArrays.lean ====
/-
  The blocks a grid point sees, in terms of the argument arrays: the labels' block is the label vector as a column,
  the embeddings' block is the whole normalised embeddings, and point `t`'s weight block is classes
  `1000 t … 1000 t + 999` of the weight regrouped by (class, sub-center): row `3·class + sub-center`.
-/
import proofs.«420243_j57750130262074_2_alg».proof.Proof.KBody
import proofs.«420243_j57750130262074_2_alg».proof.Proof.Arrays
import Idealize.ShloMosaic.Lib.Pipeline.Value
import Idealize.ShloMosaic.PureOps.Ideal.Laws

noncomputable section

namespace Cert.KernelIdeal.KArrays

open Cert.KernelIdeal Cert.KernelIdeal.Gen Cert.KernelIdeal.KBody Idealize.ShloMosaic Idealize.ShloMosaic.ValueIdx Cert.Spec Cert.KSpec

variable (m : (ℓ : Loc nD τ sig) → Buf (Elt Ideal) ℓ)

/-- The three argument arrays on device `c`. -/
abbrev arg0 (c : Dev nD) : (⟨2, ![128, 512]⟩ : Shape).Idx → EReal := m ((c.tc : Thread nD τ).loc main_arg0)
abbrev arg1 (c : Dev nD) : (⟨1, ![128]⟩ : Shape).Idx → BitVec 32 := m ((c.tc : Thread nD τ).loc main_arg1)
abbrev arg2 (c : Dev nD) : (⟨2, ![300000, 512]⟩ : Shape).Idx → EReal := m ((c.tc : Thread nD τ).loc main_arg2)

/-! ## The labels -/

/-- The labels' array as the region finds it: the label vector as a column. -/
theorem v0_eq (c : Dev nD) : (V m c main_v0 : S128x1.Idx → BitVec 32) = shapeCast S128x1 (arg1 m c) shapeCasts_S128_S128x1 := by
  show StableHlo.after hostOps0 (fun b => m (c, b)) (Proc.devRef .tc main_v0) = _
  after_results
  rfl

/-- The labels' window sits at block (0, 0) at every point. -/
theorem idx0 : ∀ t : Fin cfg0.N, win0_0.index t (0 : Fin 2) = 0 ∧ win0_0.index t (1 : Fin 2) = 0 :=
  (by decide +kernel : ∀ t : Fin grid0.N, _)

/-- Every point sees the label vector. -/
theorem labT_eq (c : Dev nD) (t : Fin cfg0.N) (b : Fin 128) : labT m c t b = arg1 m c (ix1 b) := by
  show (V m c main_v0 : S128x1.Idx → BitVec 32) (((cfg0.win 0).blk t).view.emb (ix2 b 0)) = _
  rw [v0_eq]
  refine shapeCast_apply _ _ _ (ix1 b) ?_
  rw [Shape.rowMajor_val_one, Shape.rowMajor_val_two]
  obtain ⟨e0, e1⟩ := idx0 t
  show b.val = (win0_0.index t (0 : Fin 2) * 128 + 1 * b.val) * 1 + (win0_0.index t (1 : Fin 2) * 1 + 1 * 0)
  omega

/-! ## The normalised embeddings -/

/-- The normalised embeddings' chain of host operations, read at one entry. -/
theorem ne_at (hb1 : S128.BroadcastsInDim S128x1 ![0]) (hb2 : S128x1.BroadcastsInDim S128x512 ![0, 1])
    (hr' : S128x512.ReducesTo [1] S128) (hu : 0 < S_.numel) (x : FVec Ideal S128x512 .f32) (b : Fin 128) (d : Fin 512) :
    Host.divf x (broadcastInDim S128x512 ![0, 1] hb2 (Host.sqrt (broadcastInDim S128x1 ![0] hb1
      (Host.reduceAdd (F := Ideal) (mulf x x) (constant (F := Ideal) S_ .f32 0x00000000#32) hr' hu)))) (ix2 b d)
    = Ideal.div (x (ix2 b d)) (Ideal.sqrt (∑ d', x (ix2 b d') * x (ix2 b d'))) := by
  have hr : S128x512.Reduces [1] S128 := by decide
  have e1 : Host.reduceAdd (F := Ideal) (mulf x x) (constant (F := Ideal) S_ .f32 0x00000000#32) hr' hu
      = Ideal.hostReduceAdd hr' (fun i => x i * x i) (Ideal.ofBits .f32 0x00000000#32) := rfl
  rw [e1]
  have e2 : ∀ g : FVec Ideal S128 .f32,
      broadcastInDim S128x512 ![0, 1] hb2 (Host.sqrt (F := Ideal) (φ := .f32) (broadcastInDim S128x1 ![0] hb1 g)) (ix2 b d) = Ideal.sqrt (g (ix1 b)) := by
    intro g
    show Ideal.sqrt (g _) = Ideal.sqrt (g (ix1 b))
    refine congrArg (fun i => Ideal.sqrt (g i)) ?_
    funext a
    match a with
    | ⟨0, _⟩ => rfl
  have e3 : ∀ y : FVec Ideal S128x512 .f32, Host.divf x y (ix2 b d) = Ideal.div (x (ix2 b d)) (y (ix2 b d)) := fun _ => rfl
  rw [e3, e2, Ideal.hostReduceAdd_single hr' hr, Cert.Consts.ofBits_zero, zero_add]
  have hl : ∀ d' : Fin 512, hr.lift (ix1 b) d' = ix2 b d' := by
    intro d'
    funext a
    match a with
    | ⟨0, _⟩ => rfl
    | ⟨1, _⟩ => rfl
  refine congrArg (fun s => Ideal.div (x (ix2 b d)) (Ideal.sqrt s)) ?_
  exact Finset.sum_congr rfl fun d' _ => by rw [hl d']

/-- The embeddings' array as the region finds it: each row divided by the square root of its sum of squares. -/
theorem v6_eq (c : Dev nD) : (V m c main_v6 : S128x512.Idx → EReal)
    = Host.divf (arg0 m c) (broadcastInDim (s := S128x1) S128x512 ![0, 1] Facts₀.bcast_S128x1_S128x512_0_1 (Host.sqrt (broadcastInDim (s := S128) S128x1 ![0] Facts₀.bcast_S128_S128x1_0
      (Host.reduceAdd (F := Ideal) (mulf (arg0 m c) (arg0 m c)) (constant (F := Ideal) S_ .f32 0x00000000#32) Facts₀.reducesTo_S128x512_S128_d1 Facts₀.h_S_)))) := by
  show StableHlo.after hostOps0 (fun b => m (c, b)) (Proc.devRef .tc main_v6) = _
  after_results

/-- The embeddings' window sits at block (0, 0) at every point. -/
theorem idx1 : ∀ t : Fin cfg0.N, win0_1.index t (0 : Fin 2) = 0 ∧ win0_1.index t (1 : Fin 2) = 0 :=
  (by decide +kernel : ∀ t : Fin grid0.N, _)

/-- Every point sees the normalised embeddings. -/
theorem neT_eq (c : Dev nD) (t : Fin cfg0.N) : neT m c t = neOf (Cert.Arr.E (arg0 m c)) := by
  funext b d
  show (V m c main_v6 : S128x512.Idx → EReal) (((cfg0.win 1).blk t).view.emb (ix2 b d)) = _
  have hemb : ((cfg0.win 1).blk t).view.emb (ix2 b d) = (ix2 b d : S128x512.Idx) := by
    obtain ⟨e0, e1⟩ := idx1 t
    funext a
    apply Fin.ext
    match a with
    | ⟨0, _⟩ => show win0_1.index t (0 : Fin 2) * 128 + 1 * b.val = b.val; omega
    | ⟨1, _⟩ => show win0_1.index t (1 : Fin 2) * 512 + 1 * d.val = d.val; omega
  rw [hemb, v6_eq]
  exact ne_at _ _ _ _ (arg0 m c) b d

/-! ## The weight -/

/-- The weight's array as the region finds it: the weight regrouped by (class, sub-center, column). -/
theorem v7_eq (c : Dev nD) : (V m c main_v7 : S100000x3x512.Idx → EReal) = shapeCast S100000x3x512 (arg2 m c) shapeCasts_S300000x512_S100000x3x512 := by
  show StableHlo.after hostOps0 (fun b => m (c, b)) (Proc.devRef .tc main_v7) = _
  after_results
  rfl

/-- The weight's window at point `t` sits at block (t, 0, 0). -/
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

/-- Point `t` sees tile `t` of the weight: class `j` of the tile is class `1000 t + j`, whose sub-center `k` is row `3 (1000 t + j) + k`. -/
theorem wT_eq (c : Dev nD) (t : Fin cfg0.N) (j : Fin 1000) (k : Fin 3) (d : Fin 512) :
    wT m c t j k d = Cert.Arr.W (arg2 m c) (sub3 (colOf t.val j) k) d := by
  show (V m c main_v7 : S100000x3x512.Idx → EReal) (((cfg0.win 2).blk t).view.emb (ix3 j k d)) = arg2 m c (ix2 (sub3 (colOf t.val j) k) d)
  rw [v7_eq]
  refine shapeCast_apply _ _ _ (ix2 (sub3 (colOf t.val j) k) d) ?_
  rw [Shape.rowMajor_val_two, Shape.rowMajor_val_three]
  obtain ⟨e0, e1, e2⟩ := idx2 t
  have ht : t.val < 100 := lt_of_lt_of_eq t.isLt N_0
  have hj : j.val < 1000 := j.isLt
  have hk : k.val < 3 := k.isLt
  show (3 * ((t.val * 1000 + j.val) % 100000) + k.val) * 512 + d.val
    = ((win0_2.index t (0 : Fin 3) * 1000 + 1 * j.val) * 3 + (win0_2.index t (1 : Fin 3) * 3 + 1 * k.val)) * 512 + (win0_2.index t (2 : Fin 3) * 512 + 1 * d.val)
  rw [e0, e1, e2, Nat.mod_eq_of_lt (by omega)]
  omega

end Cert.KernelIdeal.KArrays

end
-- ==== Proof.KInduct.lean ====
/-
  The carried scratch after every grid point: after point `t` (tile `t` overall, tile `t mod 50` of half `t / 50`) it
  holds the streamed state of that half after its tiles `0 … t mod 50`, over the scaled scores of the argument arrays;
  and at a half's last point the output blocks hold that half's final state.
-/
import proofs.«420243_j57750130262074_2_alg».proof.Proof.KArrays

noncomputable section

namespace Cert.KernelIdeal.KInduct

open Cert.KernelIdeal Cert.KernelIdeal.Gen Cert.KernelIdeal.KBody Cert.KernelIdeal.KArrays Idealize.ShloMosaic Idealize.ShloMosaic.ValueIdx Cert.Spec Cert.KSpec

/-! ## The tile step depends on the scores and on the label test only through their values -/

/-- Equal scores and equivalent label tests give the same tile step. -/
theorem tstep_congr (x x' : Fin 128 → Fin 1000 → EReal) (hit hit' : Fin 128 → Fin 1000 → Prop)
    [∀ b j, Decidable (hit b j)] [∀ b j, Decidable (hit' b j)]
    (hx : ∀ b j, x b j = x' b j) (hh : ∀ b j, hit b j ↔ hit' b j) (s : St) :
    tstep x hit s = tstep x' hit' s := by
  have hxx : x = x' := funext fun b => funext fun j => hx b j
  subst hxx
  unfold tstep
  congr 1
  funext b
  congr 1
  exact Finset.sum_congr rfl fun j _ => if_congr (hh b j) rfl rfl

/-! ## A tile's scores and label test, read against the whole arrays -/

/-- The word of column `j` of tile `T` is the label word exactly when the column is the label's class: both
    numbers are below `100000`, so neither the word's wrap nor the column's is met. -/
theorem hit_iff (lab : Fin 128 → BitVec 32) (ℓ : Fin 128 → Fin 100000) (hℓ : ∀ b, (ℓ b).val = (lab b).toNat)
    {T : ℕ} (hT : T < 100) (b : Fin 128) (j : Fin 1000) : thit lab T b j ↔ colOf T j = ℓ b := by
  have hj := j.isLt
  have hlt : T * 1000 + j.val < 100000 := by omega
  have hlt' : T * 1000 + j.val < 2 ^ 32 := by omega
  unfold thit
  constructor
  · intro h
    apply Fin.ext
    show (T * 1000 + j.val) % 100000 = (ℓ b).val
    rw [hℓ b, ← h, BitVec.toNat_ofNat, Nat.mod_eq_of_lt hlt, Nat.mod_eq_of_lt hlt']
  · intro h
    apply BitVec.eq_of_toNat_eq
    have h' : (T * 1000 + j.val) % 100000 = (ℓ b).val := congrArg Fin.val h
    rw [BitVec.toNat_ofNat, Nat.mod_eq_of_lt hlt', ← hℓ b, ← h', Nat.mod_eq_of_lt hlt]

/-- A clipped cosine computed from a row of the tile's block is the one computed from the same row of the weight. -/
theorem tlogit_eq (ne : Fin 128 → Fin 512 → EReal) (wb : Fin 1000 → Fin 3 → Fin 512 → EReal)
    (w : Fin 300000 → Fin 512 → EReal) (b : Fin 128) (j : Fin 1000) (k : Fin 3) (r : Fin 300000)
    (h : ∀ d, wb j k d = w r d) : tlogit ne wb b j k = logit ne (wnK w) b r := by
  unfold tlogit logit wnK ssq
  simp only [h]

/-- The tile's scaled score of its class `j` is the scaled score of class `colOf T j`. -/
theorem tscore_eq (ne : Fin 128 → Fin 512 → EReal) (wb : Fin 1000 → Fin 3 → Fin 512 → EReal)
    (w : Fin 300000 → Fin 512 → EReal) (lab : Fin 128 → BitVec 32) (ℓ : Fin 128 → Fin 100000)
    (hℓ : ∀ b, (ℓ b).val = (lab b).toNat) {T : ℕ} (hT : T < 100)
    (hw : ∀ j k d, wb j k d = w (sub3 (colOf T j) k) d) (b : Fin 128) (j : Fin 1000) :
    tscore ne wb lab T b j = score ne (wnK w) ℓ b (colOf T j) := by
  have hb : tblk ne wb b j = blk ne (wnK w) b (colOf T j) := by
    unfold tblk blk
    rw [tlogit_eq ne wb w b j 0 _ (hw j 0), tlogit_eq ne wb w b j 1 _ (hw j 1), tlogit_eq ne wb w b j 2 _ (hw j 2)]
  unfold tscore score
  rw [hb]
  congr 1
  exact if_congr (hit_iff lab ℓ hℓ hT b j) rfl rfl

variable (m : (ℓ : Loc nD τ sig) → Buf (Elt Ideal) ℓ) (c : Dev nD)
variable (hlab : ∀ b : Fin 128, (arg1 m c (ix1 b)).toNat < 100000)

/-- The labels as class indices, and the scaled scores of the argument arrays (weight rows normalised by the
    reciprocal square root). -/
abbrev ell : Fin 128 → Fin 100000 := Cert.Arr.L (arg1 m c) hlab
abbrev sc : Fin 128 → Fin 100000 → EReal := score (neOf (Cert.Arr.E (arg0 m c))) (wnK (Cert.Arr.W (arg2 m c))) (ell m c hlab)

/-- The step a point takes from its blocks is the specification's step of tile `t` over the arrays' scores. -/
theorem ptStep_eq (t : Fin cfg0.N) (s : St) :
    ptStep m c t s = step (sc m c hlab) (ell m c hlab) t.val s := by
  have hT : t.val < 100 := lt_of_lt_of_eq t.isLt (show cfg0.N = 100 from N_0)
  have hℓ : ∀ b, (ell m c hlab b).val = (labT m c t b).toNat := fun b =>
    (congrArg BitVec.toNat (labT_eq m c t b)).symm
  rw [step_eq_tstep]
  unfold ptStep
  refine tstep_congr _ _ _ _ (fun b j => ?_) (fun b j => hit_iff _ _ hℓ hT b j) s
  rw [neT_eq]
  exact tscore_eq _ _ _ _ _ hℓ hT (fun j k d => wT_eq m c t j k d) b j

/-! ## The induction over the grid points -/

/-- After position `n` the scratch holds half `n / 50`'s state after its tiles `0 … n mod 50`: a half's first
    point steps the empty state, every other point steps the state the point before left. -/
theorem scratch_at_aux (n : ℕ) : ∀ hn : n < cfg0.N,
    Rep (scrM m c n hn) (scrL m c n hn) (scrT m c n hn)
      (kst (sc m c hlab) (ell m c hlab) (n / 50) (n % 50)) := by
  induction n using Nat.strong_induction_on with
  | _ n ih =>
    intro hn
    by_cases h0 : n % 50 = 0
    · have hk : kst (sc m c hlab) (ell m c hlab) (n / 50) (n % 50)
          = step (sc m c hlab) (ell m c hlab) n st0 := by
        rw [h0]
        show step _ _ (n / 50 * 50) st0 = step _ _ n st0
        congr 1
        omega
      have h := point_first m c ⟨n, hn⟩ h0
      rw [ptStep_eq m c hlab] at h
      rw [hk]
      exact h
    · have hpos : 0 < n := by
        rcases Nat.eq_zero_or_pos n with h | h
        · exact absurd (by rw [h]) h0
        · exact h
      have hprev := ih (n - 1) (by omega) (Nat.lt_of_le_of_lt (Nat.sub_le _ _) hn)
      have h := point_next m c ⟨n, hn⟩ h0 _ hprev
      rw [ptStep_eq m c hlab] at h
      have hk : kst (sc m c hlab) (ell m c hlab) (n / 50) (n % 50)
          = step (sc m c hlab) (ell m c hlab) n
              (kst (sc m c hlab) (ell m c hlab) ((n - 1) / 50) ((n - 1) % 50)) := by
        have e1 : (n - 1) / 50 = n / 50 := by omega
        have e2 : n % 50 = (n - 1) % 50 + 1 := by omega
        rw [e1, e2]
        show step _ _ (n / 50 * 50 + ((n - 1) % 50 + 1)) _ = step _ _ n _
        congr 1
        omega
      rw [hk]
      exact h

/-- After point `t` the scratch holds half `t / 50`'s state after its tiles `0 … t mod 50`. -/
theorem scratch_at (t : Fin cfg0.N) :
    Rep (scrM m c t.val t.isLt) (scrL m c t.val t.isLt) (scrT m c t.val t.isLt)
      (kst (sc m c hlab) (ell m c hlab) (t.val / 50) (t.val % 50)) :=
  scratch_at_aux m c hlab t.val t.isLt

/-- At a half's last point the output blocks hold the half's final state. -/
theorem out_at (t : Fin cfg0.N) (h1 : t.val % 50 = 49) (b : Fin 128) :
    outM m c t.val t.isLt (ix3 0 b 0) = (kst (sc m c hlab) (ell m c hlab) (t.val / 50) 49).m b
    ∧ outL m c t.val t.isLt (ix3 0 b 0) = (kst (sc m c hlab) (ell m c hlab) (t.val / 50) 49).l b
    ∧ outT m c t.val t.isLt (ix3 0 b 0) = (kst (sc m c hlab) (ell m c hlab) (t.val / 50) 49).t b := by
  obtain ⟨o1, o2, o3⟩ := point_out m c t h1 b
  obtain ⟨r1, r2, r3⟩ := scratch_at m c hlab t b
  rw [h1] at r1 r2 r3
  exact ⟨o1.trans r1, o2.trans r2, o3.trans r3⟩

end Cert.KernelIdeal.KInduct

end
-- ==== Proof.KFinal.lean ====
/-
  The streamed program's run with its result named: the three output arrays hold, in block `p`, half `p`'s final
  state (written back at the half's last point), and the host operations after the region join the halves and take
  the mean — the streamed loss of the scaled scores.
-/
import proofs.«420243_j57750130262074_2_alg».proof.Proof.KInduct
import Idealize.ShloMosaic.Lib.Pipeline.Value
import Idealize.ShloMosaic.PureOps.Ideal.Laws

noncomputable section

namespace Cert.KernelIdeal.KValue

open Cert.KernelIdeal Cert.KernelIdeal.Gen Cert.KernelIdeal.KBody Cert.KernelIdeal.KArrays Cert.KernelIdeal.KInduct Idealize.ShloMosaic Idealize.ShloMosaic.TcCoe Idealize.ShloMosaic.ValueIdx Idealize.SL.Sem Cert.Spec Cert.KSpec

section Arrays

variable (m : (ℓ : Loc nD τ sig) → Buf (Elt Ideal) ℓ) (c : Dev nD)
variable (hlab : ∀ b : Fin 128, (arg1 m c (ix1 b)).toNat < 100000)

/-- The three output arrays as whole-array functions: entry `(p, b, 0)` is half `p`'s final running maximum, running
    sum, labelled score of batch row `b`. -/
def arrM : Vec Ideal S2x128x1 .f32 := fun i => (kst (sc m c hlab) (ell m c hlab) (i 0).val 49).m (i 1)
def arrL : Vec Ideal S2x128x1 .f32 := fun i => (kst (sc m c hlab) (ell m c hlab) (i 0).val 49).l (i 1)
def arrT : Vec Ideal S2x128x1 .f32 := fun i => (kst (sc m c hlab) (ell m c hlab) (i 0).val 49).t (i 1)

/-- The block index of the output windows is the half, decided once over the grid. -/
theorem idx_facts : ∀ t : Fin cfg0.N,
    (win0_3.index t 0 = t.val / 50 ∧ win0_3.index t 1 = 0 ∧ win0_3.index t 2 = 0)
    ∧ (win0_4.index t 0 = t.val / 50 ∧ win0_4.index t 1 = 0 ∧ win0_4.index t 2 = 0)
    ∧ (win0_5.index t 0 = t.val / 50 ∧ win0_5.index t 1 = 0 ∧ win0_5.index t 2 = 0) :=
  (by decide +kernel : ∀ t : Fin grid0.N, _)

/-- A half's number is below two. -/
theorem half_lt (t : Fin cfg0.N) : t.val / 50 < 2 := by
  have hN : t.val < 100 := lt_of_lt_of_eq t.isLt (show cfg0.N = 100 from N_0)
  omega

/-- Row `b` of point `t`'s output block sits at `(t / 50, b, 0)` of the array, for each of the three outputs. -/
theorem emb3 (t : Fin cfg0.N) (b : Fin 128) :
    ((cfg0.win 3).blk t).view.emb (ix3 0 b 0) = (ix3 ⟨t.val / 50, half_lt t⟩ b 0 : S2x128x1.Idx) := by
  obtain ⟨⟨e0, e1, e2⟩, -, -⟩ := idx_facts t
  funext a; apply Fin.ext
  match a with
  | ⟨0, _⟩ => show win0_3.index t 0 * 1 + 1 * 0 = t.val / 50; omega
  | ⟨1, _⟩ => show win0_3.index t 1 * 128 + 1 * b.val = b.val; omega
  | ⟨2, _⟩ => show win0_3.index t 2 * 1 + 1 * 0 = 0; omega

/-- Every index of an output block is `(0, b, 0)`. -/
theorem blk_idx (y : S1x128x1.Idx) : y = ix3 0 (y 1) 0 := by
  funext a
  match a with
  | ⟨0, _⟩ => exact Fin.ext (by have h : (y 0).val < 1 := (y 0).isLt; show (y 0).val = 0; omega)
  | ⟨1, _⟩ => rfl
  | ⟨2, _⟩ => exact Fin.ext (by have h : (y 2).val < 1 := (y 2).isLt; show (y 2).val = 0; omega)

theorem emb4 (t : Fin cfg0.N) (b : Fin 128) :
    ((cfg0.win 4).blk t).view.emb (ix3 0 b 0) = (ix3 ⟨t.val / 50, half_lt t⟩ b 0 : S2x128x1.Idx) := by
  obtain ⟨-, ⟨e0, e1, e2⟩, -⟩ := idx_facts t
  funext a; apply Fin.ext
  match a with
  | ⟨0, _⟩ => show win0_4.index t 0 * 1 + 1 * 0 = t.val / 50; omega
  | ⟨1, _⟩ => show win0_4.index t 1 * 128 + 1 * b.val = b.val; omega
  | ⟨2, _⟩ => show win0_4.index t 2 * 1 + 1 * 0 = 0; omega

theorem emb5 (t : Fin cfg0.N) (b : Fin 128) :
    ((cfg0.win 5).blk t).view.emb (ix3 0 b 0) = (ix3 ⟨t.val / 50, half_lt t⟩ b 0 : S2x128x1.Idx) := by
  obtain ⟨-, -, ⟨e0, e1, e2⟩⟩ := idx_facts t
  funext a; apply Fin.ext
  match a with
  | ⟨0, _⟩ => show win0_5.index t 0 * 1 + 1 * 0 = t.val / 50; omega
  | ⟨1, _⟩ => show win0_5.index t 1 * 128 + 1 * b.val = b.val; omega
  | ⟨2, _⟩ => show win0_5.index t 2 * 1 + 1 * 0 = 0; omega

theorem flushed_eq3 (t : Fin cfg0.N) (hf : (cfg0.win 3).flush t = true) :
    (dats m 0 c).flushed 3 t = ((cfg0.win 3).blk t).view.read (Elt Ideal) (arrM m c hlab) := by
  have h49 : t.val % 50 = 49 := (flush0_3 t).mp hf
  show (cfg0.win 3).cut (grid0.coords t) ((dats m 0 c).after 3 t) = _
  rw [after0_3]
  have key : ∀ y : S1x128x1.Idx,
      outM m c t.val t.isLt y = arrM m c hlab (((cfg0.win 3).blk t).view.emb y) := fun y =>
    calc outM m c t.val t.isLt y = outM m c t.val t.isLt (ix3 0 (y 1) 0) := congrArg _ (blk_idx y)
      _ = arrM m c hlab (ix3 ⟨t.val / 50, half_lt t⟩ (y 1) 0) := (out_at m c hlab t h49 (y 1)).1
      _ = arrM m c hlab (((cfg0.win 3).blk t).view.emb (ix3 0 (y 1) 0)) := congrArg _ (emb3 t (y 1)).symm
      _ = arrM m c hlab (((cfg0.win 3).blk t).view.emb y) :=
        congrArg (fun z => arrM m c hlab (((cfg0.win 3).blk t).view.emb z)) (blk_idx y).symm
  funext y
  exact key y

/-- An index of the array is in point `t`'s block iff each coordinate is in the block's range on its axis. -/
theorem mem_blk3 (t : Fin cfg0.N) (i : S2x128x1.Idx) :
    i ∈ ((cfg0.win 3).blk t).view.set ↔ ∀ a : Fin 3, win0_3.index t a * S1x128x1.size a ≤ (i a).val
      ∧ (i a).val < win0_3.index t a * S1x128x1.size a + S1x128x1.size a := by
  show i ∈ ((View.whole main_v8_0).slice (win0_3.rect t)).set ↔ _
  rw [View.set_slice_whole, Rect.mem_set_unit]
  exact Iff.rfl

/-- Entry `(p, b, 0)` lies in block `p`, written back at the half's last point `50 p + 49`. -/
theorem cover3 (i : S2x128x1.Idx) :
    ∃ t : Fin cfg0.N, (cfg0.win 3).flush t = true ∧ i ∈ ((cfg0.win 3).blk t).view.set := by
  have h0 : (i 0).val < 2 := (i 0).isLt
  have h1 : (i 1).val < 128 := (i 1).isLt
  have h2 : (i 2).val < 1 := (i 2).isLt
  have hN : cfg0.N = 100 := N_0
  have ht : 50 * (i 0).val + 49 < cfg0.N := by rw [hN]; omega
  have hdiv : (50 * (i 0).val + 49) / 50 = (i 0).val := by omega
  obtain ⟨⟨a0, a1, a2⟩, ⟨b0, b1, b2⟩, ⟨c0, c1, c2⟩⟩ := idx_facts ⟨50 * (i 0).val + 49, ht⟩
  refine ⟨⟨50 * (i 0).val + 49, ht⟩, (flush0_3 _).mpr (by show (50 * (i 0).val + 49) % 50 = 49; omega), ?_⟩
  rw [mem_blk3]
  intro a
  match a with
  | ⟨0, _⟩ =>
    show win0_3.index ⟨50 * (i 0).val + 49, ht⟩ 0 * 1 ≤ (i 0).val ∧ (i 0).val < win0_3.index ⟨50 * (i 0).val + 49, ht⟩ 0 * 1 + 1
    have e : win0_3.index ⟨50 * (i 0).val + 49, ht⟩ 0 = (i 0).val := by first | exact a0.trans hdiv | exact b0.trans hdiv | exact c0.trans hdiv
    omega
  | ⟨1, _⟩ =>
    show win0_3.index ⟨50 * (i 0).val + 49, ht⟩ 1 * 128 ≤ (i 1).val ∧ (i 1).val < win0_3.index ⟨50 * (i 0).val + 49, ht⟩ 1 * 128 + 128
    omega
  | ⟨2, _⟩ =>
    show win0_3.index ⟨50 * (i 0).val + 49, ht⟩ 2 * 1 ≤ (i 2).val ∧ (i 2).val < win0_3.index ⟨50 * (i 0).val + 49, ht⟩ 2 * 1 + 1
    omega

theorem flushed_eq4 (t : Fin cfg0.N) (hf : (cfg0.win 4).flush t = true) :
    (dats m 0 c).flushed 4 t = ((cfg0.win 4).blk t).view.read (Elt Ideal) (arrL m c hlab) := by
  have h49 : t.val % 50 = 49 := (flush0_4 t).mp hf
  show (cfg0.win 4).cut (grid0.coords t) ((dats m 0 c).after 4 t) = _
  rw [after0_4]
  have key : ∀ y : S1x128x1.Idx,
      outL m c t.val t.isLt y = arrL m c hlab (((cfg0.win 4).blk t).view.emb y) := fun y =>
    calc outL m c t.val t.isLt y = outL m c t.val t.isLt (ix3 0 (y 1) 0) := congrArg _ (blk_idx y)
      _ = arrL m c hlab (ix3 ⟨t.val / 50, half_lt t⟩ (y 1) 0) := (out_at m c hlab t h49 (y 1)).2.1
      _ = arrL m c hlab (((cfg0.win 4).blk t).view.emb (ix3 0 (y 1) 0)) := congrArg _ (emb4 t (y 1)).symm
      _ = arrL m c hlab (((cfg0.win 4).blk t).view.emb y) :=
        congrArg (fun z => arrL m c hlab (((cfg0.win 4).blk t).view.emb z)) (blk_idx y).symm
  funext y
  exact key y

/-- An index of the array is in point `t`'s block iff each coordinate is in the block's range on its axis. -/
theorem mem_blk4 (t : Fin cfg0.N) (i : S2x128x1.Idx) :
    i ∈ ((cfg0.win 4).blk t).view.set ↔ ∀ a : Fin 3, win0_4.index t a * S1x128x1.size a ≤ (i a).val
      ∧ (i a).val < win0_4.index t a * S1x128x1.size a + S1x128x1.size a := by
  show i ∈ ((View.whole main_v8_1).slice (win0_4.rect t)).set ↔ _
  rw [View.set_slice_whole, Rect.mem_set_unit]
  exact Iff.rfl

/-- Entry `(p, b, 0)` lies in block `p`, written back at the half's last point `50 p + 49`. -/
theorem cover4 (i : S2x128x1.Idx) :
    ∃ t : Fin cfg0.N, (cfg0.win 4).flush t = true ∧ i ∈ ((cfg0.win 4).blk t).view.set := by
  have h0 : (i 0).val < 2 := (i 0).isLt
  have h1 : (i 1).val < 128 := (i 1).isLt
  have h2 : (i 2).val < 1 := (i 2).isLt
  have hN : cfg0.N = 100 := N_0
  have ht : 50 * (i 0).val + 49 < cfg0.N := by rw [hN]; omega
  have hdiv : (50 * (i 0).val + 49) / 50 = (i 0).val := by omega
  obtain ⟨⟨a0, a1, a2⟩, ⟨b0, b1, b2⟩, ⟨c0, c1, c2⟩⟩ := idx_facts ⟨50 * (i 0).val + 49, ht⟩
  refine ⟨⟨50 * (i 0).val + 49, ht⟩, (flush0_4 _).mpr (by show (50 * (i 0).val + 49) % 50 = 49; omega), ?_⟩
  rw [mem_blk4]
  intro a
  match a with
  | ⟨0, _⟩ =>
    show win0_4.index ⟨50 * (i 0).val + 49, ht⟩ 0 * 1 ≤ (i 0).val ∧ (i 0).val < win0_4.index ⟨50 * (i 0).val + 49, ht⟩ 0 * 1 + 1
    have e : win0_4.index ⟨50 * (i 0).val + 49, ht⟩ 0 = (i 0).val := by first | exact a0.trans hdiv | exact b0.trans hdiv | exact c0.trans hdiv
    omega
  | ⟨1, _⟩ =>
    show win0_4.index ⟨50 * (i 0).val + 49, ht⟩ 1 * 128 ≤ (i 1).val ∧ (i 1).val < win0_4.index ⟨50 * (i 0).val + 49, ht⟩ 1 * 128 + 128
    omega
  | ⟨2, _⟩ =>
    show win0_4.index ⟨50 * (i 0).val + 49, ht⟩ 2 * 1 ≤ (i 2).val ∧ (i 2).val < win0_4.index ⟨50 * (i 0).val + 49, ht⟩ 2 * 1 + 1
    omega

theorem flushed_eq5 (t : Fin cfg0.N) (hf : (cfg0.win 5).flush t = true) :
    (dats m 0 c).flushed 5 t = ((cfg0.win 5).blk t).view.read (Elt Ideal) (arrT m c hlab) := by
  have h49 : t.val % 50 = 49 := (flush0_5 t).mp hf
  show (cfg0.win 5).cut (grid0.coords t) ((dats m 0 c).after 5 t) = _
  rw [after0_5]
  have key : ∀ y : S1x128x1.Idx,
      outT m c t.val t.isLt y = arrT m c hlab (((cfg0.win 5).blk t).view.emb y) := fun y =>
    calc outT m c t.val t.isLt y = outT m c t.val t.isLt (ix3 0 (y 1) 0) := congrArg _ (blk_idx y)
      _ = arrT m c hlab (ix3 ⟨t.val / 50, half_lt t⟩ (y 1) 0) := (out_at m c hlab t h49 (y 1)).2.2
      _ = arrT m c hlab (((cfg0.win 5).blk t).view.emb (ix3 0 (y 1) 0)) := congrArg _ (emb5 t (y 1)).symm
      _ = arrT m c hlab (((cfg0.win 5).blk t).view.emb y) :=
        congrArg (fun z => arrT m c hlab (((cfg0.win 5).blk t).view.emb z)) (blk_idx y).symm
  funext y
  exact key y

/-- An index of the array is in point `t`'s block iff each coordinate is in the block's range on its axis. -/
theorem mem_blk5 (t : Fin cfg0.N) (i : S2x128x1.Idx) :
    i ∈ ((cfg0.win 5).blk t).view.set ↔ ∀ a : Fin 3, win0_5.index t a * S1x128x1.size a ≤ (i a).val
      ∧ (i a).val < win0_5.index t a * S1x128x1.size a + S1x128x1.size a := by
  show i ∈ ((View.whole main_v8_2).slice (win0_5.rect t)).set ↔ _
  rw [View.set_slice_whole, Rect.mem_set_unit]
  exact Iff.rfl

/-- Entry `(p, b, 0)` lies in block `p`, written back at the half's last point `50 p + 49`. -/
theorem cover5 (i : S2x128x1.Idx) :
    ∃ t : Fin cfg0.N, (cfg0.win 5).flush t = true ∧ i ∈ ((cfg0.win 5).blk t).view.set := by
  have h0 : (i 0).val < 2 := (i 0).isLt
  have h1 : (i 1).val < 128 := (i 1).isLt
  have h2 : (i 2).val < 1 := (i 2).isLt
  have hN : cfg0.N = 100 := N_0
  have ht : 50 * (i 0).val + 49 < cfg0.N := by rw [hN]; omega
  have hdiv : (50 * (i 0).val + 49) / 50 = (i 0).val := by omega
  obtain ⟨⟨a0, a1, a2⟩, ⟨b0, b1, b2⟩, ⟨c0, c1, c2⟩⟩ := idx_facts ⟨50 * (i 0).val + 49, ht⟩
  refine ⟨⟨50 * (i 0).val + 49, ht⟩, (flush0_5 _).mpr (by show (50 * (i 0).val + 49) % 50 = 49; omega), ?_⟩
  rw [mem_blk5]
  intro a
  match a with
  | ⟨0, _⟩ =>
    show win0_5.index ⟨50 * (i 0).val + 49, ht⟩ 0 * 1 ≤ (i 0).val ∧ (i 0).val < win0_5.index ⟨50 * (i 0).val + 49, ht⟩ 0 * 1 + 1
    have e : win0_5.index ⟨50 * (i 0).val + 49, ht⟩ 0 = (i 0).val := by first | exact a0.trans hdiv | exact b0.trans hdiv | exact c0.trans hdiv
    omega
  | ⟨1, _⟩ =>
    show win0_5.index ⟨50 * (i 0).val + 49, ht⟩ 1 * 128 ≤ (i 1).val ∧ (i 1).val < win0_5.index ⟨50 * (i 0).val + 49, ht⟩ 1 * 128 + 128
    omega
  | ⟨2, _⟩ =>
    show win0_5.index ⟨50 * (i 0).val + 49, ht⟩ 2 * 1 ≤ (i 2).val ∧ (i 2).val < win0_5.index ⟨50 * (i 0).val + 49, ht⟩ 2 * 1 + 1
    omega

/-- After the region the first output array holds the halves' final maxima, -/
theorem final3 : (dats m 0 c).arrAt 3 cfg0.N = arrM m c hlab :=
  (dats m 0 c).arrAt_eq_of_cover 3 (arrM m c hlab) (flushed_eq3 m c hlab) cover3

/-- the second the halves' final sums, -/
theorem final4 : (dats m 0 c).arrAt 4 cfg0.N = arrL m c hlab :=
  (dats m 0 c).arrAt_eq_of_cover 4 (arrL m c hlab) (flushed_eq4 m c hlab) cover4

/-- the third the halves' labelled scores. -/
theorem final5 : (dats m 0 c).arrAt 5 cfg0.N = arrT m c hlab :=
  (dats m 0 c).arrAt_eq_of_cover 5 (arrT m c hlab) (flushed_eq5 m c hlab) cover5

end Arrays

/-! ## The host operations after the region -/

/-- Half `0` of an output array as a column: the slice `[0:1, 0:128, 0:1]` reshaped to `[128, 1]`. -/
def half0 (a : Vec Ideal S2x128x1 .f32) : Vec Ideal S128x1 .f32 :=
  shapeCast S128x1 (extractStridedSlice S1x128x1 ![0, 0, 0] a slices_S2x128x1_S1x128x1_0_0_0) shapeCasts_S1x128x1_S128x1

/-- Half `1` likewise: the slice `[1:2, 0:128, 0:1]`. -/
def half1 (a : Vec Ideal S2x128x1 .f32) : Vec Ideal S128x1 .f32 :=
  shapeCast S128x1 (extractStridedSlice S1x128x1 ![1, 0, 0] a slices_S2x128x1_S1x128x1_1_0_0) shapeCasts_S1x128x1_S128x1

/-- The join of the two halves and the mean over the batch, as the host computes them from the three output arrays:
    `M = max m₀ m₁`, `L = exp (m₀ − M)·l₀ + exp (m₁ − M)·l₁`, the rows `(M + log L) − (t₀ + t₁)` summed from `0` and
    divided by `128`. -/
def tailFn (aM aL aT : Vec Ideal S2x128x1 .f32) : Vec Ideal S_ .f32 :=
  Host.divf (F := Ideal)
    (Host.reduceAdd (F := Ideal)
      (subf
        (addf (maximumf (half0 aM) (half1 aM))
          (Host.log (F := Ideal) (addf
            (mulf (Host.exp (F := Ideal) (subf (half0 aM) (maximumf (half0 aM) (half1 aM)))) (half0 aL))
            (mulf (Host.exp (F := Ideal) (subf (half1 aM) (maximumf (half0 aM) (half1 aM)))) (half1 aL)))))
        (addf (half0 aT) (half1 aT)))
      (constant (F := Ideal) S_ .f32 0x00000000#32) reducesTo_S128x1_S_d0_1 h_S_)
    (constant (F := Ideal) S_ .f32 0x43000000#32)

/-- The host operations after the region over ANY contents of the buffers: the result is that function of the three
    output arrays. -/
theorem tail_read (W : Valuation τ sig (Elt Ideal)) :
    StableHlo.after (hostOps1 (F := Ideal)) W (Proc.devRef .tc main_v34)
      = tailFn (W (Proc.devRef .tc main_v8_0)) (W (Proc.devRef .tc main_v8_1)) (W (Proc.devRef .tc main_v8_2)) := by
  after_results
  rfl

/-- Row `b` of half `0` is entry `(0, b, 0)`. -/
theorem half0_apply (a : Vec Ideal S2x128x1 .f32) (b : Fin 128) : half0 a (ix2 b 0) = a (ix3 0 b 0) := by
  unfold half0
  refine (shapeCast_apply _ shapeCasts_S1x128x1_S128x1 (ix2 b 0) (ix3 0 b 0) ?_).trans ?_
  · rewrite [Shape.rowMajor_val_three, Shape.rowMajor_val_two]
    show ((0 * 128 + b.val) * 1 + 0 = b.val * 1 + 0)
    omega
  · exact extractStridedSlice_apply _ a _ (ix3 0 b 0) (ix3 0 b 0) (fun d => by
      match d with
      | ⟨0, _⟩ => rfl
      | ⟨1, _⟩ => exact (Nat.zero_add _).symm
      | ⟨2, _⟩ => rfl)

/-- Row `b` of half `1` is entry `(1, b, 0)`. -/
theorem half1_apply (a : Vec Ideal S2x128x1 .f32) (b : Fin 128) : half1 a (ix2 b 0) = a (ix3 1 b 0) := by
  unfold half1
  refine (shapeCast_apply _ shapeCasts_S1x128x1_S128x1 (ix2 b 0) (ix3 0 b 0) ?_).trans ?_
  · rewrite [Shape.rowMajor_val_three, Shape.rowMajor_val_two]
    show ((0 * 128 + b.val) * 1 + 0 = b.val * 1 + 0)
    omega
  · exact extractStridedSlice_apply _ a _ (ix3 0 b 0) (ix3 1 b 0) (fun d => by
      match d with
      | ⟨0, _⟩ => rfl
      | ⟨1, _⟩ => exact (Nat.zero_add _).symm
      | ⟨2, _⟩ => rfl)

section Tail

variable (m : (ℓ : Loc nD τ sig) → Buf (Elt Ideal) ℓ) (c : Dev nD)
variable (hlab : ∀ b : Fin 128, (arg1 m c (ix1 b)).toNat < 100000)

/-- On the halves' final states the host's join and mean is the streamed loss. -/
theorem tail_value : tailFn (arrM m c hlab) (arrL m c hlab) (arrT m c hlab)
    = (fun _ => kerLoss (sc m c hlab) (ell m c hlab)) := by
  funext j
  unfold tailFn kerLoss
  show Ideal.div (Host.reduceAdd (F := Ideal) _ _ reducesTo_S128x1_S_d0_1 h_S_ j) (Ideal.ofBits .f32 0x43000000#32) = _
  refine congrArg (fun x => Ideal.div x (Ideal.ofBits .f32 0x43000000#32)) ?_
  simp only [Host.reduceAdd, Ideal.hostReduceAdd_def]
  rw [Ideal.hostReduceAdd_total reducesTo_S128x1_S_d0_1 (fun d => d.elim0)]
  show Ideal.ofBits .f32 0x00000000#32 + _ = _
  rw [Ideal.ofBits_zero_f32, zero_add, sum_idx2]
  refine Finset.sum_congr rfl fun b _ => ?_
  rw [Fin.sum_univ_one]
  show (max (half0 (arrM m c hlab) (ix2 b 0)) (half1 (arrM m c hlab) (ix2 b 0))
      + Ideal.log (Ideal.exp (half0 (arrM m c hlab) (ix2 b 0) - max (half0 (arrM m c hlab) (ix2 b 0)) (half1 (arrM m c hlab) (ix2 b 0))) * half0 (arrL m c hlab) (ix2 b 0)
          + Ideal.exp (half1 (arrM m c hlab) (ix2 b 0) - max (half0 (arrM m c hlab) (ix2 b 0)) (half1 (arrM m c hlab) (ix2 b 0))) * half1 (arrL m c hlab) (ix2 b 0)))
      - (half0 (arrT m c hlab) (ix2 b 0) + half1 (arrT m c hlab) (ix2 b 0)) = _
  rw [half0_apply, half1_apply, half0_apply, half1_apply, half0_apply, half1_apply]
  rfl

/-- The host operations after the region, read at the result: the two halves joined and the mean taken. -/
theorem tail_eq : Pipeline.afterTail₀ cfgs (dats m) 0 (V0 m) [hostOps1] c main_v34
    = (fun _ => kerLoss (sc m c hlab) (ell m c hlab)) := by
  have e3 : Pipeline.withArrays (cfgs 0).spec c (V0 m c) (fun w => (dats m 0 c).arrAt w (cfgs 0).N) (Proc.devRef .tc main_v8_0)
      = arrM m c hlab := (Pipeline.withArrays_arr spec0 launch0.win.arr_inj c _ _ 3).trans (final3 m c hlab)
  have e4 : Pipeline.withArrays (cfgs 0).spec c (V0 m c) (fun w => (dats m 0 c).arrAt w (cfgs 0).N) (Proc.devRef .tc main_v8_1)
      = arrL m c hlab := (Pipeline.withArrays_arr spec0 launch0.win.arr_inj c _ _ 4).trans (final4 m c hlab)
  have e5 : Pipeline.withArrays (cfgs 0).spec c (V0 m c) (fun w => (dats m 0 c).arrAt w (cfgs 0).N) (Proc.devRef .tc main_v8_2)
      = arrT m c hlab := (Pipeline.withArrays_arr spec0 launch0.win.arr_inj c _ _ 5).trans (final5 m c hlab)
  unfold Pipeline.afterTail₀
  simp only [List.flatten_cons, List.flatten_nil, List.append_nil]
  generalize Pipeline.withArrays (cfgs 0).spec c (V0 m c) (fun w => (dats m 0 c).arrAt w (cfgs 0).N) = W at e3 e4 e5 ⊢
  rw [tail_read W, e3, e4, e5]
  exact tail_value m c hlab

end Tail

/-- Every weakly fair execution terminates with the result at the streamed loss of the scaled scores of the argument
    arrays, and the arguments unchanged — for labels in range on every device. -/
theorem run (m : (ℓ : Loc nD τ sig) → Buf (Elt Ideal) ℓ) (ρ : Dev nD → PrngReg)
    (hlab : ∀ (c : Dev nD) (b : Fin 128), (arg1 m c (ix1 b)).toNat < 100000) :
    θ_run (defs (F := Ideal)) (onTc (τ := τ) (main (F := Ideal))) ⟨m, fun _ => 0, ρ⟩ (fun r => ∀ c : Dev nD,
      r.2.mem ((c.tc : Thread nD τ).loc main_v34) = (fun _ => kerLoss (sc m c (hlab c)) (ell m c (hlab c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v34 (Pipeline.mem_restRefs_of main_v34 (by decide) (by decide))).trans (tail_eq m c (hlab c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefStages.lean ====
/-
  The stages of the direct program that depend on more than one element of an operand, read at an index: the maximum
  over a class's three sub-centers, the point gathers at (row, label), the point scatter that replaces the labelled
  entry of each row, and the row maximum of the scaled scores.
-/
import proofs.«420243_j57750130262074_2_alg».proof.Proof.RefRead
import proofs.«420243_j57750130262074_2_alg».proof.Proof.Consts
import Idealize.ShloMosaic.Lib.StableHlo.Predicate

noncomputable section

namespace Cert.ReferenceIdeal.RefStages

open Cert.ReferenceIdeal Cert.ReferenceIdeal.ReadP Idealize.ShloMosaic Idealize.ShloMosaic.ValueIdx
open Cert.ReferenceIdeal.Gen

/-! ## Maximum folds -/

/-- A fold of the maximum from the bottom over a finite set is the supremum over it. -/
theorem fold_max_bot_eq_sup {ι : Type} (s : Finset ι) (f : ι → EReal) :
    s.fold max (⊥ : EReal) f = s.sup f := rfl

/-- A fold of the maximum from the bottom over three coordinates is the maximum of the three values. -/
theorem fold_max_bot_fin3 (f : Fin 3 → EReal) :
    (Finset.univ : Finset (Fin 3)).fold max (⊥ : EReal) f = max (max (f 0) (f 1)) (f 2) := by
  rw [fold_max_bot_eq_sup, show (Finset.univ : Finset (Fin 3)) = {0, 1, 2} from rfl]
  simp only [Finset.sup_insert, Finset.sup_singleton]
  exact (max_assoc _ _ _).symm

/-- The three sub-center axis is dropped from [128, 100000, 3]. -/
theorem reduces_v10 : S128x100000x3.Reduces [2] S128x100000 := by decide

/-- The class axis is dropped from [128, 100000]. -/
theorem reduces_call4 : S128x100000.Reduces [1] S128 := by decide

/-- The index (b, c) with sub-center k put back is (b, c, k). -/
theorem lift_v10 (b : Fin 128) (c : Fin 100000) (k : Fin (S128x100000x3.size 2)) :
    reduces_v10.lift (ix2 b c) k = ix3 b c (⟨k.val, k.isLt⟩ : Fin 3) := by
  funext a; apply Fin.ext
  match a with
  | ⟨0, _⟩ => rfl
  | ⟨1, _⟩ => rfl
  | ⟨2, _⟩ => rfl

/-- The row index b with class c put back is (b, c). -/
theorem lift_call4 (b : Fin 128) (k : Fin (S128x100000.size 1)) :
    reduces_call4.lift (ix1 b) k = ix2 b (⟨k.val, k.isLt⟩ : Fin 100000) := by
  funext a; apply Fin.ext
  match a with
  | ⟨0, _⟩ => rfl
  | ⟨1, _⟩ => rfl

/-! ## The (row, label) index pairs -/

/-- A word that is non-negative as a signed integer is kept by the negative-index wrap `select (a < 0) (a + k) a`. -/
theorem wrap_nonneg (a k z : BitVec 32) (hz : z = 0#32) (ha : a.toNat < 2 ^ 31) :
    Scalar.select (IntOp.cmpi .slt a z) (IntOp.addi a k) a = a := by
  subst hz
  unfold Scalar.select
  rw [if_neg]
  intro h
  have h0 := (StableHlo.Predicate.slt_iff_toNat ha (by decide)).1 h
  exact Nat.not_lt_zero _ h0

/-- Two [128, 1] columns joined along axis 1, read in column 0: the first column. -/
theorem concat_cols_zero {α : Type} (p q : S128x1.Idx → α) (b : Fin 128) :
    concatenate S128x2 1 [⟨S128x1, p⟩, ⟨S128x1, q⟩] concatenates_S128x1_S128x1_S128x2_d1 (ix2 b (0 : Fin 2))
      = p (ix2 b (0 : Fin 1)) :=
  concatenate_pair_apply_left (1 : Fin 2) p q concatenates_S128x1_S128x1_S128x2_d1 (ix2 b (0 : Fin 2)) rfl
    (ix2 b (0 : Fin 1)) (fun a => by match a with | ⟨0, _⟩ => rfl | ⟨1, _⟩ => rfl)

/-- Two [128, 1] columns joined along axis 1, read in column 1: the second column. -/
theorem concat_cols_one {α : Type} (p q : S128x1.Idx → α) (b : Fin 128) :
    concatenate S128x2 1 [⟨S128x1, p⟩, ⟨S128x1, q⟩] concatenates_S128x1_S128x1_S128x2_d1 (ix2 b (1 : Fin 2))
      = q (ix2 b (0 : Fin 1)) :=
  concatenate_pair_apply_right (1 : Fin 2) p q concatenates_S128x1_S128x1_S128x2_d1 (ix2 b (1 : Fin 2)) rfl rfl
    (ix2 b (0 : Fin 1)) (fun a ha => by
      match a with
      | ⟨0, _⟩ => rfl
      | ⟨1, _⟩ => exact absurd rfl ha) rfl

/-- A row below 128 is non-negative as a signed word. -/
theorem row_word_small (b : Fin 128) : (BitVec.ofNat 32 b.val).toNat < 2 ^ 31 := by
  rw [BitVec.toNat_ofNat]; have := b.isLt; omega

/-- The first gather's index pairs: the row word in column 0. -/
theorem val_main_v24_zero (x1 : (⟨S128, .i32⟩ : BufTy).Contents (Elt Ideal)) (b : Fin 128) :
    val_main_v24 (F := Ideal) x1 (ix2 b (0 : Fin 2)) = BitVec.ofNat 32 b.val := by
  unfold val_main_v24
  rw [concat_cols_zero, val_main_v22_apply,
    show idx_main_v22 (ix2 b (0 : Fin 1)) = ix1 b from funext fun a => by match a with | ⟨0, _⟩ => rfl,
    val_main_v16_apply, val_main_v13_apply, val_main_v11_apply]
  exact wrap_nonneg _ _ _ rfl (row_word_small b)

/-- The first gather's index pairs: the label in column 1, when it is non-negative as a signed word. -/
theorem val_main_v24_one (x1 : (⟨S128, .i32⟩ : BufTy).Contents (Elt Ideal)) (b : Fin 128) (h : (x1 (ix1 b)).toNat < 2 ^ 31) :
    val_main_v24 (F := Ideal) x1 (ix2 b (1 : Fin 2)) = x1 (ix1 b) := by
  unfold val_main_v24
  rw [concat_cols_one, val_main_v23_apply,
    show idx_main_v23 (ix2 b (0 : Fin 1)) = ix1 b from funext fun a => by match a with | ⟨0, _⟩ => rfl,
    val_main_v21_apply, val_main_v18_apply, val_main_v20_apply]
  exact wrap_nonneg _ _ _ rfl h

/-- The scatter's index pairs: the row word in column 0. -/
theorem val_main_v54_zero (x1 : (⟨S128, .i32⟩ : BufTy).Contents (Elt Ideal)) (b : Fin 128) :
    val_main_v54 (F := Ideal) x1 (ix2 b (0 : Fin 2)) = BitVec.ofNat 32 b.val := by
  unfold val_main_v54
  rw [concat_cols_zero, val_main_v52_apply,
    show idx_main_v52 (ix2 b (0 : Fin 1)) = ix1 b from funext fun a => by match a with | ⟨0, _⟩ => rfl,
    val_main_v46_apply, val_main_v43_apply, val_main_v11_apply]
  exact wrap_nonneg _ _ _ rfl (row_word_small b)

/-- The scatter's index pairs: the label in column 1, when it is non-negative as a signed word. -/
theorem val_main_v54_one (x1 : (⟨S128, .i32⟩ : BufTy).Contents (Elt Ideal)) (b : Fin 128) (h : (x1 (ix1 b)).toNat < 2 ^ 31) :
    val_main_v54 (F := Ideal) x1 (ix2 b (1 : Fin 2)) = x1 (ix1 b) := by
  unfold val_main_v54
  rw [concat_cols_one, val_main_v53_apply,
    show idx_main_v53 (ix2 b (0 : Fin 1)) = ix1 b from funext fun a => by match a with | ⟨0, _⟩ => rfl,
    val_main_v51_apply, val_main_v48_apply, val_main_v50_apply]
  exact wrap_nonneg _ _ _ rfl h

/-- The second gather's index pairs: the row word in column 0. -/
theorem val_main_v71_zero (x1 : (⟨S128, .i32⟩ : BufTy).Contents (Elt Ideal)) (b : Fin 128) :
    val_main_v71 (F := Ideal) x1 (ix2 b (0 : Fin 2)) = BitVec.ofNat 32 b.val := by
  unfold val_main_v71
  rw [concat_cols_zero, val_main_v69_apply,
    show idx_main_v69 (ix2 b (0 : Fin 1)) = ix1 b from funext fun a => by match a with | ⟨0, _⟩ => rfl,
    val_main_v63_apply, val_main_v60_apply, val_main_v11_apply]
  exact wrap_nonneg _ _ _ rfl (row_word_small b)

/-- The second gather's index pairs: the label in column 1, when it is non-negative as a signed word. -/
theorem val_main_v71_one (x1 : (⟨S128, .i32⟩ : BufTy).Contents (Elt Ideal)) (b : Fin 128) (h : (x1 (ix1 b)).toNat < 2 ^ 31) :
    val_main_v71 (F := Ideal) x1 (ix2 b (1 : Fin 2)) = x1 (ix1 b) := by
  unfold val_main_v71
  rw [concat_cols_one, val_main_v70_apply,
    show idx_main_v70 (ix2 b (0 : Fin 1)) = ix1 b from funext fun a => by match a with | ⟨0, _⟩ => rfl,
    val_main_v68_apply, val_main_v65_apply, val_main_v67_apply]
  exact wrap_nonneg _ _ _ rfl h

/-! ## Point gathers -/

/-- A point gather from an [R, C] operand by an [n, 2] table of start indices (both operand axes collapsed and
    start-indexed, no offset or batching axes, the index vector on axis 1): result position `p` reads the operand at
    the pair in row `p` of the table, each component read signed and clamped into its axis. -/
theorem gather_point_apply {α : Type} {R C n w : Nat} (d : GatherDims ⟨2, ![R, C]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![R, C]⟩ : Shape).Idx → α) (idx : IVec ⟨2, ![n, 2]⟩ w) (p : Fin n) (hR : 0 < R) (hC : 0 < C) :
    Host.gather d x idx (ix1 p)
      = x (ix2 (⟨min (idx (ix2 p (0 : Fin 2))).toInt.toNat (R - 1), by omega⟩ : Fin R)
            (⟨min (idx (ix2 p (1 : Fin 2))).toInt.toNat (C - 1), by omega⟩ : Fin C)) := by
  unfold Host.gather
  congr 1
  funext a
  apply Fin.ext
  have hb : ∀ a : Fin 2, a ∉ d.operandBatchingDims := fun a => by rw [hob]; exact List.not_mem_nil
  have hk : ∀ a : Fin 2, a ∉ d.sKept := fun a => by
    rw [GatherDims.mem_sKept, hcoll]; intro h; apply h.1; fin_cases a <;> simp
  have hm : ∀ a : Fin 2, a ∈ d.startIndexMap := fun a => by rw [hsim]; fin_cases a <;> simp
  have hsl : ∀ a : Fin 2, d.sliceSizes a = 1 := fun a => d.slice_collapsed a (by rw [hcoll]; fin_cases a <;> simp)
  have hlen : d.startIndexMap.length = 2 := by rw [hsim]; rfl
  -- the start-indices index of component c for result position p is (p, c)
  have hsi : ∀ c : Fin d.startIndexMap.length, d.siIdx (ix1 p) c = ix2 p (⟨c.val, by have := c.isLt; omega⟩ : Fin 2) := by
    intro c
    funext b
    match b with
    | ⟨0, _⟩ =>
      unfold GatherDims.siIdx
      rw [dif_neg (by rw [hivd]; simp)]
      unfold GatherDims.siCoord
      apply Fin.ext
      simp only [Fin.val_cast]
      have e : ∀ X : Fin 1, ((ix1 p : (⟨1, ![n]⟩ : Shape).Idx) X).val = p.val := fun X => by
        have hX : X = 0 := Subsingleton.elim _ _
        subst hX; rfl
      exact e _
    | ⟨1, _⟩ =>
      unfold GatherDims.siIdx
      rw [dif_pos (by rw [hivd])]
      rfl
  simp only [GatherDims.operandIdx, GatherDims.batchCoord_eq_zero _ _ _ (hb a), GatherDims.offCoord_eq_zero _ _ _ (hk a),
    Nat.add_zero, GatherDims.start, dif_pos (hm a), hsi, hsl a]
  match a with
  | ⟨0, _⟩ =>
    show min (idx (ix2 p _)).toInt.toNat (R - 1) = min (idx (ix2 p 0)).toInt.toNat (R - 1)
    congr 4
    refine congrArg (ix2 p) (Fin.ext ?_)
    show List.idxOf (0 : Fin 2) d.startIndexMap = 0
    rw [hsim]; simp
  | ⟨1, _⟩ =>
    show min (idx (ix2 p _)).toInt.toNat (C - 1) = min (idx (ix2 p 1)).toInt.toNat (C - 1)
    congr 4
    refine congrArg (ix2 p) (Fin.ext ?_)
    show List.idxOf (1 : Fin 2) d.startIndexMap = 1
    rw [hsim]; simp

/-! ## Replacing folds and point scatters -/

section Replace
variable {ι κ α : Type}

/-- A left fold of a step that, at the entry `i'`, writes an element's value when the element lands on `i'` and keeps
    the entry otherwise, ends at `i'` with the value `c` when every element that lands on `i'` writes `c` and either
    the fold starts with `c` there or some element of the list lands on `i'`. -/
theorem foldl_step_value (step : (κ → α) → ι → (κ → α)) (tgt : ι → Option κ) (v : ι → α) (i' : κ) (c : α)
    (hhit : ∀ r n, tgt n = some i' → step r n i' = v n) (hmiss : ∀ r n, tgt n ≠ some i' → step r n i' = r i') :
    ∀ (L : List ι) (x : κ → α), (∀ n ∈ L, tgt n = some i' → v n = c) → (x i' = c ∨ ∃ n ∈ L, tgt n = some i') →
      (L.foldl step x) i' = c := by
  intro L
  induction L with
  | nil =>
    intro x _ hx
    rcases hx with hx | ⟨n, hn, _⟩
    · exact hx
    · exact absurd hn List.not_mem_nil
  | cons n L ih =>
    intro x hL hx
    rw [List.foldl_cons]
    refine ih _ (fun m hm => hL m (List.mem_cons_of_mem _ hm)) ?_
    by_cases h : tgt n = some i'
    · left; rw [hhit _ _ h]; exact hL n List.mem_cons_self h
    · rcases hx with hx | ⟨n', hn', hl⟩
      · left; rw [hmiss _ _ h]; exact hx
      · right
        rcases List.mem_cons.1 hn' with e | hmem
        · subst e; exact absurd hl h
        · exact ⟨n', hmem, hl⟩

end Replace

/-- Every index of a rank-1 shape is its one coordinate. -/
theorem idx1_eta {n : Nat} (j : (⟨1, ![n]⟩ : Shape).Idx) : j = ix1 (j 0) := by
  funext a
  have ha : a = 0 := Subsingleton.elim _ _
  subst ha; rfl

/-- Where a point scatter into an [R, C] operand by an [n, 2] table of indices (both operand axes inserted and
    scatter-indexed, no window axes, the index vector on axis 1) puts update `p`: at the pair in row `p` of the table,
    when both components, read signed, are inside the operand. -/
theorem scatter_point_resultIdx {R C n w : Nat} (d : ScatterDims ⟨2, ![R, C]⟩ ⟨2, ![n, 2]⟩ ⟨1, ![n]⟩)
    (hiw : d.insertedWindowDims = [0, 1]) (hsd : d.scatterDimsToOperandDims = [0, 1]) (hivd : d.indexVectorDim = 1)
    (idx : IVec ⟨2, ![n, 2]⟩ w) (p : Fin n) (r : Fin R) (c : Fin C)
    (hr : (idx (ix2 p (0 : Fin 2))).toInt = (r.val : Int)) (hc : (idx (ix2 p (1 : Fin 2))).toInt = (c.val : Int)) :
    d.resultIdx? (ix1 p) idx = some (ix2 r c) := by
  have hk : ∀ a : Fin 2, a ∉ d.sKept := fun a => by
    show a ∉ Shape.kept _ d.insertedWindowDims
    rw [hiw]; simp [Shape.kept, List.mem_filter]; fin_cases a <;> simp
  have hm : ∀ a : Fin 2, a ∈ d.scatterDimsToOperandDims := fun a => by rw [hsd]; fin_cases a <;> simp
  have hlen : d.scatterDimsToOperandDims.length = 2 := by rw [hsd]; rfl
  have hsi : ∀ k : Fin d.scatterDimsToOperandDims.length,
      d.siIdx (ix1 p) k = ix2 p (⟨k.val, by have := k.isLt; omega⟩ : Fin 2) := by
    intro k
    funext b
    match b with
    | ⟨0, _⟩ =>
      unfold ScatterDims.siIdx
      rw [dif_neg (by rw [hivd]; simp)]
      unfold ScatterDims.siCoord
      apply Fin.ext
      simp only [Fin.val_cast]
      have e : ∀ X : Fin 1, ((ix1 p : (⟨1, ![n]⟩ : Shape).Idx) X).val = p.val := fun X => by
        have hX : X = 0 := Subsingleton.elim _ _
        subst hX; rfl
      exact e _
    | ⟨1, _⟩ =>
      unfold ScatterDims.siIdx
      rw [dif_pos (by rw [hivd])]
      rfl
  have hw : ∀ a : Fin 2, d.window (ix1 p) a = 0 := fun a => by
    unfold ScatterDims.window; rw [dif_neg (hk a)]
  have hs0 : d.start (ix1 p) idx (0 : Fin 2) = (r.val : Int) := by
    unfold ScatterDims.start
    rw [dif_pos (hm 0), hsi, ← hr]
    congr 3
    apply Fin.ext
    show List.idxOf (0 : Fin 2) d.scatterDimsToOperandDims = 0
    rw [hsd]; simp
  have hs1 : d.start (ix1 p) idx (1 : Fin 2) = (c.val : Int) := by
    unfold ScatterDims.start
    rw [dif_pos (hm 1), hsi, ← hc]
    congr 3
    apply Fin.ext
    show List.idxOf (1 : Fin 2) d.scatterDimsToOperandDims = 1
    rw [hsd]; simp
  have hval : ∀ a : Fin 2, d.start (ix1 p) idx a + (d.window (ix1 p) a : Int) = ((ix2 r c a).val : Int) := fun a => by
    rw [hw a]
    match a with
    | ⟨0, _⟩ => rw [show (⟨0, _⟩ : Fin 2) = 0 from rfl, hs0]; simp
    | ⟨1, _⟩ => rw [show (⟨1, _⟩ : Fin 2) = 1 from rfl, hs1]; simp
  unfold ScatterDims.resultIdx?
  rw [dif_pos (fun a => by
    rw [hval a]
    exact ⟨Int.natCast_nonneg _, by exact_mod_cast (ix2 r c a).isLt⟩)]
  congr 1
  funext a
  apply Fin.ext
  show (d.start (ix1 p) idx a + (d.window (ix1 p) a : Int)).toNat = (ix2 r c a).val
  rw [hval a]; simp

/-- A point scatter with the replace body into an [n, C] operand whose update `p` goes to row `p`, column `col p`:
    in each row exactly the entry at that row's column is replaced by that row's update (rows are distinct, so at most
    one update lands on any entry) and every other entry is kept. -/
theorem scatter_rows_replace_apply {α : Type} {n C w : Nat} (d : ScatterDims ⟨2, ![n, C]⟩ ⟨2, ![n, 2]⟩ ⟨1, ![n]⟩)
    (hiw : d.insertedWindowDims = [0, 1]) (hsd : d.scatterDimsToOperandDims = [0, 1]) (hivd : d.indexVectorDim = 1)
    (x : (⟨2, ![n, C]⟩ : Shape).Idx → α) (idx : IVec ⟨2, ![n, 2]⟩ w) (upd : (⟨1, ![n]⟩ : Shape).Idx → α)
    (col : Fin n → Fin C)
    (hrow : ∀ p : Fin n, (idx (ix2 p (0 : Fin 2))).toInt = (p.val : Int))
    (hcol : ∀ p : Fin n, (idx (ix2 p (1 : Fin 2))).toInt = ((col p).val : Int)) (p : Fin n) (c : Fin C) :
    Host.scatter d (fun _ b => b) x idx upd (ix2 p c) = if c = col p then upd (ix1 p) else x (ix2 p c) := by
  -- every update lands, at (its row, its row's column)
  have htgt : ∀ j : (⟨1, ![n]⟩ : Shape).Idx, ∃ q : Fin n, j = ix1 q ∧ d.resultIdx? j idx = some (ix2 q (col q)) := fun j =>
    ⟨j 0, idx1_eta j, by
      conv_lhs => rw [idx1_eta j]
      exact scatter_point_resultIdx d hiw hsd hivd idx (j 0) (j 0) (col (j 0)) (hrow _) (hcol _)⟩
  unfold Host.scatter
  refine foldl_step_value _ (fun m => d.resultIdx? ((⟨1, ![n]⟩ : Shape).rowMajor.symm m) idx)
    (fun m => upd ((⟨1, ![n]⟩ : Shape).rowMajor.symm m)) (ix2 p c) _ ?_ ?_ (List.finRange _) x ?_ ?_
  · -- an update that lands on the entry writes its value there
    intro r m h
    beta_reduce at h ⊢
    rw [h]
    exact if_pos rfl
  · -- any other update keeps the entry
    intro r m h
    beta_reduce at h ⊢
    cases hres : d.resultIdx? ((⟨1, ![n]⟩ : Shape).rowMajor.symm m) idx with
    | none => rfl
    | some i =>
      rw [hres] at h
      exact if_neg (fun e => h (by rw [e]))
  · -- an update landing on (p, c) is row p's, and c is row p's column
    intro m _ hm
    beta_reduce at hm ⊢
    obtain ⟨q, hq, hres⟩ := htgt ((⟨1, ![n]⟩ : Shape).rowMajor.symm m)
    rw [hres] at hm
    have hqp : q = p := congrFun (Option.some.inj hm) 0
    have hcc : col q = c := congrFun (Option.some.inj hm) 1
    rw [if_pos (by rw [← hcc, hqp]), hq, hqp]
  · by_cases hc : c = col p
    · right
      refine ⟨(⟨1, ![n]⟩ : Shape).rowMajor (ix1 p), List.mem_finRange _, ?_⟩
      beta_reduce
      rw [Equiv.symm_apply_apply]
      obtain ⟨q, hq, hres⟩ := htgt (ix1 p)
      have hqp : p = q := congrFun hq 0
      subst hqp
      rw [hres, hc]
    · left; rw [if_neg hc]

/-- The class score is the largest of the class's three clipped cosines (the fold's initial `-inf` is the bottom). -/
theorem val_main_v10_apply (x0 : (⟨S128x512, .f32⟩ : BufTy).Contents (Elt Ideal)) (x2 : (⟨S300000x512, .f32⟩ : BufTy).Contents (Elt Ideal))
    (b : Fin 128) (c : Fin 100000) :
    val_main_v10 (F := Ideal) x0 x2 (ix2 b c)
      = max (max (val_main_v9 (F := Ideal) x0 x2 (ix3 b c 0)) (val_main_v9 (F := Ideal) x0 x2 (ix3 b c 1)))
          (val_main_v9 (F := Ideal) x0 x2 (ix3 b c 2)) := by
  unfold val_main_v10
  generalize val_main_v9 (F := Ideal) x0 x2 = y
  refine (Host.reduce_eq_fold_single (α := Ideal .f32) FloatOps.maximumf y _ reducesTo_S128x100000x3_S128x100000_d2 reduces_v10 h_S_ _).trans ?_
  have hinit : val_main_cst_1 (F := Ideal) (Shape.Idx.first h_S_) = (⊥ : EReal) := Cert.Consts.ofBits_neg_inf
  rw [hinit]
  have hf : (y ∘ reduces_v10.lift (ix2 b c)) = fun k : Fin 3 => y (ix3 b c k) :=
    funext fun k => congrArg y (lift_v10 b c k)
  rw [hf]
  exact fold_max_bot_fin3 _

/-- The first gather reads the class scores at (row, label): with labels in range no index is wrapped or clamped. -/
theorem val_main_v25_apply (x0 : (⟨S128x512, .f32⟩ : BufTy).Contents (Elt Ideal)) (x1 : (⟨S128, .i32⟩ : BufTy).Contents (Elt Ideal))
    (x2 : (⟨S300000x512, .f32⟩ : BufTy).Contents (Elt Ideal)) (hlab : ∀ b : Fin 128, (x1 (ix1 b)).toNat < 100000) (b : Fin 128) :
    val_main_v25 (F := Ideal) x0 x1 x2 (ix1 b) = val_main_v10 (F := Ideal) x0 x2 (ix2 b ⟨(x1 (ix1 b)).toNat, hlab b⟩) := by
  unfold val_main_v25
  generalize val_main_v10 (F := Ideal) x0 x2 = y
  have hl : (x1 (ix1 b)).toNat < 2 ^ 31 := by have := hlab b; omega
  refine (gather_point_apply gather_S128x100000_S128x2_S128_n_01_n_n_01_1_11 rfl rfl rfl rfl y
    (val_main_v24 (F := Ideal) x1) b (by decide) (by decide)).trans (congrArg y ?_)
  funext a
  apply Fin.ext
  match a with
  | ⟨0, _⟩ =>
    show min (val_main_v24 (F := Ideal) x1 (ix2 b (0 : Fin 2))).toInt.toNat (128 - 1) = b.val
    rw [val_main_v24_zero, StableHlo.Predicate.toInt_ofNat_small b.val (by have := b.isLt; omega), Int.toNat_natCast]
    exact Nat.min_eq_left (by have := b.isLt; omega)
  | ⟨1, _⟩ =>
    show min (val_main_v24 (F := Ideal) x1 (ix2 b (1 : Fin 2))).toInt.toNat (100000 - 1) = (x1 (ix1 b)).toNat
    rw [val_main_v24_one x1 b hl, StableHlo.Predicate.toInt_eq_toNat_of_lt hl, Int.toNat_natCast]
    exact Nat.min_eq_left (by have := hlab b; omega)

/-- The scatter replaces, in each row, exactly the labelled entry by that row's update (rows are distinct, so no two
    updates meet) and keeps every other entry. -/
theorem val_main_v55_apply (x0 : (⟨S128x512, .f32⟩ : BufTy).Contents (Elt Ideal)) (x1 : (⟨S128, .i32⟩ : BufTy).Contents (Elt Ideal))
    (x2 : (⟨S300000x512, .f32⟩ : BufTy).Contents (Elt Ideal)) (hlab : ∀ b : Fin 128, (x1 (ix1 b)).toNat < 100000) (b : Fin 128) (c : Fin 100000) :
    val_main_v55 (F := Ideal) x0 x1 x2 (ix2 b c)
      = if c.val = (x1 (ix1 b)).toNat then val_main_v41 (F := Ideal) x0 x1 x2 (ix1 b) else val_main_v10 (F := Ideal) x0 x2 (ix2 b c) := by
  unfold val_main_v55
  generalize val_main_v10 (F := Ideal) x0 x2 = y
  generalize val_main_v41 (F := Ideal) x0 x1 x2 = u
  have hl : ∀ p : Fin 128, (x1 (ix1 p)).toNat < 2 ^ 31 := fun p => by have := hlab p; omega
  refine (scatter_rows_replace_apply scatter_S128x100000_S128x2_S128_n_01_01_1 rfl rfl rfl y
    (val_main_v54 (F := Ideal) x1) u (fun p => ⟨(x1 (ix1 p)).toNat, hlab p⟩)
    (fun p => by rw [val_main_v54_zero, StableHlo.Predicate.toInt_ofNat_small p.val (by have := p.isLt; omega)])
    (fun p => by rw [val_main_v54_one x1 p (hl p), StableHlo.Predicate.toInt_eq_toNat_of_lt (hl p)]) b c).trans ?_
  by_cases hc : c.val = (x1 (ix1 b)).toNat
  · rw [if_pos hc, if_pos (Fin.ext hc)]
  · rw [if_neg hc, if_neg (fun h => hc (congrArg Fin.val h))]

/-- The row maximum of the scaled scores. -/
theorem val_main_call4_v0_apply (x0 : (⟨S128x512, .f32⟩ : BufTy).Contents (Elt Ideal)) (x1 : (⟨S128, .i32⟩ : BufTy).Contents (Elt Ideal))
    (x2 : (⟨S300000x512, .f32⟩ : BufTy).Contents (Elt Ideal)) (b : Fin 128) :
    val_main_call4_v0 (F := Ideal) x0 x1 x2 (ix1 b)
      = Finset.univ.sup (fun c : Fin 100000 => val_main_v57 (F := Ideal) x0 x1 x2 (ix2 b c)) := by
  unfold val_main_call4_v0
  generalize val_main_v57 (F := Ideal) x0 x1 x2 = y
  refine (Host.reduce_eq_fold_single (α := Ideal .f32) FloatOps.maximumf y _ reducesTo_S128x100000_S128_d1 reduces_call4 h_S_ _).trans ?_
  have hinit : val_main_call4_cst (F := Ideal) (Shape.Idx.first h_S_) = (⊥ : EReal) := Cert.Consts.ofBits_neg_inf
  rw [hinit]
  have hf : (y ∘ reduces_call4.lift (ix1 b)) = fun c : Fin 100000 => y (ix2 b c) :=
    funext fun k => congrArg y (lift_call4 b k)
  rw [hf]
  exact fold_max_bot_eq_sup _ _

/-- The second gather reads the log-probabilities at (row, label). -/
theorem val_main_v72_apply (x0 : (⟨S128x512, .f32⟩ : BufTy).Contents (Elt Ideal)) (x1 : (⟨S128, .i32⟩ : BufTy).Contents (Elt Ideal))
    (x2 : (⟨S300000x512, .f32⟩ : BufTy).Contents (Elt Ideal)) (hlab : ∀ b : Fin 128, (x1 (ix1 b)).toNat < 100000) (b : Fin 128) :
    val_main_v72 (F := Ideal) x0 x1 x2 (ix1 b) = val_main_v58 (F := Ideal) x0 x1 x2 (ix2 b ⟨(x1 (ix1 b)).toNat, hlab b⟩) := by
  unfold val_main_v72
  generalize val_main_v58 (F := Ideal) x0 x1 x2 = y
  have hl : (x1 (ix1 b)).toNat < 2 ^ 31 := by have := hlab b; omega
  refine (gather_point_apply gather_S128x100000_S128x2_S128_n_01_n_n_01_1_11 rfl rfl rfl rfl y
    (val_main_v71 (F := Ideal) x1) b (by decide) (by decide)).trans (congrArg y ?_)
  funext a
  apply Fin.ext
  match a with
  | ⟨0, _⟩ =>
    show min (val_main_v71 (F := Ideal) x1 (ix2 b (0 : Fin 2))).toInt.toNat (128 - 1) = b.val
    rw [val_main_v71_zero, StableHlo.Predicate.toInt_ofNat_small b.val (by have := b.isLt; omega), Int.toNat_natCast]
    exact Nat.min_eq_left (by have := b.isLt; omega)
  | ⟨1, _⟩ =>
    show min (val_main_v71 (F := Ideal) x1 (ix2 b (1 : Fin 2))).toInt.toNat (100000 - 1) = (x1 (ix1 b)).toNat
    rw [val_main_v71_one x1 b hl, StableHlo.Predicate.toInt_eq_toNat_of_lt hl, Int.toNat_natCast]
    exact Nat.min_eq_left (by have := hlab b; omega)

end Cert.ReferenceIdeal.RefStages

end
-- ==== Proof.RefValue.lean ====
/-
  The direct program's result is the direct loss of the scaled scores: its normalised logits are the clipped cosines
  against weight rows divided by their norms, its class scores their maxima over sub-centers, the margin sits on the
  labelled class, and the tail is the labelled log-probability averaged and negated.
-/
import proofs.«420243_j57750130262074_2_alg».proof.Proof.RefStages
import proofs.«420243_j57750130262074_2_alg».proof.Proof.Spec
import proofs.«420243_j57750130262074_2_alg».proof.Proof.Arrays
import Idealize.ShloMosaic.Lib.ValueIdxRank1

noncomputable section

namespace Cert.ReferenceIdeal.RefValue

open Cert.ReferenceIdeal Cert.ReferenceIdeal.ReadP Idealize.ShloMosaic Idealize.ShloMosaic.ValueIdx Cert.Spec

/-- The embeddings' row norm is broadcast along the row: the broadcast reads column 0 of the norm column. -/
theorem idx_v1 (b : Fin 128) (d : Fin 512) : idx_main_v1 (ix2 b d) = ix2 b (0 : Fin 1) :=
  funext fun a => Fin.ext (by match a with | ⟨0, _⟩ => rfl | ⟨1, _⟩ => rfl)

theorem idx_c0v2 (b : Fin 128) (z : Fin 1) : idx_main_call0_v2 (ix2 b z) = ix1 b :=
  funext fun a => Fin.ext (by match a with | ⟨0, _⟩ => rfl)

theorem idx_c0v1 (b : Fin 128) (k : Fin 512) : idx_main_call0_v1 (ix1 b) k = ix2 b k :=
  funext fun a => Fin.ext (by match a with | ⟨0, _⟩ => rfl | ⟨1, _⟩ => rfl)

/-- The normalised embeddings: each entry divided by the square root of its row's sum of squares. -/
theorem ne_apply (x0 : (⟨S128x512, .f32⟩ : BufTy).Contents (Elt Ideal)) (b : Fin 128) (d : Fin 512) :
    val_main_v2 (F := Ideal) x0 (ix2 b d) = neOf (Cert.Arr.E x0) b d := by
  rw [val_main_v2_apply, val_main_v1_apply, val_main_v0_apply, val_main_call0_v2_apply, val_main_call0_v1_apply]
  simp only [val_main_call0_v0_apply, val_main_call0_cst_apply, idx_v1, idx_c0v2, idx_c0v1, Ideal.hostDivf_def,
    Ideal.hostUnary_sqrt_def, Ideal.mulf_def, Ideal.ofBits_def, Cert.Consts.ofBits_zero, zero_add]
  rfl

theorem idx_v4 (r : Fin 300000) (d : Fin 512) : idx_main_v4 (ix2 r d) = ix2 r (0 : Fin 1) :=
  funext fun a => Fin.ext (by match a with | ⟨0, _⟩ => rfl | ⟨1, _⟩ => rfl)

theorem idx_c1v2 (r : Fin 300000) (z : Fin 1) : idx_main_call1_v2 (ix2 r z) = ix1 r :=
  funext fun a => Fin.ext (by match a with | ⟨0, _⟩ => rfl)

theorem idx_c1v1 (r : Fin 300000) (k : Fin 512) : idx_main_call1_v1 (ix1 r) k = ix2 r k :=
  funext fun a => Fin.ext (by match a with | ⟨0, _⟩ => rfl | ⟨1, _⟩ => rfl)

/-- The normalised weight: each entry divided by the square root of its row's sum of squares. -/
theorem nw_apply (x2 : (⟨S300000x512, .f32⟩ : BufTy).Contents (Elt Ideal)) (r : Fin 300000) (d : Fin 512) :
    val_main_v5 (F := Ideal) x2 (ix2 r d) = wnR (Cert.Arr.W x2) r d := by
  rw [val_main_v5_apply, val_main_v4_apply, val_main_v3_apply, val_main_call1_v2_apply, val_main_call1_v1_apply]
  simp only [val_main_call1_v0_apply, val_main_call1_cst_apply, idx_v4, idx_c1v2, idx_c1v1, Ideal.hostDivf_def,
    Ideal.hostUnary_sqrt_def, Ideal.mulf_def, Ideal.ofBits_def, Cert.Consts.ofBits_zero, zero_add]
  rfl

/-- The contraction reads row `b` of the left operand … -/
theorem lidx_v7 (b : Fin 128) (r : Fin 300000) (k : Fin 512) : lidx_main_v7 (ix2 b r) k = ix2 b k :=
  funext fun a => Fin.ext (by match a with | ⟨0, _⟩ => rfl | ⟨1, _⟩ => rfl)

/-- … and, through the transpose, row `r` of the normalised weight. -/
theorem ridx_v7 (b : Fin 128) (r : Fin 300000) (k : Fin 512) : idx_main_v6 (ridx_main_v7 (ix2 b r) k) = ix2 r k :=
  funext fun a => Fin.ext (by match a with | ⟨0, _⟩ => rfl | ⟨1, _⟩ => rfl)

/-- The logit: the cosine of embedding row `b` and weight row `r`, clipped to `[-1, 1]`. -/
theorem logit_apply (x0 : (⟨S128x512, .f32⟩ : BufTy).Contents (Elt Ideal)) (x2 : (⟨S300000x512, .f32⟩ : BufTy).Contents (Elt Ideal))
    (b : Fin 128) (r : Fin 300000) :
    val_main_v8 (F := Ideal) x0 x2 (ix2 b r) = logit (neOf (Cert.Arr.E x0)) (wnR (Cert.Arr.W x2)) b r := by
  rw [val_main_v8_apply, val_main_call2_v4_apply, val_main_call2_v3_apply, val_main_cst_0_apply, val_main_call2_v2_apply,
    val_main_call2_v1_apply, val_main_call2_v0_apply, val_main_cst_apply, val_main_v7_apply]
  simp only [val_main_v6_apply, lidx_v7, ridx_v7, ne_apply, nw_apply, Ideal.minimumf_def, Ideal.maximumf_def, Ideal.ofBits_def]
  rfl

/-- The reshape reads weight row `3c + k`: row-major position `(b·100000 + c)·3 + k` of `[128, 100000, 3]` is
    position `b·300000 + (3c + k)` of `[128, 300000]`. -/
theorem idx_v9 (b : Fin 128) (c : Fin 100000) (k : Fin 3) : idx_main_v9 (ix3 b c k) = ix2 b (sub3 c k) :=
  funext fun a => Fin.ext (by
    have hb := b.isLt; have hc := c.isLt; have hk := k.isLt
    match a with
    | ⟨0, _⟩ => show ((b.val * 100000 + c.val) * 3 + k.val) / 300000 = b.val; omega
    | ⟨1, _⟩ => show ((b.val * 100000 + c.val) * 3 + k.val) % 300000 = 3 * c.val + k.val; omega)

theorem sub_apply (x0 : (⟨S128x512, .f32⟩ : BufTy).Contents (Elt Ideal)) (x2 : (⟨S300000x512, .f32⟩ : BufTy).Contents (Elt Ideal))
    (b : Fin 128) (c : Fin 100000) (k : Fin 3) :
    val_main_v9 (F := Ideal) x0 x2 (ix3 b c k) = logit (neOf (Cert.Arr.E x0)) (wnR (Cert.Arr.W x2)) b (sub3 c k) := by
  rw [val_main_v9_apply, idx_v9, logit_apply]

/-- The class score: the largest of the class's three clipped cosines. -/
theorem blk_apply (x0 : (⟨S128x512, .f32⟩ : BufTy).Contents (Elt Ideal)) (x2 : (⟨S300000x512, .f32⟩ : BufTy).Contents (Elt Ideal))
    (b : Fin 128) (c : Fin 100000) :
    val_main_v10 (F := Ideal) x0 x2 (ix2 b c) = blk (neOf (Cert.Arr.E x0)) (wnR (Cert.Arr.W x2)) b c := by
  rw [RefStages.val_main_v10_apply, sub_apply, sub_apply, sub_apply]
  rfl

/-- A select on "`thr < t`" is the `if`. -/
theorem select_ogt {α : Type} (t thr : EReal) (A B : α) :
    Scalar.select (Ideal.cmp .ogt t thr) A B = if thr < t then A else B := by
  by_cases h : thr < t
  · simp [Scalar.select, Ideal.cmp, h]
  · simp [Scalar.select, Ideal.cmp, h]

/-- The margin on the labelled class's score. -/
theorem margin_apply (x0 : (⟨S128x512, .f32⟩ : BufTy).Contents (Elt Ideal)) (x1 : (⟨S128, .i32⟩ : BufTy).Contents (Elt Ideal))
    (x2 : (⟨S300000x512, .f32⟩ : BufTy).Contents (Elt Ideal)) (i : S128.Idx) :
    val_main_v41 (F := Ideal) x0 x1 x2 i = margin (val_main_v25 (F := Ideal) x0 x1 x2 i) := by
  rw [val_main_v41_apply, val_main_v38_apply, val_main_v37_apply, val_main_cst_9_apply, val_main_v36_apply, val_main_v33_apply,
    val_main_v32_apply, val_main_cst_7_apply, val_main_v35_apply, val_main_v31_apply, val_main_v30_apply, val_main_v28_apply,
    val_main_v27_apply, val_main_cst_5_apply, val_main_v26_apply, val_main_v29_apply, val_main_cst_6_apply, val_main_v34_apply,
    val_main_cst_8_apply, val_main_v40_apply, val_main_v39_apply, val_main_cst_10_apply]
  simp only [Ideal.cmpf_def, select_ogt, Ideal.mulf_def, Ideal.subf_def, Ideal.maximumf_def, Ideal.hostUnary_sqrt_def,
    Ideal.ofBits_def, Cert.Consts.ofBits_zero]
  rfl

/-- The scaled score: the margin on the labelled class, the plain class score elsewhere, times the scale. -/
theorem score_apply (x0 : (⟨S128x512, .f32⟩ : BufTy).Contents (Elt Ideal)) (x1 : (⟨S128, .i32⟩ : BufTy).Contents (Elt Ideal))
    (x2 : (⟨S300000x512, .f32⟩ : BufTy).Contents (Elt Ideal)) (hlab : ∀ b : Fin 128, (x1 (ix1 b)).toNat < 100000)
    (b : Fin 128) (c : Fin 100000) :
    val_main_v57 (F := Ideal) x0 x1 x2 (ix2 b c)
      = score (neOf (Cert.Arr.E x0)) (wnR (Cert.Arr.W x2)) (Cert.Arr.L x1 hlab) b c := by
  rw [val_main_v57_apply, val_main_v56_apply, val_main_cst_15_apply, RefStages.val_main_v55_apply x0 x1 x2 hlab,
    margin_apply, RefStages.val_main_v25_apply x0 x1 x2 hlab, blk_apply, blk_apply]
  unfold score
  simp only [Ideal.mulf_def, Ideal.ofBits_def]
  by_cases h : c = Cert.Arr.L x1 hlab b
  · have hv : c.val = (x1 (ix1 b)).toNat := congrArg Fin.val h
    rw [if_pos hv, if_pos h]
    subst h
    rfl
  · have hv : ¬ c.val = (x1 (ix1 b)).toNat := fun hv => h (Fin.ext hv)
    rw [if_neg hv, if_neg h]

theorem idx_c4v4 (b : Fin 128) (c : Fin 100000) : idx_main_call4_v4 (ix2 b c) = ix2 b (0 : Fin 1) :=
  funext fun a => Fin.ext (by match a with | ⟨0, _⟩ => rfl | ⟨1, _⟩ => rfl)

theorem idx_c4v3 (b : Fin 128) (z : Fin 1) : idx_main_call4_v3 (ix2 b z) = ix1 b :=
  funext fun a => Fin.ext (by match a with | ⟨0, _⟩ => rfl)

theorem idx_c4v10 (b : Fin 128) (c : Fin 100000) : idx_main_call4_v10 (ix2 b c) = ix2 b (0 : Fin 1) :=
  funext fun a => Fin.ext (by match a with | ⟨0, _⟩ => rfl | ⟨1, _⟩ => rfl)

theorem idx_c4v8 (b : Fin 128) (z : Fin 1) : idx_main_call4_v8 (ix2 b z) = ix1 b :=
  funext fun a => Fin.ext (by match a with | ⟨0, _⟩ => rfl)

theorem idx_c4v7 (b : Fin 128) (k : Fin 100000) : idx_main_call4_v7 (ix1 b) k = ix2 b k :=
  funext fun a => Fin.ext (by match a with | ⟨0, _⟩ => rfl | ⟨1, _⟩ => rfl)

/-- The shifted score: the scaled score minus its row's maximum (the maximum with the bottom is the maximum). -/
theorem shift_apply (x0 : (⟨S128x512, .f32⟩ : BufTy).Contents (Elt Ideal)) (x1 : (⟨S128, .i32⟩ : BufTy).Contents (Elt Ideal))
    (x2 : (⟨S300000x512, .f32⟩ : BufTy).Contents (Elt Ideal)) (hlab : ∀ b : Fin 128, (x1 (ix1 b)).toNat < 100000)
    (b : Fin 128) (c : Fin 100000) :
    val_main_call4_v5 (F := Ideal) x0 x1 x2 (ix2 b c)
      = score (neOf (Cert.Arr.E x0)) (wnR (Cert.Arr.W x2)) (Cert.Arr.L x1 hlab) b c
        - rowMax (score (neOf (Cert.Arr.E x0)) (wnR (Cert.Arr.W x2)) (Cert.Arr.L x1 hlab)) b := by
  rw [val_main_call4_v5_apply, val_main_call4_v4_apply, idx_c4v4, val_main_call4_v3_apply, idx_c4v3, val_main_call4_v2_apply,
    val_main_call4_v1_apply, val_main_call4_cst_0_apply, RefStages.val_main_call4_v0_apply]
  simp only [score_apply x0 x1 x2 hlab, Ideal.subf_def, Ideal.maximumf_def, Ideal.ofBits_def, Cert.Consts.ofBits_neg_inf,
    max_bot_left]
  rfl

/-- The log-probability: the shifted score minus the logarithm of the row's sum of exponentials of shifted scores. -/
theorem logp_apply (x0 : (⟨S128x512, .f32⟩ : BufTy).Contents (Elt Ideal)) (x1 : (⟨S128, .i32⟩ : BufTy).Contents (Elt Ideal))
    (x2 : (⟨S300000x512, .f32⟩ : BufTy).Contents (Elt Ideal)) (hlab : ∀ b : Fin 128, (x1 (ix1 b)).toNat < 100000)
    (b : Fin 128) (c : Fin 100000) :
    val_main_v58 (F := Ideal) x0 x1 x2 (ix2 b c)
      = (score (neOf (Cert.Arr.E x0)) (wnR (Cert.Arr.W x2)) (Cert.Arr.L x1 hlab) b c
          - rowMax (score (neOf (Cert.Arr.E x0)) (wnR (Cert.Arr.W x2)) (Cert.Arr.L x1 hlab)) b)
        - Ideal.log (∑ c', Ideal.exp (score (neOf (Cert.Arr.E x0)) (wnR (Cert.Arr.W x2)) (Cert.Arr.L x1 hlab) b c'
            - rowMax (score (neOf (Cert.Arr.E x0)) (wnR (Cert.Arr.W x2)) (Cert.Arr.L x1 hlab)) b)) := by
  rw [val_main_v58_apply, val_main_call4_v10_apply, idx_c4v10, val_main_call4_v9_apply, val_main_call4_v8_apply, idx_c4v8,
    val_main_call4_v7_apply, val_main_call4_cst_1_apply]
  simp only [idx_c4v7, val_main_call4_v6_apply, shift_apply x0 x1 x2 hlab, Ideal.subf_def, Ideal.hostUnary_log_def,
    Ideal.hostUnary_exp_def, Ideal.ofBits_def, Cert.Consts.ofBits_zero, zero_add]

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The last stage of the direct program, for labels in range, is the direct loss of the scaled scores. -/
theorem result_eq (x0 : (⟨S128x512, .f32⟩ : BufTy).Contents (Elt Ideal)) (x1 : (⟨S128, .i32⟩ : BufTy).Contents (Elt Ideal))
    (x2 : (⟨S300000x512, .f32⟩ : BufTy).Contents (Elt Ideal)) (hlab : ∀ b : Fin 128, (x1 (ix1 b)).toNat < 100000) :
    val_main_v75 (F := Ideal) x0 x1 x2
      = fun _ => refLoss (score (neOf (Cert.Arr.E x0)) (wnR (Cert.Arr.W x2)) (Cert.Arr.L x1 hlab)) (Cert.Arr.L x1 hlab) := by
  funext i
  rw [val_main_v75_apply, val_main_v74_apply, val_main_v73_apply, val_main_cst_20_apply, val_main_cst_21_apply, sum_idx1]
  simp only [RefStages.val_main_v72_apply x0 x1 x2 hlab, logp_apply x0 x1 x2 hlab, Ideal.hostNegf_def, Ideal.negf_def,
    Ideal.hostDivf_def, Ideal.ofBits_def, Cert.Consts.ofBits_zero, zero_add]
  rfl

end Cert.ReferenceIdeal.RefValue

end
-- ==== Proof.Math.lean ====
/-
  The streamed log-sum-exp is the direct one. For real scores: after the tiles seen so far the running maximum is
  the maximum over their columns, the running sum is the sum of `exp (x − that maximum)` over them (rescaling by
  `exp (m_old − m_new)` is exactly what moving the shift costs), and the labelled score has been picked up once its
  column was met; joining the two halves is one more such step; and `−mean ((x_ℓ − M) − log L) = mean ((M + log L) − x_ℓ)`.
-/
import proofs.«420243_j57750130262074_2_alg».proof.Proof.Spec
import proofs.«420243_j57750130262074_2_alg».proof.Proof.Consts

noncomputable section

namespace Cert.Math

open Idealize.ShloMosaic Cert.Spec

/-! ## Real numbers inside the extended reals -/

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with the maximum of two. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- Moving the shift of a sum of exponentials from `m` to `m'` costs the factor `exp (m − m')`. -/
theorem rescale_sum {ι : Type*} (s : Finset ι) (f : ι → ℝ) (m m' : ℝ) :
    Real.exp (m - m') * ∑ i ∈ s, Real.exp (f i - m) = ∑ i ∈ s, Real.exp (f i - m') := by
  rw [Finset.mul_sum]
  refine Finset.sum_congr rfl fun i _ => ?_
  rw [← Real.exp_add]
  congr 1
  ring

/-! ## The columns of a tile, and of the tiles seen so far -/

/-- The columns of tile `T`. -/
def tileCols (T : ℕ) : Finset (Fin 100000) := Finset.univ.image (colOf T)

theorem colOf_val {T : ℕ} (hT : T < 100) (j : Fin 1000) : (colOf T j).val = T * 1000 + j.val := by
  have hj := j.isLt
  show (T * 1000 + j.val) % 100000 = T * 1000 + j.val
  exact Nat.mod_eq_of_lt (by omega)

theorem colOf_injective {T : ℕ} (hT : T < 100) : Function.Injective (colOf T) := by
  intro i j h
  have h' := congrArg Fin.val h
  rw [colOf_val hT, colOf_val hT] at h'
  exact Fin.ext (by omega)

/-- Tile `T` is the thousand columns from `1000 T` on. -/
theorem mem_tileCols {T : ℕ} (hT : T < 100) (c : Fin 100000) :
    c ∈ tileCols T ↔ T * 1000 ≤ c.val ∧ c.val < T * 1000 + 1000 := by
  constructor
  · intro h
    obtain ⟨j, -, rfl⟩ := Finset.mem_image.mp h
    rw [colOf_val hT]
    have hj := j.isLt
    omega
  · rintro ⟨h1, h2⟩
    refine Finset.mem_image.mpr ⟨⟨c.val - T * 1000, by omega⟩, Finset.mem_univ _, ?_⟩
    apply Fin.ext
    rw [colOf_val hT]
    show T * 1000 + (c.val - T * 1000) = c.val
    omega

/-- A sum over the positions of a tile is the sum over its columns. -/
theorem sum_tile {α : Type*} [AddCommMonoid α] {T : ℕ} (hT : T < 100) (g : Fin 100000 → α) :
    ∑ j, g (colOf T j) = ∑ c ∈ tileCols T, g c := by
  rw [tileCols, Finset.sum_image (fun i _ j _ h => colOf_injective hT h)]

/-- The columns of tiles `0 … k` of half `p`. -/
def seen (p : ℕ) : ℕ → Finset (Fin 100000)
  | 0 => tileCols (p * 50)
  | k + 1 => seen p k ∪ tileCols (p * 50 + (k + 1))

theorem mem_seen {p k : ℕ} (h : p * 50 + k < 100) (c : Fin 100000) :
    c ∈ seen p k ↔ p * 50000 ≤ c.val ∧ c.val < p * 50000 + 1000 * (k + 1) := by
  induction k with
  | zero =>
    rw [seen, mem_tileCols (by omega)]
    omega
  | succ k ih =>
    rw [seen, Finset.mem_union, ih (by omega), mem_tileCols (by omega)]
    omega

theorem seen_disjoint {p k : ℕ} (h : p * 50 + (k + 1) < 100) :
    Disjoint (seen p k) (tileCols (p * 50 + (k + 1))) := by
  refine Finset.disjoint_left.mpr fun c h1 h2 => ?_
  rw [mem_seen (by omega)] at h1
  rw [mem_tileCols h] at h2
  omega

theorem halves_disjoint : Disjoint (seen 0 49) (seen 1 49) := by
  refine Finset.disjoint_left.mpr fun c h1 h2 => ?_
  rw [mem_seen (by omega)] at h1 h2
  omega

theorem halves_union : seen 0 49 ∪ seen 1 49 = Finset.univ := by
  refine Finset.eq_univ_iff_forall.mpr fun c => ?_
  rw [Finset.mem_union, mem_seen (by omega), mem_seen (by omega)]
  have hc := c.isLt
  omega

/-! ## What the carried state is, row by row -/

/-- For one row `x` with label `lab` and a set `S` of columns: `m` is the (real) maximum of `x` over `S`,
    `l` the sum over `S` of `exp (x − that maximum)`, and `t` the labelled score if its column is in `S`, else zero. -/
def Good (x : Fin 100000 → ℝ) (lab : Fin 100000) (S : Finset (Fin 100000)) (m l t : EReal) : Prop :=
  ∃ M : ℝ, m = (M : EReal) ∧ (∀ c ∈ S, x c ≤ M) ∧ (∃ c ∈ S, x c = M) ∧
    l = ((∑ c ∈ S, Real.exp (x c - M) : ℝ) : EReal) ∧
    t = ((∑ c ∈ S, (if c = lab then x c else 0) : ℝ) : EReal)

section Tile

variable (s : Fin 100000 → EReal) (x : Fin 100000 → ℝ) (hs : ∀ c, s c = (x c : EReal)) {T : ℕ} (hT : T < 100)

include hs hT

/-- The largest score of a tile is a real number: the maximum of `x` over the tile's columns. -/
theorem tile_sup : ∃ MU : ℝ, (Finset.univ.sup fun j => s (colOf T j)) = (MU : EReal) ∧
    (∀ c ∈ tileCols T, x c ≤ MU) ∧ ∃ c ∈ tileCols T, x c = MU := by
  obtain ⟨j0, -, hj0⟩ := Finset.exists_mem_eq_sup (Finset.univ : Finset (Fin 1000)) Finset.univ_nonempty
    (fun j => s (colOf T j))
  refine ⟨x (colOf T j0), by rw [hj0, hs], ?_, colOf T j0, Finset.mem_image_of_mem _ (Finset.mem_univ _), rfl⟩
  intro c hc
  obtain ⟨j, -, rfl⟩ := Finset.mem_image.mp hc
  have h : s (colOf T j) ≤ s (colOf T j0) := by
    rw [← hj0]
    exact Finset.le_sup (f := fun j => s (colOf T j)) (Finset.mem_univ j)
  rw [hs, hs] at h
  exact EReal.coe_le_coe_iff.mp h

/-- The tile's exponentials, shifted by a real `m'`. -/
theorem tile_exp (m' : ℝ) : ∑ j, Ideal.exp (s (colOf T j) - (m' : EReal))
    = ((∑ c ∈ tileCols T, Real.exp (x c - m') : ℝ) : EReal) := by
  rw [sum_tile hT (fun c => Ideal.exp (s c - (m' : EReal))), coe_sum]
  refine Finset.sum_congr rfl fun c _ => ?_
  rw [hs, ← EReal.coe_sub, Ideal.exp_coe]

/-- The tile's pick of the labelled score. -/
theorem tile_lab (lab : Fin 100000) : ∑ j, (if colOf T j = lab then s (colOf T j) else 0)
    = ((∑ c ∈ tileCols T, (if c = lab then x c else 0) : ℝ) : EReal) := by
  rw [sum_tile hT (fun c => if c = lab then s c else 0), coe_sum]
  refine Finset.sum_congr rfl fun c _ => ?_
  by_cases h : c = lab
  · rw [if_pos h, if_pos h, hs]
  · rw [if_neg h, if_neg h, EReal.coe_zero]

/-- The first tile of a half: from `(⊥, 0, 0)` to the tile's own maximum, sum and pick. -/
theorem good_first (lab : Fin 100000) :
    Good x lab (tileCols T)
      (max ⊥ (Finset.univ.sup fun j => s (colOf T j)))
      (Ideal.exp (⊥ - max ⊥ (Finset.univ.sup fun j => s (colOf T j))) * 0
        + ∑ j, Ideal.exp (s (colOf T j) - max ⊥ (Finset.univ.sup fun j => s (colOf T j))))
      (0 + ∑ j, (if colOf T j = lab then s (colOf T j) else 0)) := by
  obtain ⟨MU, hsup, hle, hatt⟩ := tile_sup s x hs hT
  refine ⟨MU, ?_, hle, hatt, ?_, ?_⟩
  · rw [hsup, max_eq_right bot_le]
  · rw [mul_zero, zero_add, hsup, max_eq_right bot_le, tile_exp s x hs hT]
  · rw [zero_add, tile_lab s x hs hT]

/-- A later tile: the maximum moves to the larger of the two, the old sum is rescaled to the new shift and
    the tile's exponentials join it, and the pick is added. -/
theorem good_step (lab : Fin 100000) {S : Finset (Fin 100000)} {m l t : EReal} (hG : Good x lab S m l t)
    (hd : Disjoint S (tileCols T)) :
    Good x lab (S ∪ tileCols T)
      (max m (Finset.univ.sup fun j => s (colOf T j)))
      (Ideal.exp (m - max m (Finset.univ.sup fun j => s (colOf T j))) * l
        + ∑ j, Ideal.exp (s (colOf T j) - max m (Finset.univ.sup fun j => s (colOf T j))))
      (t + ∑ j, (if colOf T j = lab then s (colOf T j) else 0)) := by
  obtain ⟨M, rfl, hle, ⟨c0, hc0, hc0M⟩, rfl, rfl⟩ := hG
  obtain ⟨MU, hsup, hleU, ⟨c1, hc1, hc1M⟩⟩ := tile_sup s x hs hT
  refine ⟨max M MU, ?_, ?_, ?_, ?_, ?_⟩
  · rw [hsup, coe_max]
  · intro c hc
    rcases Finset.mem_union.mp hc with h | h
    · exact (hle c h).trans (le_max_left _ _)
    · exact (hleU c h).trans (le_max_right _ _)
  · rcases le_total M MU with h | h
    · exact ⟨c1, Finset.mem_union_right _ hc1, by rw [hc1M, max_eq_right h]⟩
    · exact ⟨c0, Finset.mem_union_left _ hc0, by rw [hc0M, max_eq_left h]⟩
  · rw [hsup, coe_max, tile_exp s x hs hT, ← EReal.coe_sub, Ideal.exp_coe, ← EReal.coe_mul, ← EReal.coe_add,
      rescale_sum, Finset.sum_union hd]
  · rw [tile_lab s x hs hT, ← EReal.coe_add, Finset.sum_union hd]

end Tile

/-! ## The sweep of a half, the join of the halves, and the two losses -/

/-- After tiles `0 … k` of half `p`, every row of the carried state is as described, over the columns seen. -/
theorem kst_good (sc : Fin 128 → Fin 100000 → EReal) (ℓ : Fin 128 → Fin 100000) (xr : Fin 128 → Fin 100000 → ℝ)
    (hxr : ∀ b c, sc b c = (xr b c : EReal)) (p : ℕ) (b : Fin 128) :
    ∀ k : ℕ, p * 50 + k < 100 →
      Good (xr b) (ℓ b) (seen p k) ((kst sc ℓ p k).m b) ((kst sc ℓ p k).l b) ((kst sc ℓ p k).t b)
  | 0, h => good_first (sc b) (xr b) (hxr b) (by omega) (ℓ b)
  | k + 1, h =>
    good_step (sc b) (xr b) (hxr b) h (ℓ b) (kst_good sc ℓ xr hxr p b k (by omega)) (seen_disjoint h)

/-- Joining two disjoint sets of columns that cover the row: the joined maximum is the row's maximum `M`, the
    joined sum is `L = Σ_c exp (x_c − M) > 0`, and the two picks add up to the labelled score. -/
theorem join (s : Fin 100000 → EReal) (x : Fin 100000 → ℝ) (hs : ∀ c, s c = (x c : EReal)) (lab : Fin 100000)
    {S0 S1 : Finset (Fin 100000)} (hd : Disjoint S0 S1) (hu : S0 ∪ S1 = Finset.univ)
    {m0 l0 t0 m1 l1 t1 : EReal} (h0 : Good x lab S0 m0 l0 t0) (h1 : Good x lab S1 m1 l1 t1) :
    ∃ M L : ℝ, 0 < L ∧ max m0 m1 = (M : EReal) ∧
      Ideal.exp (m0 - max m0 m1) * l0 + Ideal.exp (m1 - max m0 m1) * l1 = (L : EReal) ∧
      t0 + t1 = (x lab : EReal) ∧ Finset.univ.sup s = (M : EReal) ∧
      ∑ c, Ideal.exp (s c - (M : EReal)) = (L : EReal) := by
  obtain ⟨M0, rfl, hle0, ⟨c0, hc0, hc0M⟩, rfl, rfl⟩ := h0
  obtain ⟨M1, rfl, hle1, ⟨c1, hc1, hc1M⟩, rfl, rfl⟩ := h1
  have hle : ∀ c, x c ≤ max M0 M1 := by
    intro c
    have hc : c ∈ S0 ∪ S1 := by rw [hu]; exact Finset.mem_univ c
    rcases Finset.mem_union.mp hc with h | h
    · exact (hle0 c h).trans (le_max_left _ _)
    · exact (hle1 c h).trans (le_max_right _ _)
  have hatt : ∃ c, x c = max M0 M1 := by
    rcases le_total M0 M1 with h | h
    · exact ⟨c1, by rw [hc1M, max_eq_right h]⟩
    · exact ⟨c0, by rw [hc0M, max_eq_left h]⟩
  refine ⟨max M0 M1, ∑ c, Real.exp (x c - max M0 M1), ?_, coe_max M0 M1, ?_, ?_, ?_, ?_⟩
  · exact Finset.sum_pos (fun c _ => Real.exp_pos _) Finset.univ_nonempty
  · rw [coe_max, ← EReal.coe_sub, ← EReal.coe_sub, Ideal.exp_coe, Ideal.exp_coe, ← EReal.coe_mul, ← EReal.coe_mul,
      ← EReal.coe_add, rescale_sum, rescale_sum, ← Finset.sum_union hd, hu]
  · rw [← EReal.coe_add, ← Finset.sum_union hd, hu, Finset.sum_ite_eq', if_pos (Finset.mem_univ lab)]
  · obtain ⟨c, hc⟩ := hatt
    refine le_antisymm (Finset.sup_le fun c _ => ?_) ?_
    · rw [hs]
      exact EReal.coe_le_coe_iff.mpr (hle c)
    · rw [← hc, ← hs]
      exact Finset.le_sup (Finset.mem_univ c)
  · rw [coe_sum]
    refine Finset.sum_congr rfl fun c _ => ?_
    rw [hs, ← EReal.coe_sub, Ideal.exp_coe]

/-- For real-valued scores the streamed loss equals the direct loss. -/
theorem kerLoss_eq_refLoss (sc : Fin 128 → Fin 100000 → EReal) (ℓ : Fin 128 → Fin 100000)
    (hsc : ∀ b c, ∃ x : ℝ, sc b c = (x : EReal)) : kerLoss sc ℓ = refLoss sc ℓ := by
  choose xr hxr using hsc
  have hrow : ∀ b, ∃ M L : ℝ, 0 < L ∧
      max ((kst sc ℓ 0 49).m b) ((kst sc ℓ 1 49).m b) = (M : EReal) ∧
      Ideal.exp ((kst sc ℓ 0 49).m b - max ((kst sc ℓ 0 49).m b) ((kst sc ℓ 1 49).m b)) * (kst sc ℓ 0 49).l b
        + Ideal.exp ((kst sc ℓ 1 49).m b - max ((kst sc ℓ 0 49).m b) ((kst sc ℓ 1 49).m b)) * (kst sc ℓ 1 49).l b
        = (L : EReal) ∧
      (kst sc ℓ 0 49).t b + (kst sc ℓ 1 49).t b = (xr b (ℓ b) : EReal) ∧
      Finset.univ.sup (sc b) = (M : EReal) ∧ ∑ c, Ideal.exp (sc b c - (M : EReal)) = (L : EReal) := fun b =>
    join (sc b) (xr b) (hxr b) (ℓ b) halves_disjoint halves_union
      (kst_good sc ℓ xr hxr 0 b 49 (by omega)) (kst_good sc ℓ xr hxr 1 b 49 (by omega))
  choose M L hL hM hcomb ht hsup hexp using hrow
  have hlog : ∀ b, Ideal.log (L b : EReal) = (Real.log (L b) : EReal) := fun b => by
    rw [Ideal.log_coe, if_neg (not_le.mpr (hL b))]
  have hk : ∀ b,
      ((max ((kst sc ℓ 0 49).m b) ((kst sc ℓ 1 49).m b)
          + Ideal.log (Ideal.exp ((kst sc ℓ 0 49).m b - max ((kst sc ℓ 0 49).m b) ((kst sc ℓ 1 49).m b)) * (kst sc ℓ 0 49).l b
              + Ideal.exp ((kst sc ℓ 1 49).m b - max ((kst sc ℓ 0 49).m b) ((kst sc ℓ 1 49).m b)) * (kst sc ℓ 1 49).l b))
        - ((kst sc ℓ 0 49).t b + (kst sc ℓ 1 49).t b))
      = ((M b + Real.log (L b) - xr b (ℓ b) : ℝ) : EReal) := fun b => by
    rw [hcomb b, hM b, ht b, hlog b, ← EReal.coe_add, ← EReal.coe_sub]
  have hr : ∀ b,
      ((sc b (ℓ b) - rowMax sc b) - Ideal.log (∑ c, Ideal.exp (sc b c - rowMax sc b)))
      = ((xr b (ℓ b) - M b - Real.log (L b) : ℝ) : EReal) := fun b => by
    rw [rowMax, hsup b, hexp b, hlog b, hxr b (ℓ b), ← EReal.coe_sub, ← EReal.coe_sub]
  have h128 : (128 : ℝ) ≠ 0 := by norm_num
  rw [kerLoss, refLoss, Finset.sum_congr rfl (fun b _ => hk b), Finset.sum_congr rfl (fun b _ => hr b),
    ← coe_sum, ← coe_sum, Consts.ofBits_128, Ideal.div_coe h128, Ideal.div_coe h128, ← EReal.coe_mul, ← EReal.coe_mul,
    ← EReal.coe_neg]
  congr 1
  rw [← neg_mul, ← Finset.sum_neg_distrib]
  congr 1
  refine Finset.sum_congr rfl fun b _ => ?_
  ring

end Cert.Math

end
-- ==== Proof.ScoreFacts.lean ====
/-
  Two facts about the scores. Every scaled score is a real number: a clipped cosine lies in [-1, 1] whatever the
  sum it clips, and the margin, the scale and the maximum of three keep it real. And on a finite weight row whose sum
  of squares is positive, multiplying by the reciprocal square root is dividing by the square root.
-/
import proofs.«420243_j57750130262074_2_alg».proof.Proof.Spec
import proofs.«420243_j57750130262074_2_alg».proof.Proof.Consts

noncomputable section

namespace Cert.ScoreFacts

open Idealize.ShloMosaic Cert.Spec

/-- The inclusion of the reals in the extended reals commutes with the maximum of two. -/
theorem coe_max (a b : ℝ) : ((max a b : ℝ) : EReal) = max (a : EReal) (b : EReal) :=
  EReal.coe_strictMono.monotone.map_max

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Clipping any extended real to `[-1, 1]` gives a real number of that interval. -/
theorem clip_real (x : EReal) :
    ∃ y : ℝ, min ((1 : ℝ) : EReal) (max ((-1 : ℝ) : EReal) x) = (y : EReal) ∧ -1 ≤ y ∧ y ≤ 1 := by
  set z : EReal := min ((1 : ℝ) : EReal) (max ((-1 : ℝ) : EReal) x) with hz
  have hle : z ≤ ((1 : ℝ) : EReal) := min_le_left _ _
  have hge : ((-1 : ℝ) : EReal) ≤ z :=
    le_min (EReal.coe_le_coe_iff.2 (by norm_num)) (le_max_left _ _)
  have htop : z ≠ ⊤ := ne_of_lt (lt_of_le_of_lt hle (EReal.coe_lt_top _))
  have hbot : z ≠ ⊥ := ne_of_gt (lt_of_lt_of_le (EReal.bot_lt_coe _) hge)
  have hc : ((z.toReal : ℝ) : EReal) = z := EReal.coe_toReal htop hbot
  refine ⟨z.toReal, hc.symm, ?_, ?_⟩
  · rw [← hc] at hge; exact EReal.coe_le_coe_iff.1 hge
  · rw [← hc] at hle; exact EReal.coe_le_coe_iff.1 hle

/-- A clipped cosine is a real number in `[-1, 1]`, whatever extended real the sum is. -/
theorem logit_real (ne : Fin 128 → Fin 512 → EReal) (wn : Fin 300000 → Fin 512 → EReal) (b : Fin 128) (r : Fin 300000) :
    ∃ x : ℝ, logit ne wn b r = (x : EReal) ∧ -1 ≤ x ∧ x ≤ 1 := by
  unfold logit
  rw [Cert.Consts.ofBits_one, Cert.Consts.ofBits_neg_one]
  exact clip_real _

/-- The score of a class is a real number in `[-1, 1]`: the largest of three such. -/
theorem blk_real (ne : Fin 128 → Fin 512 → EReal) (wn : Fin 300000 → Fin 512 → EReal) (b : Fin 128) (c : Fin 100000) :
    ∃ x : ℝ, blk ne wn b c = (x : EReal) ∧ -1 ≤ x ∧ x ≤ 1 := by
  obtain ⟨x0, h0, l0, u0⟩ := logit_real ne wn b (sub3 c 0)
  obtain ⟨x1, h1, l1, u1⟩ := logit_real ne wn b (sub3 c 1)
  obtain ⟨x2, h2, l2, u2⟩ := logit_real ne wn b (sub3 c 2)
  refine ⟨max (max x0 x1) x2, ?_, ?_, ?_⟩
  · unfold blk
    rw [h0, h1, h2, coe_max, coe_max]
  · exact le_max_of_le_left (le_max_of_le_left l0)
  · exact max_le (max_le u0 u1) u2

/-- The margin of a real cosine is a real number: the radicand `max (1 − t²) 0` is never negative. -/
theorem margin_real (t : ℝ) : ∃ x : ℝ, margin (t : EReal) = (x : EReal) := by
  obtain ⟨a, ha⟩ := Cert.Consts.real_thr
  obtain ⟨c, hc⟩ := Cert.Consts.real_cosM
  obtain ⟨s, hs⟩ := Cert.Consts.real_sinM
  obtain ⟨q, hq⟩ := Cert.Consts.real_sinMM
  unfold margin
  rw [ha, hc, hs, hq, Cert.Consts.ofBits_one]
  split_ifs with h
  · refine ⟨t * c - Real.sqrt (max (1 - t * t) 0) * s, ?_⟩
    have hrad : (((1 : ℝ) : EReal) - (t : EReal) * (t : EReal)) = ((1 - t * t : ℝ) : EReal) := by
      rw [EReal.coe_sub, EReal.coe_mul]
    have hmax : max ((1 - t * t : ℝ) : EReal) 0 = ((max (1 - t * t) 0 : ℝ) : EReal) := by
      rw [coe_max, EReal.coe_zero]
    have hnn : ¬ max (1 - t * t) 0 < 0 := not_lt.2 (le_max_right _ _)
    rw [hrad, hmax, Ideal.sqrt_coe, if_neg hnn, ← EReal.coe_mul, ← EReal.coe_mul, ← EReal.coe_sub]
  · exact ⟨t - q, by rw [← EReal.coe_sub]⟩

/-- Every scaled score is a real number. -/
theorem score_real (ne : Fin 128 → Fin 512 → EReal) (wn : Fin 300000 → Fin 512 → EReal) (ℓ : Fin 128 → Fin 100000)
    (b : Fin 128) (c : Fin 100000) : ∃ x : ℝ, score ne wn ℓ b c = (x : EReal) := by
  obtain ⟨t, ht, -, -⟩ := blk_real ne wn b c
  unfold score
  rw [Cert.Consts.ofBits_64, ht]
  split_ifs with h
  · obtain ⟨m, hm⟩ := margin_real t
    exact ⟨m * 64, by rw [hm, ← EReal.coe_mul]⟩
  · exact ⟨t * 64, by rw [← EReal.coe_mul]⟩

/-- On finite rows of positive sum of squares the two normalisations of the weight agree. -/
theorem wnK_eq_wnR (w : Fin 300000 → Fin 512 → EReal) (hfin : ∀ r d, ∃ x : ℝ, w r d = (x : EReal))
    (hpos : ∀ r, 0 < ssq w r) : wnK w = wnR w := by
  funext r d
  choose f hf using hfin r
  have hs : ssq w r = ((∑ d', f d' * f d' : ℝ) : EReal) := by
    unfold ssq
    rw [coe_sum]
    refine Finset.sum_congr rfl (fun d' _ => ?_)
    rw [hf d', EReal.coe_mul]
  have hp : 0 < ∑ d', f d' * f d' := by
    have := hpos r
    rw [hs] at this
    exact EReal.coe_pos.1 this
  have hsq : Real.sqrt (∑ d', f d' * f d') ≠ 0 := (Real.sqrt_pos.2 hp).ne'
  unfold wnK wnR
  rw [hs, Ideal.rsqrt_coe, if_neg (not_lt.2 hp.le), if_neg hp.ne', Ideal.sqrt_coe, if_neg (not_lt.2 hp.le),
    Ideal.div_coe hsq, one_div]

end Cert.ScoreFacts

end
-- ==== Proof.PreFacts.lean ====
/-
  What the precondition says of the arrays: every weight entry is a real number, every weight row has a positive sum
  of squares, and every label lies in `[0, 100000)`.
-/
import proofs.«420243_j57750130262074_2_alg».proof.Pre_finite_inputs
import proofs.«420243_j57750130262074_2_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx

/-! ## The two float constants of the predicate -/

/-- The pattern `0x7F800000` is `+∞`. -/
theorem ofBits_inf : Ideal.ofBits .f32 0x7F800000#32 = (⊤ : EReal) := by
  simp [Ideal.ofBits, Ideal.ieee]

/-- The pattern `0x00000000` is `0`. -/
theorem ofBits_zero : Ideal.ofBits .f32 0x00000000#32 = (0 : EReal) := by
  simp [Ideal.ofBits, Ideal.ieee]

/-! ## One element of each comparison -/

/-- `|x| < +∞` leaves only the reals. -/
theorem real_of_abs_lt_top (x : EReal) (h : Ideal.cmp .olt (max x (-x)) ⊤ = 1#1) : ∃ r : ℝ, x = (r : EReal) := by
  simp only [Ideal.cmp, StableHlo.Predicate.ofBool_eq_one_iff, decide_eq_true_eq] at h
  induction x using EReal.rec with
  | bot => simp at h
  | coe r => exact ⟨r, rfl⟩
  | top => simp at h

/-- A word that is non-negative as a signed word and below 100000 as a signed word is below 100000 as a natural. -/
theorem toNat_lt_of_cmp (a : BitVec 32) (hge : IntOp.cmpi .sge a 0#32 = 1#1) (hlt : IntOp.cmpi .slt a 100000#32 = 1#1) :
    a.toNat < 100000 := by
  have h31 : a.toNat < 2 ^ 31 := by
    simp only [IntOp.cmpi, StableHlo.Predicate.ofBool_eq_one_iff, BitVec.sle, decide_eq_true_eq] at hge
    have h0 : (0#32 : BitVec 32).toInt = 0 := by decide
    rw [h0, BitVec.toInt_eq_toNat_cond] at hge
    have := a.isLt
    split at hge <;> omega
  have := (StableHlo.Predicate.slt_iff_toNat (a := a) (b := 100000#32) h31 (by decide)).1 hlt
  simpa using this

/-! ## Reading the printed predicate -/

/-- A float compare `|x| < +∞` of the predicate, at one element, says the element is real. -/
theorem finite_at {s : Shape} (hb : Cert.Pre_finite_inputs.S_.BroadcastsInDim s (![] : Fin 0 → Fin s.rank))
    (x : FVec Ideal s .f32) (i : s.Idx)
    (h : cmpf .olt (Host.absf x) (broadcastInDim s ![] hb (constant Cert.Pre_finite_inputs.S_ .f32 0x7F800000#32)) i = 1#1) :
    ∃ r : ℝ, x i = (r : EReal) := by
  have h' : Ideal.cmp .olt (max (x i) (-(x i))) (Ideal.ofBits .f32 0x7F800000#32) = 1#1 := h
  rw [ofBits_inf] at h'
  exact real_of_abs_lt_top _ h'

/-- The sum of a row's squares is positive when the printed compare against zero is one at that row. -/
theorem row_pos (hr' : Cert.Pre_finite_inputs.S300000x512.ReducesTo [1] Cert.Pre_finite_inputs.S300000)
    (hu : 0 < Cert.Pre_finite_inputs.S_.numel)
    (hb : Cert.Pre_finite_inputs.S_.BroadcastsInDim Cert.Pre_finite_inputs.S300000 (![] : Fin 0 → Fin Cert.Pre_finite_inputs.S300000.rank))
    (x : FVec Ideal Cert.Pre_finite_inputs.S300000x512 .f32) (r : Fin 300000)
    (h : cmpf .ogt (Host.reduceAdd (F := Ideal) (mulf x x) (constant (F := Ideal) Cert.Pre_finite_inputs.S_ .f32 0x00000000#32) hr' hu)
        (broadcastInDim Cert.Pre_finite_inputs.S300000 ![] hb (constant (F := Ideal) Cert.Pre_finite_inputs.S_ .f32 0x00000000#32)) (ix1 r) = 1#1) :
    (0 : EReal) < ∑ d : Fin 512, x (ix2 r d) * x (ix2 r d) := by
  have hr : Cert.Pre_finite_inputs.S300000x512.Reduces [1] Cert.Pre_finite_inputs.S300000 := by decide
  have e1 : Host.reduceAdd (F := Ideal) (mulf x x) (constant (F := Ideal) Cert.Pre_finite_inputs.S_ .f32 0x00000000#32) hr' hu
      = Ideal.hostReduceAdd hr' (fun i => x i * x i) (Ideal.ofBits .f32 0x00000000#32) := rfl
  have e2 : broadcastInDim Cert.Pre_finite_inputs.S300000 ![] hb (constant (F := Ideal) Cert.Pre_finite_inputs.S_ .f32 0x00000000#32) (ix1 r)
      = Ideal.ofBits .f32 0x00000000#32 := rfl
  rw [cmpf_apply, Ideal.cmpf_def, e1, e2, Ideal.hostReduceAdd_single hr' hr, ofBits_zero, zero_add] at h
  have h' := h
  simp only [Ideal.cmp, StableHlo.Predicate.ofBool_eq_one_iff, decide_eq_true_eq] at h'
  have hl : ∀ d : Fin 512, hr.lift (ix1 r) d = ix2 r d := by
    intro d
    funext c
    match c with
    | ⟨0, _⟩ => rfl
    | ⟨1, _⟩ => rfl
  refine lt_of_lt_of_eq h' ?_
  exact Finset.sum_congr rfl fun d _ => by rw [hl d]

/-- The precondition, all ones, gives: the weight finite entry by entry, each row's sum of squares positive, and the
    labels in range (as naturals: a label that is non-negative as a signed word and below 100000). -/
theorem of_pre [Cert.Pre_finite_inputs.Facts]
    (x0 : FVec Ideal Cert.Pre_finite_inputs.S128x512 .f32) (x1 : IVec Cert.Pre_finite_inputs.S128 32)
    (x2 : FVec Ideal Cert.Pre_finite_inputs.S300000x512 .f32)
    (h : Cert.Pre_finite_inputs.fn (F := Ideal) x0 x1 x2 = fun _ => 1#1) :
    (∀ (r : Fin 300000) (d : Fin 512), ∃ x : ℝ, x2 (ix2 r d) = (x : EReal))
    ∧ (∀ r : Fin 300000, (0 : EReal) < ∑ d : Fin 512, x2 (ix2 r d) * x2 (ix2 r d))
    ∧ (∀ b : Fin 128, (x1 (ix1 b)).toNat < 100000) := by
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  obtain ⟨h0, hsq⟩ := IntOp.andi_eq_one.1 h0
  obtain ⟨h0, hlt⟩ := IntOp.andi_eq_one.1 h0
  obtain ⟨h0, hge⟩ := IntOp.andi_eq_one.1 h0
  obtain ⟨_, hw⟩ := IntOp.andi_eq_one.1 h0
  refine ⟨fun r d => ?_, fun r => ?_, fun b => ?_⟩
  · exact finite_at _ x2 (ix2 r d) (Host.reduce_andi_all _ _ _ _ _ hw (ix2 r d))
  · exact row_pos _ _ _ x2 r (Host.reduce_andi_all _ _ _ _ _ hsq (ix1 r))
  · exact toNat_lt_of_cmp _ (Host.reduce_andi_all _ _ _ _ _ hge (ix1 b)) (Host.reduce_andi_all _ _ _ _ _ hlt (ix1 b))

end Cert.PreFacts

end
-- ==== Proof.lean ====
/-
  The certificate: the streamed sub-center margin loss equals the direct one on the extended reals.

  Under the precondition — finite float inputs, labels in [0, 100000), every weight row of positive sum of squares —
  the streamed program ends at the streamed loss of the scaled scores (two halves of the classes, each swept in 50
  tiles with a running maximum, a rescaled running sum and the labelled score) and the direct program at the direct
  loss (row maximum, sum of shifted exponentials, logarithm, the labelled log-probability, mean, sign). The scaled
  scores are real numbers, since a clipped cosine lies in [-1, 1] whatever it clips; for real scores the two losses
  are one number; and on a finite row of positive sum of squares multiplying by the reciprocal square root is dividing
  by the square root, so the two programs' scores are the same. The three frames are the programs' runs with the
  results forgotten; the idealized streamed program is the printed one read at the extended reals, nothing rewritten.
-/
import proofs.«420243_j57750130262074_2_alg».proof.Defs
import proofs.«420243_j57750130262074_2_alg».proof.Proof.Gen.Kernel
import proofs.«420243_j57750130262074_2_alg».proof.Proof.Gen.Kernel.Frame
import proofs.«420243_j57750130262074_2_alg».proof.Proof.Gen.KernelIdeal
import proofs.«420243_j57750130262074_2_alg».proof.Proof.Gen.KernelIdeal.Frame
import proofs.«420243_j57750130262074_2_alg».proof.Proof.Gen.ReferenceIdeal
import proofs.«420243_j57750130262074_2_alg».proof.Proof.Gen.Pre_finite_inputs
import proofs.«420243_j57750130262074_2_alg».proof.Proof.KFinal
import proofs.«420243_j57750130262074_2_alg».proof.Proof.RefValue
import proofs.«420243_j57750130262074_2_alg».proof.Proof.Math
import proofs.«420243_j57750130262074_2_alg».proof.Proof.ScoreFacts
import proofs.«420243_j57750130262074_2_alg».proof.Proof.PreFacts
import Idealize.ShloMosaic.Adequacy
import Idealize.ShloMosaic.Init

noncomputable section

namespace Cert.Proof

open Idealize.ShloMosaic Idealize.ShloMosaic.ValueIdx Idealize.SL.Sem Cert.Spec

/-- The word-level streamed program runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- So does the streamed program at the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The direct program's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both programs end at one number: the streamed loss of real scores is their direct loss, and the two
    normalisations of the weight agree on finite rows of positive sum of squares. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  -- what the precondition says of the arrays, on every device
  have hfacts := fun c : Dev Cert.KernelIdeal.nD =>
    @Cert.PreFacts.of_pre Cert.Pre_finite_inputs.Gen.facts _ _ _ (hpre c)
  have hlab : ∀ (c : Dev Cert.KernelIdeal.nD) (b : Fin 128),
      (Cert.KernelIdeal.KArrays.arg1 m c (ix1 b)).toNat < 100000 := fun c b => (hfacts c).2.2 b
  refine ⟨fun c => fun _ => kerLoss (Cert.KernelIdeal.KInduct.sc m c (hlab c)) (Cert.KernelIdeal.KInduct.ell m c (hlab c)),
    Cert.KernelIdeal.KValue.run m g hlab, ?_⟩
  refine (θ_run Cert.ReferenceIdeal.defs _ _).mono (fun _ h c => ⟨(h c).1.trans ?_, (h c).2⟩)
    (Cert.ReferenceIdeal.ValueP.run (F := Ideal) m' g')
  rw [Cert.ReferenceIdeal.ReadP.val_main_v75_eq, (hagree c).1, (hagree c).2.1, (hagree c).2.2]
  refine (Cert.ReferenceIdeal.RefValue.result_eq _ _ _ (hlab c)).trans ?_
  funext _
  have hw : wnR (Cert.Arr.W (Cert.KernelIdeal.KArrays.arg2 m c)) = wnK (Cert.Arr.W (Cert.KernelIdeal.KArrays.arg2 m c)) :=
    (Cert.ScoreFacts.wnK_eq_wnR _ (fun r d => (hfacts c).1 r d) (fun r => (hfacts c).2.1 r)).symm
  show refLoss (score (neOf (Cert.Arr.E (Cert.KernelIdeal.KArrays.arg0 m c))) (wnR (Cert.Arr.W (Cert.KernelIdeal.KArrays.arg2 m c)))
      (Cert.Arr.L (Cert.KernelIdeal.KArrays.arg1 m c) (hlab c))) (Cert.Arr.L (Cert.KernelIdeal.KArrays.arg1 m c) (hlab c)) = _
  rw [hw]
  exact (Cert.Math.kerLoss_eq_refLoss _ _ (fun b c' => Cert.ScoreFacts.score_real _ _ _ b c')).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
